-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S3072 : S_.BroadcastsInDim S3072 (![] : Fin 0 → Fin S3072.rank)
  reducesTo_S3072_S_d0 : S3072.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S4x2048x1024 .f32) (main_arg1 : FVec F S3072x1024 .f32) (main_arg2 : FVec F S3072 .f32) (main_arg3 : FVec F S1024x1024 .f32) (main_arg4 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S3072x1024 .f32 := Host.absf main_arg1
  let main_cst_0 : FVec F S_ .f32 := constant S_ .f32 0x7F800000#32
  let main_v5 : FVec F S3072x1024 .f32 := broadcastInDim S3072x1024 ![] bcast_S_S3072x1024 main_cst_0
  let main_v6 : IVec S3072x1024 1 := cmpf .olt main_v4 main_v5
  let main_c_1 : IVec S_ 1 := constantI S_ 1 1#1
  let main_v7 : IVec S_ 1 := (fun x v => Host.reduce IntOp.andi x v reducesTo_S3072x1024_S_d0_1 h_S_) main_v6 main_c_1
  let main_v8 : IVec S_ 1 := andi main_v3 main_v7
  let main_v9 : FVec F S3072 .f32 := Host.absf main_arg2
  let main_cst_2 : FVec F S_ .f32 := constant S_ .f32 0x7F800000#32
  let main_v10 : FVec F S3072 .f32 := broadcastInDim S3072 ![] bcast_S_S3072 main_cst_2
  let main_v11 : IVec S3072 1 := cmpf .olt main_v9 main_v10
  let main_c_3 : IVec S_ 1 := constantI S_ 1 1#1
  let main_v12 : IVec S_ 1 := (fun x v => Host.reduce IntOp.andi x v reducesTo_S3072_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_v13 main_v16
-- ==== Kernel.lean ====
abbrev S4x2048x1024 : Shape := ⟨3, ![4, 2048, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S8192x1024 : Shape := ⟨2, ![8192, 1024]⟩
abbrev S1x3072 : Shape := ⟨2, ![1, 3072]⟩
abbrev S8192x3072 : Shape := ⟨2, ![8192, 3072]⟩
abbrev S512x1024 : Shape := ⟨2, ![512, 1024]⟩
abbrev S512x3072 : Shape := ⟨2, ![512, 3072]⟩
abbrev S4x2048x3072 : Shape := ⟨3, ![4, 2048, 3072]⟩
abbrev S1x1024 : Shape := ⟨2, ![1, 1024]⟩
abbrev S1x256x1024 : Shape := ⟨3, ![1, 256, 1024]⟩
abbrev S1x2048x1024 : Shape := ⟨3, ![1, 2048, 1024]⟩
abbrev S256x1024 : Shape := ⟨2, ![256, 1024]⟩
abbrev S1x256x64 : Shape := ⟨3, ![1, 256, 64]⟩
abbrev S256x64 : Shape := ⟨2, ![256, 64]⟩
abbrev S1x2048x64 : Shape := ⟨3, ![1, 2048, 64]⟩
abbrev S2048x64 : Shape := ⟨2, ![2048, 64]⟩
abbrev S256x2048 : Shape := ⟨2, ![256, 2048]⟩
abbrev S256 : Shape := ⟨1, ![256]⟩
abbrev S256x1 : Shape := ⟨2, ![256, 1]⟩

abbrev nBuf : Space → Nat
  | .hbm => 13
  | .vmem => 17
  | .smem => 0
  | _ => 0

abbrev bufTy : (tb : Table) → Fin (tcTables nBuf tb) → BufTy
  | .hbm, ⟨0, _⟩ => ⟨S4x2048x1024, .f32⟩
  | .hbm, ⟨1, _⟩ => ⟨S3072x1024, .f32⟩
  | .hbm, ⟨2, _⟩ => ⟨S3072, .f32⟩
  | .hbm, ⟨3, _⟩ => ⟨S1024x1024, .f32⟩
  | .hbm, ⟨4, _⟩ => ⟨S1024, .f32⟩
  | .hbm, ⟨5, _⟩ => ⟨S8192x1024, .f32⟩
  | .hbm, ⟨6, _⟩ => ⟨S3072x1024, .bf16⟩
  | .hbm, ⟨7, _⟩ => ⟨S1x3072, .f32⟩
  | .hbm, ⟨8, _⟩ => ⟨S8192x3072, .bf16⟩
  | .hbm, ⟨9, _⟩ => ⟨S4x2048x3072, .bf16⟩
  | .hbm, ⟨10, _⟩ => ⟨S1024x1024, .bf16⟩
  | .hbm, ⟨11, _⟩ => ⟨S1x1024, .f32⟩
  | .hbm, ⟨12, _⟩ => ⟨S4x2048x1024, .f32⟩
  | .local _ .vmem, ⟨0, _⟩ => ⟨S512x1024, .f32⟩
  | .local _ .vmem, ⟨1, _⟩ => ⟨S512x1024, .f32⟩
  | .local _ .vmem, ⟨2, _⟩ => ⟨S3072x1024, .bf16⟩
  | .local _ .vmem, ⟨3, _⟩ => ⟨S1x3072, .f32⟩
  | .local _ .vmem, ⟨4, _⟩ => ⟨S512x3072, .bf16⟩
  | .local _ .vmem, ⟨5, _⟩ => ⟨S512x3072, .bf16⟩
  | .local _ .vmem, ⟨6, _⟩ => ⟨S1x256x1024, .bf16⟩
  | .local _ .vmem, ⟨7, _⟩ => ⟨S1x256x1024, .bf16⟩
  | .local _ .vmem, ⟨8, _⟩ => ⟨S1x2048x1024, .bf16⟩
  | .local _ .vmem, ⟨9, _⟩ => ⟨S1x2048x1024, .bf16⟩
  | .local _ .vmem, ⟨10, _⟩ => ⟨S1x2048x1024, .bf16⟩
  | .local _ .vmem, ⟨11, _⟩ => ⟨S1x2048x1024, .bf16⟩
  | .local _ .vmem, ⟨12, _⟩ => ⟨S1024x1024, .bf16⟩
  | .local _ .vmem, ⟨13, _⟩ => ⟨S1x1024, .f32⟩
  | .local _ .vmem, ⟨14, _⟩ => ⟨S1x256x1024, .f32⟩
  | .local _ .vmem, ⟨15, _⟩ => ⟨S1x256x1024, .f32⟩
  | .local _ .vmem, ⟨16, _⟩ => ⟨S256x1024, .bf16⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc1_scratch0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem5_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3072x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![4, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![arg0.toNat, c0_i32.toNat, c2_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x256x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S1024x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1x256x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

class Facts₀ : Prop where
  shapeCasts_S4x2048x1024_S8192x1024 : S4x2048x1024.ShapeCasts S8192x1024
  bitsLt_bf16_f32 : FTy.bits .bf16 < FTy.bits .f32
  shapeCasts_S3072_S1x3072 : S3072.ShapeCasts S1x3072
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S3072x1024_S3072x1024_0_0 : ∀ a, (![0, 0] : Fin 2 → Nat) a + S3072x1024.size a ≤ S3072x1024.size a
  h_S3072x1024 : 0 < S3072x1024.numel
  shapeCasts_S3072x1024_S3072x1024 : S3072x1024.ShapeCasts S3072x1024
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  broadcasts_S1x3072_S512x3072 : S1x3072.Broadcasts S512x3072
  inb_S512x3072_S512x3072_0_0 : ∀ a, (![0, 0] : Fin 2 → Nat) a + S512x3072.size a ≤ S512x3072.size a
  h_S512x3072 : 0 < S512x3072.numel
  packedbf16_S512x3072_S512x3072_0_0 : (Rect.unit (s := S512x3072) ![0, 0] S512x3072.size inb_S512x3072_S512x3072_0_0).PackedRows (EltTy.packing .bf16)
  shapeCasts_S8192x3072_S4x2048x3072 : S8192x3072.ShapeCasts S4x2048x3072
  shapeCasts_S1024_S1x1024 : S1024.ShapeCasts S1x1024
  inb_S1x256x1024_S1x256x64_0_0_0 : ∀ a, (![0, 0, 0] : Fin 3 → Nat) a + S1x256x64.size a ≤ S1x256x1024.size a
  h_S1x256x64 : 0 < S1x256x64.numel
  shapeCasts_S1x256x64_S256x64 : S1x256x64.ShapeCasts S256x64
  inb_S1x2048x1024_S1x2048x64_0_0_0 : ∀ a, (![0, 0, 0] : Fin 3 → Nat) a + S1x2048x64.size a ≤ S1x2048x1024.size a
  h_S1x2048x64 : 0 < S1x2048x64.numel
  shapeCasts_S1x2048x64_S2048x64 : S1x2048x64.ShapeCasts S2048x64
  reduces_S256x2048_S256 : S256x2048.Reduces [1] S256
  shapeCasts_S256_S256x1 : S256.ShapeCasts S256x1
  broadcasts_S256x1_S256x2048 : S256x1.Broadcasts S256x2048
  inb_S256x1024_S256x64_0_0 : ∀ a, (![0, 0] : Fin 2 → Nat) a + S256x64.size a ≤ S256x1024.size a
  h_S256x64 : 0 < S256x64.numel
  shapeCasts_S256x64_S256x64 : S256x64.ShapeCasts S256x64
  packedbf16_S256x1024_S256x64_0_0 : (Rect.unit (s := S256x1024) ![0, 0] S256x64.size inb_S256x1024_S256x64_0_0).PackedRows (EltTy.packing .bf16)
  inb_S1x256x1024_S1x256x64_0_0_64 : ∀ a, (![0, 0, 64] : Fin 3 → Nat) a + S1x256x64.size a ≤ S1x256x1024.size a
  inb_S1x2048x1024_S1x2048x64_0_0_64 : ∀ a, (![0, 0, 64] : Fin 3 → Nat) a + S1x2048x64.size a ≤ S1x2048x1024.size a
  inb_S256x1024_S256x64_0_64 : ∀ a, (![0, 64] : Fin 2 → Nat) a + S256x64.size a ≤ S256x1024.size a
  packedbf16_S256x1024_S256x64_0_64 : (Rect.unit (s := S256x1024) ![0, 64] S256x64.size inb_S256x1024_S256x64_0_64).PackedRows (EltTy.packing .bf16)
  inb_S1x256x1024_S1x256x64_0_0_128 : ∀ a, (![0, 0, 128] : Fin 3 → Nat) a + S1x256x64.size a ≤ S1x256x1024.size a
  inb_S1x2048x1024_S1x2048x64_0_0_128 : ∀ a, (![0, 0, 128] : Fin 3 → Nat) a + S1x2048x64.size a ≤ S1x2048x1024.size a
  inb_S256x1024_S256x64_0_128 : ∀ a, (![0, 128] : Fin 2 → Nat) a + S256x64.size a ≤ S256x1024.size a
  packedbf16_S256x1024_S256x64_0_128 : (Rect.unit (s := S256x1024) ![0, 128] S256x64.size inb_S256x1024_S256x64_0_128).PackedRows (EltTy.packing .bf16)
  inb_S1x256x1024_S1x256x64_0_0_192 : ∀ a, (![0, 0, 192] : Fin 3 → Nat) a + S1x256x64.size a ≤ S1x256x1024.size a
  inb_S1x2048x1024_S1x2048x64_0_0_192 : ∀ a, (![0, 0, 192] : Fin 3 → Nat) a + S1x2048x64.size a ≤ S1x2048x1024.size a
  inb_S256x1024_S256x64_0_192 : ∀ a, (![0, 192] : Fin 2 → Nat) a + S256x64.size a ≤ S256x1024.size a
  packedbf16_S256x1024_S256x64_0_192 : (Rect.unit (s := S256x1024) ![0, 192] S256x64.size inb_S256x1024_S256x64_0_192).PackedRows (EltTy.packing .bf16)
  inb_S1x256x1024_S1x256x64_0_0_256 : ∀ a, (![0, 0, 256] : Fin 3 → Nat) a + S1x256x64.size a ≤ S1x256x1024.size a
  inb_S1x2048x1024_S1x2048x64_0_0_256 : ∀ a, (![0, 0, 256] : Fin 3 → Nat) a + S1x2048x64.size a ≤ S1x2048x1024.size a
  inb_S256x1024_S256x64_0_256 : ∀ a, (![0, 256] : Fin 2 → Nat) a + S256x64.size a ≤ S256x1024.size a
  packedbf16_S256x1024_S256x64_0_256 : (Rect.unit (s := S256x1024) ![0, 256] S256x64.size inb_S256x1024_S256x64_0_256).PackedRows (EltTy.packing .bf16)
  inb_S1x256x1024_S1x256x64_0_0_320 : ∀ a, (![0, 0, 320] : Fin 3 → Nat) a + S1x256x64.size a ≤ S1x256x1024.size a
  inb_S1x2048x1024_S1x2048x64_0_0_320 : ∀ a, (![0, 0, 320] : Fin 3 → Nat) a + S1x2048x64.size a ≤ S1x2048x1024.size a
  inb_S256x1024_S256x64_0_320 : ∀ a, (![0, 320] : Fin 2 → Nat) a + S256x64.size a ≤ S256x1024.size a
  packedbf16_S256x1024_S256x64_0_320 : (Rect.unit (s := S256x1024) ![0, 320] S256x64.size inb_S256x1024_S256x64_0_320).PackedRows (EltTy.packing .bf16)
  inb_S1x256x1024_S1x256x64_0_0_384 : ∀ a, (![0, 0, 384] : Fin 3 → Nat) a + S1x256x64.size a ≤ S1x256x1024.size a
  inb_S1x2048x1024_S1x2048x64_0_0_384 : ∀ a, (![0, 0, 384] : Fin 3 → Nat) a + S1x2048x64.size a ≤ S1x2048x1024.size a
  inb_S256x1024_S256x64_0_384 : ∀ a, (![0, 384] : Fin 2 → Nat) a + S256x64.size a ≤ S256x1024.size a
  packedbf16_S256x1024_S256x64_0_384 : (Rect.unit (s := S256x1024) ![0, 384] S256x64.size inb_S256x1024_S256x64_0_384).PackedRows (EltTy.packing .bf16)
  inb_S1x256x1024_S1x256x64_0_0_448 : ∀ a, (![0, 0, 448] : Fin 3 → Nat) a + S1x256x64.size a ≤ S1x256x1024.size a
  inb_S1x2048x1024_S1x2048x64_0_0_448 : ∀ a, (![0, 0, 448] : Fin 3 → Nat) a + S1x2048x64.size a ≤ S1x2048x1024.size a
  inb_S256x1024_S256x64_0_448 : ∀ a, (![0, 448] : Fin 2 → Nat) a + S256x64.size a ≤ S256x1024.size a
  packedbf16_S256x1024_S256x64_0_448 : (Rect.unit (s := S256x1024) ![0, 448] S256x64.size inb_S256x1024_S256x64_0_448).PackedRows (EltTy.packing .bf16)
  inb_S1x256x1024_S1x256x64_0_0_512 : ∀ a, (![0, 0, 512] : Fin 3 → Nat) a + S1x256x64.size a ≤ S1x256x1024.size a
  inb_S1x2048x1024_S1x2048x64_0_0_512 : ∀ a, (![0, 0, 512] : Fin 3 → Nat) a + S1x2048x64.size a ≤ S1x2048x1024.size a
  inb_S256x1024_S256x64_0_512 : ∀ a, (![0, 512] : Fin 2 → Nat) a + S256x64.size a ≤ S256x1024.size a
  packedbf16_S256x1024_S256x64_0_512 : (Rect.unit (s := S256x1024) ![0, 512] S256x64.size inb_S256x1024_S256x64_0_512).PackedRows (EltTy.packing .bf16)
  inb_S1x256x1024_S1x256x64_0_0_576 : ∀ a, (![0, 0, 576] : Fin 3 → Nat) a + S1x256x64.size a ≤ S1x256x1024.size a
  inb_S1x2048x1024_S1x2048x64_0_0_576 : ∀ a, (![0, 0, 576] : Fin 3 → Nat) a + S1x2048x64.size a ≤ S1x2048x1024.size a
  inb_S256x1024_S256x64_0_576 : ∀ a, (![0, 576] : Fin 2 → Nat) a + S256x64.size a ≤ S256x1024.size a
  packedbf16_S256x1024_S256x64_0_576 : (Rect.unit (s := S256x1024) ![0, 576] S256x64.size inb_S256x1024_S256x64_0_576).PackedRows (EltTy.packing .bf16)
  inb_S1x256x1024_S1x256x64_0_0_640 : ∀ a, (![0, 0, 640] : Fin 3 → Nat) a + S1x256x64.size a ≤ S1x256x1024.size a
  inb_S1x2048x1024_S1x2048x64_0_0_640 : ∀ a, (![0, 0, 640] : Fin 3 → Nat) a + S1x2048x64.size a ≤ S1x2048x1024.size a
  inb_S256x1024_S256x64_0_640 : ∀ a, (![0, 640] : Fin 2 → Nat) a + S256x64.size a ≤ S256x1024.size a
  packedbf16_S256x1024_S256x64_0_640 : (Rect.unit (s := S256x1024) ![0, 640] S256x64.size inb_S256x1024_S256x64_0_640).PackedRows (EltTy.packing .bf16)
  inb_S1x256x1024_S1x256x64_0_0_704 : ∀ a, (![0, 0, 704] : Fin 3 → Nat) a + S1x256x64.size a ≤ S1x256x1024.size a
  inb_S1x2048x1024_S1x2048x64_0_0_704 : ∀ a, (![0, 0, 704] : Fin 3 → Nat) a + S1x2048x64.size a ≤ S1x2048x1024.size a
  inb_S256x1024_S256x64_0_704 : ∀ a, (![0, 704] : Fin 2 → Nat) a + S256x64.size a ≤ S256x1024.size a
  packedbf16_S256x1024_S256x64_0_704 : (Rect.unit (s := S256x1024) ![0, 704] S256x64.size inb_S256x1024_S256x64_0_704).PackedRows (EltTy.packing .bf16)
  inb_S1x256x1024_S1x256x64_0_0_768 : ∀ a, (![0, 0, 768] : Fin 3 → Nat) a + S1x256x64.size a ≤ S1x256x1024.size a
  inb_S1x2048x1024_S1x2048x64_0_0_768 : ∀ a, (![0, 0, 768] : Fin 3 → Nat) a + S1x2048x64.size a ≤ S1x2048x1024.size a
  inb_S256x1024_S256x64_0_768 : ∀ a, (![0, 768] : Fin 2 → Nat) a + S256x64.size a ≤ S256x1024.size a
  packedbf16_S256x1024_S256x64_0_768 : (Rect.unit (s := S256x1024) ![0, 768] S256x64.size inb_S256x1024_S256x64_0_768).PackedRows (EltTy.packing .bf16)
  inb_S1x256x1024_S1x256x64_0_0_832 : ∀ a, (![0, 0, 832] : Fin 3 → Nat) a + S1x256x64.size a ≤ S1x256x1024.size a
  inb_S1x2048x1024_S1x2048x64_0_0_832 : ∀ a, (![0, 0, 832] : Fin 3 → Nat) a + S1x2048x64.size a ≤ S1x2048x1024.size a
  inb_S256x1024_S256x64_0_832 : ∀ a, (![0, 832] : Fin 2 → Nat) a + S256x64.size a ≤ S256x1024.size a
  packedbf16_S256x1024_S256x64_0_832 : (Rect.unit (s := S256x1024) ![0, 832] S256x64.size inb_S256x1024_S256x64_0_832).PackedRows (EltTy.packing .bf16)
  inb_S1x256x1024_S1x256x64_0_0_896 : ∀ a, (![0, 0, 896] : Fin 3 → Nat) a + S1x256x64.size a ≤ S1x256x1024.size a
  inb_S1x2048x1024_S1x2048x64_0_0_896 : ∀ a, (![0, 0, 896] : Fin 3 → Nat) a + S1x2048x64.size a ≤ S1x2048x1024.size a
  inb_S256x1024_S256x64_0_896 : ∀ a, (![0, 896] : Fin 2 → Nat) a + S256x64.size a ≤ S256x1024.size a
  packedbf16_S256x1024_S256x64_0_896 : (Rect.unit (s := S256x1024) ![0, 896] S256x64.size inb_S256x1024_S256x64_0_896).PackedRows (EltTy.packing .bf16)
  inb_S1x256x1024_S1x256x64_0_0_960 : ∀ a, (![0, 0, 960] : Fin 3 → Nat) a + S1x256x64.size a ≤ S1x256x1024.size a
  inb_S1x2048x1024_S1x2048x64_0_0_960 : ∀ a, (![0, 0, 960] : Fin 3 → Nat) a + S1x2048x64.size a ≤ S1x2048x1024.size a
  inb_S256x1024_S256x64_0_960 : ∀ a, (![0, 960] : Fin 2 → Nat) a + S256x64.size a ≤ S256x1024.size a
  packedbf16_S256x1024_S256x64_0_960 : (Rect.unit (s := S256x1024) ![0, 960] S256x64.size inb_S256x1024_S256x64_0_960).PackedRows (EltTy.packing .bf16)
  inb_S256x1024_S256x1024_0_0 : ∀ a, (![0, 0] : Fin 2 → Nat) a + S256x1024.size a ≤ S256x1024.size a
  h_S256x1024 : 0 < S256x1024.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  shapeCasts_S256x1024_S1x256x1024 : S256x1024.ShapeCasts S1x256x1024
  dot_S512x1024_S3072x1024_S512x3072_1_1_0_0_n_n_wf : DotDims.WF S512x1024 S3072x1024 S512x3072 [1] [1] [0] [0] [] []
  dot_S256x64_S2048x64_S256x2048_1_1_0_0_n_n_wf : DotDims.WF S256x64 S2048x64 S256x2048 [1] [1] [0] [0] [] []
  dot_S256x2048_S2048x64_S256x64_1_0_0_1_n_n_wf : DotDims.WF S256x2048 S2048x64 S256x64 [1] [0] [0] [1] [] []
  dot_S256x1024_S1024x1024_S256x1024_1_1_0_0_n_n_wf : DotDims.WF S256x1024 S1024x1024 S256x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3072x1024.size a ≤ S3072x1024.size a
  hwx0_1 : ∀ i : grid0.Coords, EltTy.bits .bf16 = 32 ∨ (Rect.block (s := S3072x1024) S3072x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x3072.size a ≤ S1x3072.size a
  hwx0_2 : ∀ i : grid0.Coords, EltTy.bits .f32 = 32 ∨ (Rect.block (s := S1x3072) S1x3072.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x3072.size a ≤ S8192x3072.size a
  hwx0_3 : ∀ i : grid0.Coords, EltTy.bits .bf16 = 32 ∨ (Rect.block (s := S8192x3072) S512x3072.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x1024.size a ≤ S4x2048x3072.size a
  hwx1_0 : ∀ i : grid1.Coords, EltTy.bits .bf16 = 32 ∨ (Rect.block (s := S4x2048x3072) S1x256x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x1024.size a ≤ S4x2048x3072.size a
  hwx1_1 : ∀ i : grid1.Coords, EltTy.bits .bf16 = 32 ∨ (Rect.block (s := S4x2048x3072) S1x2048x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x1024.size a ≤ S4x2048x3072.size a
  hwx1_2 : ∀ i : grid1.Coords, EltTy.bits .bf16 = 32 ∨ (Rect.block (s := S4x2048x3072) S1x2048x1024.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S1024x1024.size a
  hwx1_3 : ∀ i : grid1.Coords, EltTy.bits .bf16 = 32 ∨ (Rect.block (s := S1024x1024) S1024x1024.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1024.size a ≤ S1x1024.size a
  hwx1_4 : ∀ i : grid1.Coords, EltTy.bits .f32 = 32 ∨ (Rect.block (s := S1x1024) S1x1024.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x256x1024.size a ≤ S4x2048x1024.size a
  hwx1_5 : ∀ i : grid1.Coords, EltTy.bits .f32 = 32 ∨ (Rect.block (s := S4x2048x1024) S1x256x1024.size (cc1_transform_5 i) (hinb1_5 i)).WholeWords (EltTy.packing .f32)

variable [Facts₀]

def dot_S512x1024_S3072x1024_S512x3072_1_1_0_0_n_n : DotDims S512x1024 S3072x1024 S512x3072 where
  lhsContracting := [1]
  rhsContracting := [1]
  lhsNonContracting := [0]
  rhsNonContracting := [0]
  lhsBatch := []
  rhsBatch := []
  wf := dot_S512x1024_S3072x1024_S512x3072_1_1_0_0_n_n_wf
def dot_S256x64_S2048x64_S256x2048_1_1_0_0_n_n : DotDims S256x64 S2048x64 S256x2048 where
  lhsContracting := [1]
  rhsContracting := [1]
  lhsNonContracting := [0]
  rhsNonContracting := [0]
  lhsBatch := []
  rhsBatch := []
  wf := dot_S256x64_S2048x64_S256x2048_1_1_0_0_n_n_wf
def dot_S256x2048_S2048x64_S256x64_1_0_0_1_n_n : DotDims S256x2048 S2048x64 S256x64 where
  lhsContracting := [1]
  rhsContracting := [0]
  lhsNonContracting := [0]
  rhsNonContracting := [1]
  lhsBatch := []
  rhsBatch := []
  wf := dot_S256x2048_S2048x64_S256x64_1_0_0_1_n_n_wf
def dot_S256x1024_S1024x1024_S256x1024_1_1_0_0_n_n : DotDims S256x1024 S1024x1024 S256x1024 where
  lhsContracting := [1]
  rhsContracting := [1]
  lhsNonContracting := [0]
  rhsNonContracting := [0]
  lhsBatch := []
  rhsBatch := []
  wf := dot_S256x1024_S1024x1024_S256x1024_1_1_0_0_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S3072x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S512x3072.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v4) S1x256x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S1x2048x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x2048x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v5) S1024x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v6) S1x1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v7) S1x256x1024.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S4x2048x1024 : Shape := ⟨3, ![4, 2048, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S4x2048x3072 : Shape := ⟨3, ![4, 2048, 3072]⟩
abbrev S1x1x3072 : Shape := ⟨3, ![1, 1, 3072]⟩
abbrev S4x2048x3x16x64 : Shape := ⟨5, ![4, 2048, 3, 16, 64]⟩
abbrev S3x4x16x2048x64 : Shape := ⟨5, ![3, 4, 16, 2048, 64]⟩
abbrev S1x4x16x2048x64 : Shape := ⟨5, ![1, 4, 16, 2048, 64]⟩
abbrev S4x16x2048x64 : Shape := ⟨4, ![4, 16, 2048, 64]⟩
abbrev S_ : Shape := ⟨0, ![]⟩
abbrev S4x16x2048x2048 : Shape := ⟨4, ![4, 16, 2048, 2048]⟩
abbrev S4x16x2048 : Shape := ⟨3, ![4, 16, 2048]⟩
abbrev S4x16x2048x1 : Shape := ⟨4, ![4, 16, 2048, 1]⟩
abbrev S4x2048x16x64 : Shape := ⟨4, ![4, 2048, 16, 64]⟩
abbrev S1x1x1024 : Shape := ⟨3, ![1, 1, 1024]⟩

abbrev nBuf : Space → Nat
  | .hbm => 45
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S3072x1024, .f32⟩
  | .hbm, ⟨2, _⟩ => ⟨S3072, .f32⟩
  | .hbm, ⟨3, _⟩ => ⟨S1024x1024, .f32⟩
  | .hbm, ⟨4, _⟩ => ⟨S1024, .f32⟩
  | .hbm, ⟨5, _⟩ => ⟨S4x2048x3072, .f32⟩
  | .hbm, ⟨6, _⟩ => ⟨S1x1x3072, .f32⟩
  | .hbm, ⟨7, _⟩ => ⟨S4x2048x3072, .f32⟩
  | .hbm, ⟨8, _⟩ => ⟨S4x2048x3072, .f32⟩
  | .hbm, ⟨9, _⟩ => ⟨S4x2048x3x16x64, .f32⟩
  | .hbm, ⟨10, _⟩ => ⟨S3x4x16x2048x64, .f32⟩
  | .hbm, ⟨11, _⟩ => ⟨S1x4x16x2048x64, .f32⟩
  | .hbm, ⟨12, _⟩ => ⟨S4x16x2048x64, .f32⟩
  | .hbm, ⟨13, _⟩ => ⟨S1x4x16x2048x64, .f32⟩
  | .hbm, ⟨14, _⟩ => ⟨S4x16x2048x64, .f32⟩
  | .hbm, ⟨15, _⟩ => ⟨S1x4x16x2048x64, .f32⟩
  | .hbm, ⟨16, _⟩ => ⟨S4x16x2048x64, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S4x16x2048x2048, .f32⟩
  | .hbm, ⟨22, _⟩ => ⟨S4x16x2048x2048, .f32⟩
  | .hbm, ⟨23, _⟩ => ⟨S4x16x2048x2048, .f32⟩
  | .hbm, ⟨24, _⟩ => ⟨S_, .f32⟩
  | .hbm, ⟨25, _⟩ => ⟨S4x16x2048, .f32⟩
  | .hbm, ⟨26, _⟩ => ⟨S_, .f32⟩
  | .hbm, ⟨27, _⟩ => ⟨S4x16x2048, .f32⟩
  | .hbm, ⟨28, _⟩ => ⟨S4x16x2048, .f32⟩
  | .hbm, ⟨29, _⟩ => ⟨S4x16x2048x1, .f32⟩
  | .hbm, ⟨30, _⟩ => ⟨S4x16x2048x2048, .f32⟩
  | .hbm, ⟨31, _⟩ => ⟨S4x16x2048x2048, .f32⟩
  | .hbm, ⟨32, _⟩ => ⟨S4x16x2048x2048, .f32⟩
  | .hbm, ⟨33, _⟩ => ⟨S_, .f32⟩
  | .hbm, ⟨34, _⟩ => ⟨S4x16x2048, .f32⟩
  | .hbm, ⟨35, _⟩ => ⟨S4x16x2048x1, .f32⟩
  | .hbm, ⟨36, _⟩ => ⟨S4x16x2048x2048, .f32⟩
  | .hbm, ⟨37, _⟩ => ⟨S4x16x2048x2048, .f32⟩
  | .hbm, ⟨38, _⟩ => ⟨S4x16x2048x64, .f32⟩
  | .hbm, ⟨39, _⟩ => ⟨S4x2048x16x64, .f32⟩
  | .hbm, ⟨40, _⟩ => ⟨S4x2048x1024, .f32⟩
  | .hbm, ⟨41, _⟩ => ⟨S4x2048x1024, .f32⟩
  | .hbm, ⟨42, _⟩ => ⟨S1x1x1024, .f32⟩
  | .hbm, ⟨43, _⟩ => ⟨S4x2048x1024, .f32⟩
  | .hbm, ⟨44, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩

abbrev nD : Nat := 1
abbrev τ : Topo := Topo.v7x

variable {F : FTy → Type} [FloatOps F]

class Facts₀ : Prop where
  bcast_S3072_S1x1x3072_2 : S3072.BroadcastsInDim S1x1x3072 (![2] : Fin 1 → Fin S1x1x3072.rank)
  bcast_S1x1x3072_S4x2048x3072_0_1_2 : S1x1x3072.BroadcastsInDim S4x2048x3072 (![0, 1, 2] : Fin 3 → Fin S4x2048x3072.rank)
  shapeCasts_S4x2048x3072_S4x2048x3x16x64 : S4x2048x3072.ShapeCasts S4x2048x3x16x64
  transposes_S4x2048x3x16x64_S3x4x16x2048x64_2_0_3_1_4 : S4x2048x3x16x64.Transposes [2, 0, 3, 1, 4] S3x4x16x2048x64
  slices_S3x4x16x2048x64_S1x4x16x2048x64_0_0_0_0_0 : S3x4x16x2048x64.Slices ![0, 0, 0, 0, 0] S1x4x16x2048x64
  shapeCasts_S1x4x16x2048x64_S4x16x2048x64 : S1x4x16x2048x64.ShapeCasts S4x16x2048x64
  slices_S3x4x16x2048x64_S1x4x16x2048x64_1_0_0_0_0 : S3x4x16x2048x64.Slices ![1, 0, 0, 0, 0] S1x4x16x2048x64
  slices_S3x4x16x2048x64_S1x4x16x2048x64_2_0_0_0_0 : S3x4x16x2048x64.Slices ![2, 0, 0, 0, 0] S1x4x16x2048x64
  bcast_S_S4x16x2048x2048 : S_.BroadcastsInDim S4x16x2048x2048 (![] : Fin 0 → Fin S4x16x2048x2048.rank)
  reducesTo_S4x16x2048x2048_S4x16x2048_d3 : S4x16x2048x2048.ReducesTo [3] S4x16x2048
  h_S_ : 0 < S_.numel
  bcast_S_S4x16x2048 : S_.BroadcastsInDim S4x16x2048 (![] : Fin 0 → Fin S4x16x2048.rank)
  bcast_S4x16x2048_S4x16x2048x1_0_1_2 : S4x16x2048.BroadcastsInDim S4x16x2048x1 (![0, 1, 2] : Fin 3 → Fin S4x16x2048x1.rank)
  bcast_S4x16x2048x1_S4x16x2048x2048_0_1_2_3 : S4x16x2048x1.BroadcastsInDim S4x16x2048x2048 (![0, 1, 2, 3] : Fin 4 → Fin S4x16x2048x2048.rank)
  transposes_S4x16x2048x64_S4x2048x16x64_0_2_1_3 : S4x16x2048x64.Transposes [0, 2, 1, 3] S4x2048x16x64
  shapeCasts_S4x2048x16x64_S4x2048x1024 : S4x2048x16x64.ShapeCasts S4x2048x1024
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  dot_S4x2048x1024_S3072x1024_S4x2048x3072_2_1_01_0_n_n_wf : DotDims.WF S4x2048x1024 S3072x1024 S4x2048x3072 [2] [1] [0, 1] [0] [] []
  dot_S4x16x2048x64_S4x16x2048x64_S4x16x2048x2048_3_3_2_2_01_01_wf : DotDims.WF S4x16x2048x64 S4x16x2048x64 S4x16x2048x2048 [3] [3] [2] [2] [0, 1] [0, 1]
  dot_S4x16x2048x2048_S4x16x2048x64_S4x16x2048x64_3_2_2_3_01_01_wf : DotDims.WF S4x16x2048x2048 S4x16x2048x64 S4x16x2048x64 [3] [2] [2] [3] [0, 1] [0, 1]
  dot_S4x2048x1024_S1024x1024_S4x2048x1024_2_1_01_0_n_n_wf : DotDims.WF S4x2048x1024 S1024x1024 S4x2048x1024 [2] [1] [0, 1] [0] [] []

variable [Facts₀]

def dot_S4x2048x1024_S3072x1024_S4x2048x3072_2_1_01_0_n_n : DotDims S4x2048x1024 S3072x1024 S4x2048x3072 where
  lhsContracting := [2]
  rhsContracting := [1]
  lhsNonContracting := [0, 1]
  rhsNonContracting := [0]
  lhsBatch := []
  rhsBatch := []
  wf := dot_S4x2048x1024_S3072x1024_S4x2048x3072_2_1_01_0_n_n_wf
def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf
def dot_S4x16x2048x2048_S4x16x2048x64_S4x16x2048x64_3_2_2_3_01_01 : DotDims S4x16x2048x2048 S4x16x2048x64 S4x16x2048x64 where
  lhsContracting := [3]
  rhsContracting := [2]
  lhsNonContracting := [2]
  rhsNonContracting := [3]
  lhsBatch := [0, 1]
  rhsBatch := [0, 1]
  wf := dot_S4x16x2048x2048_S4x16x2048x64_S4x16x2048x64_3_2_2_3_01_01_wf
def dot_S4x2048x1024_S1024x1024_S4x2048x1024_2_1_01_0_n_n : DotDims S4x2048x1024 S1024x1024 S4x2048x1024 where
  lhsContracting := [2]
  rhsContracting := [1]
  lhsNonContracting := [0, 1]
  rhsNonContracting := [0]
  lhsBatch := []
  rhsBatch := []
  wf := dot_S4x2048x1024_S1024x1024_S4x2048x1024_2_1_01_0_n_n_wf

class Facts : Prop extends Facts₀ where

variable [Facts]
-- ==== Proof.K.Reg0.lean ====
/-
  The projection region (the first pallas_call): a grid of 16 row blocks. At point t the body loads the
  512×1024 block of x, the whole 3072×1024 weight and the 1×3072 bias from their staging buffers, forms
  x·wᵀ + b and stores the 512×3072 result block. Stated for any float instance and at any contents `V` of the
  core's buffers when the region is entered.
-/
import proofs.«409074_j27238682591490_3_alg».proof.Proof.Gen.Kernel.Launch
import proofs.«409074_j27238682591490_3_alg».proof.Proof.Gen.Kernel.Skeleton
import proofs.«409074_j27238682591490_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Blocks -/

/-- Window `w`'s block at point `t`, read off the window's array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, whether the pipeline fetched there or kept the
    buffer: the window is never cut or idle, and an unfetched point has the block index of the point before. One
    statement per input window (the block's type reduces only at a literal window). -/
theorem before0_0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = blk0 V c 2 t) (t : Fin cfg0.N) (d) : dat.before 2 t d = blk0 V c 2 t :=
  (dat.before_in_eq_fetched 2 rfl (fun _ => rfl) (fun _ _ _ => rfl) (fun t => by rw [hafter]; unfold Dat.blockOf blk0; rw [hA]; try rfl) t d).trans
    (by unfold Dat.fetched Dat.blockOf blk0; rw [hA]; try rfl)

/-! ## The body -/

abbrev rX0 : Rect S512x1024 := Rect.unit (s := S512x1024) ![0, 0] S512x1024.size inb_S512x1024_S512x1024_0_0
abbrev rW0 : Rect S3072x1024 := Rect.unit (s := S3072x1024) ![0, 0] S3072x1024.size inb_S3072x1024_S3072x1024_0_0
abbrev rB0 : Rect S1x3072 := Rect.unit (s := S1x3072) ![0, 0] S1x3072.size inb_S1x3072_S1x3072_0_0
abbrev rO0 : Rect S512x3072 := Rect.unit (s := S512x3072) ![0, 0] S512x3072.size inb_S512x3072_S512x3072_0_0

/-- What the body leaves in the result's staging buffer: one store of the whole block, its value the
    projection of the three loaded blocks. -/
def out0 (x : Vec F S512x1024 .f32) (w : Vec F S3072x1024 .bf16) (b : Vec F S1x3072 .f32) : Vec F S512x3072 .bf16 :=
  View.canon [⟨rO0, k0_pay1 (View.ld x rX0) (View.ld w rW0) (View.ld b rB0)⟩]

/-- The one store covers the buffer. -/
theorem cover0 (p0 : Vec F S512x3072 .bf16) (y : S512x3072.Idx) :
    ∃ pc ∈ ([⟨rO0, p0⟩] : List (View.Piece (Elt F) S512x3072 .bf16)), y ∈ pc.1.set :=
  View.cover_of_tiled [⟨rO0, p0⟩] S512x3072.size (by rfl) y

set_option maxHeartbeats 1000000 in
/-- The body on whole staging memrefs: inputs at `x`, `w`, `b`, the result's buffer at anything; it returns with the
    inputs as they were and the result's buffer at `out0 x w b`. -/
theorem sound_kernel0 (c : Dev nD) (E : Set ℕ) (i : grid0.Coords)
    (arg1 : Memref sig .tc .vmem S512x1024 .f32) (harg1 : arg1.IsWhole) (arg2 : Memref sig .tc .vmem S3072x1024 .bf16) (harg2 : arg2.IsWhole)
    (arg3 : Memref sig .tc .vmem S1x3072 .f32) (harg3 : arg3.IsWhole) (arg4 : Memref sig .tc .vmem S512x3072 .bf16) (harg4 : arg4.IsWhole)
    (x : Vec F S512x1024 .f32) (w : Vec F S3072x1024 .bf16) (b : Vec F S1x3072 .f32) (K : PUnit → sProp 𝕄) :
    iprop(owns (c : Thread nD τ) arg1 fullShare x ∗ owns (c : Thread nD τ) arg2 fullShare w ∗ owns (c : Thread nD τ) arg3 fullShare b
        ∗ (∃ d, owns (c : Thread nD τ) arg4 fullShare d)
        ∗ (iprop(owns (c : Thread nD τ) arg1 fullShare x ∗ owns (c : Thread nD τ) arg2 fullShare w ∗ owns (c : Thread nD τ) arg3 fullShare b
            ∗ owns (c : Thread nD τ) arg4 fullShare (out0 x w b)) -∗ K ⟨⟩))
      ⊢ wp frame (wpE (defs₀ (F := F)) Variants.none c none) E (cc0__proj_kernel i arg1 harg1 arg2 harg2 arg3 harg3 arg4 harg4) K := by
  simp only [cc0__proj_kernel_eq_skeleton]; unfold cc0__proj_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0 _)

/-! ## The proof data -/

/-- Region 0's proof data on core `c`: the arrays as entered; after the body each input's buffer at its block, the
    result's at `out0` of the input blocks; the invariant is the scoped rest and the generator register, untouched;
    nothing owed; full shares. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => out0 (blk0 V c 0 t) (blk0 V c 1 t) (blk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = blk0 V c 2 t := by dsimp only [dat0]
theorem after0_3 (c : Dev nD) (t : Fin cfg0.N) :
    (dat0 V c).after 3 t = out0 (blk0 V c 0 t) (blk0 V c 1 t) (blk0 V c 2 t) := by dsimp only [dat0]

theorem before0_0 (c : Dev nD) (t : Fin cfg0.N) (d) : (dat0 V c).before 0 t d = blk0 V c 0 t :=
  before0_0_of V (dat0 V c) (A_eq0 V c 0) (after0_0 V c) t d
theorem before0_1 (c : Dev nD) (t : Fin cfg0.N) (d) : (dat0 V c).before 1 t d = blk0 V c 1 t :=
  before0_1_of V (dat0 V c) (A_eq0 V c 1) (after0_1 V c) t d
theorem before0_2 (c : Dev nD) (t : Fin cfg0.N) (d) : (dat0 V c).before 2 t d = blk0 V c 2 t :=
  before0_2_of V (dat0 V c) (A_eq0 V c 2) (after0_2 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (blk0 V c 0 t) (blk0 V c 1 t) (blk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Body1.lean ====
/-
  The attention region's body (the second pallas_call). At a point it holds a 256-row query block and the batch's
  whole key and value blocks, each 1024 columns wide = 16 heads of 64. Head h takes columns [64h, 64h + 64) of each,
  scales the query by 1/8, forms the 256×2048 scores, the row softmax, and the 256×64 context, which it stores into
  columns [64h, 64h + 64) of a 256×1024 scratch; the scratch, read back whole, is projected by woᵀ, the bias added,
  and the 256×1024 result stored. Every head is the same function `headOut` of its three column slices.
-/
import proofs.«409074_j27238682591490_3_alg».proof.Proof.Gen.Kernel.Launch
import proofs.«409074_j27238682591490_3_alg».proof.Proof.Gen.Kernel.Skeleton
import proofs.«409074_j27238682591490_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body reads and writes -/

abbrev rQ0 : Rect S1x256x1024 := Rect.unit (s := S1x256x1024) ![0, 0, 0] S1x256x64.size inb_S1x256x1024_S1x256x64_0_0_0
abbrev rQ1 : Rect S1x256x1024 := Rect.unit (s := S1x256x1024) ![0, 0, 64] S1x256x64.size inb_S1x256x1024_S1x256x64_0_0_64
abbrev rQ2 : Rect S1x256x1024 := Rect.unit (s := S1x256x1024) ![0, 0, 128] S1x256x64.size inb_S1x256x1024_S1x256x64_0_0_128
abbrev rQ3 : Rect S1x256x1024 := Rect.unit (s := S1x256x1024) ![0, 0, 192] S1x256x64.size inb_S1x256x1024_S1x256x64_0_0_192
abbrev rQ4 : Rect S1x256x1024 := Rect.unit (s := S1x256x1024) ![0, 0, 256] S1x256x64.size inb_S1x256x1024_S1x256x64_0_0_256
abbrev rQ5 : Rect S1x256x1024 := Rect.unit (s := S1x256x1024) ![0, 0, 320] S1x256x64.size inb_S1x256x1024_S1x256x64_0_0_320
abbrev rQ6 : Rect S1x256x1024 := Rect.unit (s := S1x256x1024) ![0, 0, 384] S1x256x64.size inb_S1x256x1024_S1x256x64_0_0_384
abbrev rQ7 : Rect S1x256x1024 := Rect.unit (s := S1x256x1024) ![0, 0, 448] S1x256x64.size inb_S1x256x1024_S1x256x64_0_0_448
abbrev rQ8 : Rect S1x256x1024 := Rect.unit (s := S1x256x1024) ![0, 0, 512] S1x256x64.size inb_S1x256x1024_S1x256x64_0_0_512
abbrev rQ9 : Rect S1x256x1024 := Rect.unit (s := S1x256x1024) ![0, 0, 576] S1x256x64.size inb_S1x256x1024_S1x256x64_0_0_576
abbrev rQ10 : Rect S1x256x1024 := Rect.unit (s := S1x256x1024) ![0, 0, 640] S1x256x64.size inb_S1x256x1024_S1x256x64_0_0_640
abbrev rQ11 : Rect S1x256x1024 := Rect.unit (s := S1x256x1024) ![0, 0, 704] S1x256x64.size inb_S1x256x1024_S1x256x64_0_0_704
abbrev rQ12 : Rect S1x256x1024 := Rect.unit (s := S1x256x1024) ![0, 0, 768] S1x256x64.size inb_S1x256x1024_S1x256x64_0_0_768
abbrev rQ13 : Rect S1x256x1024 := Rect.unit (s := S1x256x1024) ![0, 0, 832] S1x256x64.size inb_S1x256x1024_S1x256x64_0_0_832
abbrev rQ14 : Rect S1x256x1024 := Rect.unit (s := S1x256x1024) ![0, 0, 896] S1x256x64.size inb_S1x256x1024_S1x256x64_0_0_896
abbrev rQ15 : Rect S1x256x1024 := Rect.unit (s := S1x256x1024) ![0, 0, 960] S1x256x64.size inb_S1x256x1024_S1x256x64_0_0_960
abbrev rK0 : Rect S1x2048x1024 := Rect.unit (s := S1x2048x1024) ![0, 0, 0] S1x2048x64.size inb_S1x2048x1024_S1x2048x64_0_0_0
abbrev rK1 : Rect S1x2048x1024 := Rect.unit (s := S1x2048x1024) ![0, 0, 64] S1x2048x64.size inb_S1x2048x1024_S1x2048x64_0_0_64
abbrev rK2 : Rect S1x2048x1024 := Rect.unit (s := S1x2048x1024) ![0, 0, 128] S1x2048x64.size inb_S1x2048x1024_S1x2048x64_0_0_128
abbrev rK3 : Rect S1x2048x1024 := Rect.unit (s := S1x2048x1024) ![0, 0, 192] S1x2048x64.size inb_S1x2048x1024_S1x2048x64_0_0_192
abbrev rK4 : Rect S1x2048x1024 := Rect.unit (s := S1x2048x1024) ![0, 0, 256] S1x2048x64.size inb_S1x2048x1024_S1x2048x64_0_0_256
abbrev rK5 : Rect S1x2048x1024 := Rect.unit (s := S1x2048x1024) ![0, 0, 320] S1x2048x64.size inb_S1x2048x1024_S1x2048x64_0_0_320
abbrev rK6 : Rect S1x2048x1024 := Rect.unit (s := S1x2048x1024) ![0, 0, 384] S1x2048x64.size inb_S1x2048x1024_S1x2048x64_0_0_384
abbrev rK7 : Rect S1x2048x1024 := Rect.unit (s := S1x2048x1024) ![0, 0, 448] S1x2048x64.size inb_S1x2048x1024_S1x2048x64_0_0_448
abbrev rK8 : Rect S1x2048x1024 := Rect.unit (s := S1x2048x1024) ![0, 0, 512] S1x2048x64.size inb_S1x2048x1024_S1x2048x64_0_0_512
abbrev rK9 : Rect S1x2048x1024 := Rect.unit (s := S1x2048x1024) ![0, 0, 576] S1x2048x64.size inb_S1x2048x1024_S1x2048x64_0_0_576
abbrev rK10 : Rect S1x2048x1024 := Rect.unit (s := S1x2048x1024) ![0, 0, 640] S1x2048x64.size inb_S1x2048x1024_S1x2048x64_0_0_640
abbrev rK11 : Rect S1x2048x1024 := Rect.unit (s := S1x2048x1024) ![0, 0, 704] S1x2048x64.size inb_S1x2048x1024_S1x2048x64_0_0_704
abbrev rK12 : Rect S1x2048x1024 := Rect.unit (s := S1x2048x1024) ![0, 0, 768] S1x2048x64.size inb_S1x2048x1024_S1x2048x64_0_0_768
abbrev rK13 : Rect S1x2048x1024 := Rect.unit (s := S1x2048x1024) ![0, 0, 832] S1x2048x64.size inb_S1x2048x1024_S1x2048x64_0_0_832
abbrev rK14 : Rect S1x2048x1024 := Rect.unit (s := S1x2048x1024) ![0, 0, 896] S1x2048x64.size inb_S1x2048x1024_S1x2048x64_0_0_896
abbrev rK15 : Rect S1x2048x1024 := Rect.unit (s := S1x2048x1024) ![0, 0, 960] S1x2048x64.size inb_S1x2048x1024_S1x2048x64_0_0_960
abbrev rS0 : Rect S256x1024 := Rect.unit (s := S256x1024) ![0, 0] S256x64.size inb_S256x1024_S256x64_0_0
abbrev rS1 : Rect S256x1024 := Rect.unit (s := S256x1024) ![0, 64] S256x64.size inb_S256x1024_S256x64_0_64
abbrev rS2 : Rect S256x1024 := Rect.unit (s := S256x1024) ![0, 128] S256x64.size inb_S256x1024_S256x64_0_128
abbrev rS3 : Rect S256x1024 := Rect.unit (s := S256x1024) ![0, 192] S256x64.size inb_S256x1024_S256x64_0_192
abbrev rS4 : Rect S256x1024 := Rect.unit (s := S256x1024) ![0, 256] S256x64.size inb_S256x1024_S256x64_0_256
abbrev rS5 : Rect S256x1024 := Rect.unit (s := S256x1024) ![0, 320] S256x64.size inb_S256x1024_S256x64_0_320
abbrev rS6 : Rect S256x1024 := Rect.unit (s := S256x1024) ![0, 384] S256x64.size inb_S256x1024_S256x64_0_384
abbrev rS7 : Rect S256x1024 := Rect.unit (s := S256x1024) ![0, 448] S256x64.size inb_S256x1024_S256x64_0_448
abbrev rS8 : Rect S256x1024 := Rect.unit (s := S256x1024) ![0, 512] S256x64.size inb_S256x1024_S256x64_0_512
abbrev rS9 : Rect S256x1024 := Rect.unit (s := S256x1024) ![0, 576] S256x64.size inb_S256x1024_S256x64_0_576
abbrev rS10 : Rect S256x1024 := Rect.unit (s := S256x1024) ![0, 640] S256x64.size inb_S256x1024_S256x64_0_640
abbrev rS11 : Rect S256x1024 := Rect.unit (s := S256x1024) ![0, 704] S256x64.size inb_S256x1024_S256x64_0_704
abbrev rS12 : Rect S256x1024 := Rect.unit (s := S256x1024) ![0, 768] S256x64.size inb_S256x1024_S256x64_0_768
abbrev rS13 : Rect S256x1024 := Rect.unit (s := S256x1024) ![0, 832] S256x64.size inb_S256x1024_S256x64_0_832
abbrev rS14 : Rect S256x1024 := Rect.unit (s := S256x1024) ![0, 896] S256x64.size inb_S256x1024_S256x64_0_896
abbrev rS15 : Rect S256x1024 := Rect.unit (s := S256x1024) ![0, 960] S256x64.size inb_S256x1024_S256x64_0_960
abbrev rSall : Rect S256x1024 := Rect.unit (s := S256x1024) ![0, 0] S256x1024.size inb_S256x1024_S256x1024_0_0
abbrev rWo : Rect S1024x1024 := Rect.unit (s := S1024x1024) ![0, 0] S1024x1024.size inb_S1024x1024_S1024x1024_0_0
abbrev rBo : Rect S1x1024 := Rect.unit (s := S1x1024) ![0, 0] S1x1024.size inb_S1x1024_S1x1024_0_0
abbrev rOut : Rect S1x256x1024 := Rect.unit (s := S1x256x1024) ![0, 0, 0] S1x256x1024.size inb_S1x256x1024_S1x256x1024_0_0_0

/-! ## What the body computes -/

/-- One head: from its 256×64 query slice and 2048×64 key and value slices to its 256×64 context
    (the first head's stored value as the skeleton names it; every head is this function of its own slices). -/
abbrev headOut (q : Vec F S1x256x64 .bf16) (k v : Vec F S1x2048x64 .bf16) : FVec F S256x64 .bf16 := k1_pay2 q k v

/-- The scratch after the sixteen heads' stores (later stores first): head h's context in columns [64h, 64h + 64). -/
def ctx1 (xq : Vec F S1x256x1024 .bf16) (xk xv : Vec F S1x2048x1024 .bf16) : Vec F S256x1024 .bf16 :=
  View.canon [⟨rS15, headOut (View.ld xq rQ15) (View.ld xk rK15) (View.ld xv rK15)⟩,
    ⟨rS14, headOut (View.ld xq rQ14) (View.ld xk rK14) (View.ld xv rK14)⟩,
    ⟨rS13, headOut (View.ld xq rQ13) (View.ld xk rK13) (View.ld xv rK13)⟩,
    ⟨rS12, headOut (View.ld xq rQ12) (View.ld xk rK12) (View.ld xv rK12)⟩,
    ⟨rS11, headOut (View.ld xq rQ11) (View.ld xk rK11) (View.ld xv rK11)⟩,
    ⟨rS10, headOut (View.ld xq rQ10) (View.ld xk rK10) (View.ld xv rK10)⟩,
    ⟨rS9, headOut (View.ld xq rQ9) (View.ld xk rK9) (View.ld xv rK9)⟩,
    ⟨rS8, headOut (View.ld xq rQ8) (View.ld xk rK8) (View.ld xv rK8)⟩,
    ⟨rS7, headOut (View.ld xq rQ7) (View.ld xk rK7) (View.ld xv rK7)⟩,
    ⟨rS6, headOut (View.ld xq rQ6) (View.ld xk rK6) (View.ld xv rK6)⟩,
    ⟨rS5, headOut (View.ld xq rQ5) (View.ld xk rK5) (View.ld xv rK5)⟩,
    ⟨rS4, headOut (View.ld xq rQ4) (View.ld xk rK4) (View.ld xv rK4)⟩,
    ⟨rS3, headOut (View.ld xq rQ3) (View.ld xk rK3) (View.ld xv rK3)⟩,
    ⟨rS2, headOut (View.ld xq rQ2) (View.ld xk rK2) (View.ld xv rK2)⟩,
    ⟨rS1, headOut (View.ld xq rQ1) (View.ld xk rK1) (View.ld xv rK1)⟩,
    ⟨rS0, headOut (View.ld xq rQ0) (View.ld xk rK0) (View.ld xv rK0)⟩]

/-- The result block: the projection of the scratch read back whole. -/
def out1 (xq : Vec F S1x256x1024 .bf16) (xk xv : Vec F S1x2048x1024 .bf16) (wo : Vec F S1024x1024 .bf16) (bo : Vec F S1x1024 .f32) :
    Vec F S1x256x1024 .f32 :=
  View.canon [⟨rOut, k1_pay1 (View.ld (ctx1 xq xk xv) rSall) (View.ld wo rWo) (View.ld bo rBo)⟩]

theorem coverOut (p0 : Vec F S1x256x1024 .f32) (y : S1x256x1024.Idx) :
    ∃ pc ∈ ([⟨rOut, p0⟩] : List (View.Piece (Elt F) S1x256x1024 .f32)), y ∈ pc.1.set :=
  View.cover_of_tiled [⟨rOut, p0⟩] S1x256x1024.size (by rfl) y

set_option maxHeartbeats 4000000 in
/-- The body on whole staging memrefs: the five inputs at their contents, the result's buffer and the scratch at
    anything; it returns with the inputs as they were, the result's buffer at `out1` of them, the scratch at something. -/
theorem sound_kernel1 (c : Dev nD) (E : Set ℕ) (i : grid1.Coords)
    (arg2 : Memref sig .tc .vmem S1x256x1024 .bf16) (harg2 : arg2.IsWhole) (arg3 : Memref sig .tc .vmem S1x2048x1024 .bf16) (harg3 : arg3.IsWhole)
    (arg4 : Memref sig .tc .vmem S1x2048x1024 .bf16) (harg4 : arg4.IsWhole) (arg5 : Memref sig .tc .vmem S1024x1024 .bf16) (harg5 : arg5.IsWhole)
    (arg6 : Memref sig .tc .vmem S1x1024 .f32) (harg6 : arg6.IsWhole) (arg7 : Memref sig .tc .vmem S1x256x1024 .f32) (harg7 : arg7.IsWhole)
    (arg8 : Memref sig .tc .vmem S256x1024 .bf16) (harg8 : arg8.IsWhole)
    (xq : Vec F S1x256x1024 .bf16) (xk xv : Vec F S1x2048x1024 .bf16) (wo : Vec F S1024x1024 .bf16) (bo : Vec F S1x1024 .f32)
    (K : PUnit → sProp 𝕄) :
    iprop(owns (c : Thread nD τ) arg2 fullShare xq ∗ owns (c : Thread nD τ) arg3 fullShare xk ∗ owns (c : Thread nD τ) arg4 fullShare xv
        ∗ owns (c : Thread nD τ) arg5 fullShare wo ∗ owns (c : Thread nD τ) arg6 fullShare bo
        ∗ (∃ d, owns (c : Thread nD τ) arg7 fullShare d) ∗ (∃ d, owns (c : Thread nD τ) arg8 fullShare d)
        ∗ (iprop(owns (c : Thread nD τ) arg2 fullShare xq ∗ owns (c : Thread nD τ) arg3 fullShare xk ∗ owns (c : Thread nD τ) arg4 fullShare xv
            ∗ owns (c : Thread nD τ) arg5 fullShare wo ∗ owns (c : Thread nD τ) arg6 fullShare bo
            ∗ owns (c : Thread nD τ) arg7 fullShare (out1 xq xk xv wo bo) ∗ (∃ d, owns (c : Thread nD τ) arg8 fullShare d)) -∗ K ⟨⟩))
      ⊢ wp frame (wpE (defs₀ (F := F)) Variants.none c none) E
          (cc1__attn_outproj_kernel i arg2 harg2 arg3 harg3 arg4 harg4 arg5 harg5 arg6 harg6 arg7 harg7 arg8 harg8) K := by
  unfold owns
  iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf2; subst hf3; subst hf4; subst hf5; subst hf6
  sl_exec_parts!
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    sl_unfold_run_names
    rw [View.read_writes_eq_canon _ _ _ (coverOut _), View.readCov_eq_canon']
    rfl
  iexists _, _; isplitr
  swap; · iexact H8
  ipureintro; rfl

end Cert.Kernel.Hand

end
-- ==== Proof.K.Reg1.lean ====
/-
  The attention region (the second pallas_call) as a pipeline: a grid of 4 batches × 8 query blocks. The query,
  key and value windows all read the one projected array (column blocks 0, 1, 2 of its 3072 features), so the
  core's hold on that array is divided among the three windows; the weight and bias windows are whole arrays;
  the result window writes one 256-row block per point. Stated for any float instance and at any contents `V`
  of the core's buffers when the region is entered.
-/
import proofs.«409074_j27238682591490_3_alg».proof.Proof.Gen.Kernel.Launch
import proofs.«409074_j27238682591490_3_alg».proof.Proof.Gen.Kernel.Skeleton
import proofs.«409074_j27238682591490_3_alg».proof.Proof.Gen.Kernel.Points
import proofs.«409074_j27238682591490_3_alg».proof.Proof.K.Body1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Blocks -/

/-- Window `w`'s block at point `t`, read off the window's array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, whether the pipeline fetched there or kept the
    buffer: the window is never cut or idle, and an unfetched point has the block index of the point before. One
    statement per input window (the block's type reduces only at a literal window). -/
theorem before1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = blk1 V c 3 t) (t : Fin cfg1.N) (d) : dat.before 3 t d = blk1 V c 3 t :=
  (dat.before_in_eq_fetched 3 rfl (fun _ => rfl) (fun _ _ _ => rfl) (fun t => by rw [hafter]; unfold Dat.blockOf blk1; rw [hA]; try rfl) t d).trans
    (by unfold Dat.fetched Dat.blockOf blk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = blk1 V c 4 t) (t : Fin cfg1.N) (d) : dat.before 4 t d = blk1 V c 4 t :=
  (dat.before_in_eq_fetched 4 rfl (fun _ => rfl) (fun _ _ _ => rfl) (fun t => by rw [hafter]; unfold Dat.blockOf blk1; rw [hA]; try rfl) t d).trans
    (by unfold Dat.fetched Dat.blockOf blk1; rw [hA]; try rfl)

/-! ## The proof data -/

/-- Region 1's proof data on core `c`: the arrays as entered; after the body each input's buffer at its block, the
    result's at `out1` of the input blocks; the invariant is the scoped rest (the scratch among it) and the generator
    register; nothing owed. The projected array is read by three windows: the core's full hold on it is divided into a
    half and two quarters. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => out1 (blk1 V c 0 t) (blk1 V c 1 t) (blk1 V c 2 t) (blk1 V c 3 t) (blk1 V c 4 t)
  Φ _ := Pipeline.ΦA spec1 c
  q w := match w with
    | ⟨0, _⟩ => fullShare.left
    | ⟨1, _⟩ => fullShare.right.left
    | ⟨2, _⟩ => fullShare.right.right
    | ⟨3, _⟩ => fullShare
    | ⟨4, _⟩ => fullShare
    | ⟨5, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) : (dat1 V c).after 3 t = blk1 V c 3 t := by dsimp only [dat1]
theorem after1_4 (c : Dev nD) (t : Fin cfg1.N) : (dat1 V c).after 4 t = blk1 V c 4 t := by dsimp only [dat1]
theorem after1_5 (c : Dev nD) (t : Fin cfg1.N) :
    (dat1 V c).after 5 t = out1 (blk1 V c 0 t) (blk1 V c 1 t) (blk1 V c 2 t) (blk1 V c 3 t) (blk1 V c 4 t) := by dsimp only [dat1]

theorem before1_0 (c : Dev nD) (t : Fin cfg1.N) (d) : (dat1 V c).before 0 t d = blk1 V c 0 t :=
  before1_0_of V (dat1 V c) (A_eq1 V c 0) (after1_0 V c) t d
theorem before1_1 (c : Dev nD) (t : Fin cfg1.N) (d) : (dat1 V c).before 1 t d = blk1 V c 1 t :=
  before1_1_of V (dat1 V c) (A_eq1 V c 1) (after1_1 V c) t d
theorem before1_2 (c : Dev nD) (t : Fin cfg1.N) (d) : (dat1 V c).before 2 t d = blk1 V c 2 t :=
  before1_2_of V (dat1 V c) (A_eq1 V c 2) (after1_2 V c) t d
theorem before1_3 (c : Dev nD) (t : Fin cfg1.N) (d) : (dat1 V c).before 3 t d = blk1 V c 3 t :=
  before1_3_of V (dat1 V c) (A_eq1 V c 3) (after1_3 V c) t d
theorem before1_4 (c : Dev nD) (t : Fin cfg1.N) (d) : (dat1 V c).before 4 t d = blk1 V c 4 t :=
  before1_4_of V (dat1 V c) (A_eq1 V c 4) (after1_4 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' buffers hold their blocks, the scratch is taken out of the scoped rest for the
    run and put back at whatever the run leaves in it. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5,
    show (dat1 V c).Φ t.castSucc = Pipeline.ΦA spec1 c from rfl]
  unfold Pipeline.ΦA
  rw [scopedRest1_eq]
  iintro ⟨⟨⟨Ha, Hb, Hc, Hd, He, Hf, ⟨%fs, Hs⟩⟩, Hp⟩, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ _ _ (blk1 V c 0 t) (blk1 V c 1 t) (blk1 V c 2 t) (blk1 V c 3 t) (blk1 V c 4 t) _)
  isplitl [H0]; · iexact H0
  isplitl [H1]; · iexact H1
  isplitl [H2]; · iexact H2
  isplitl [H3]; · iexact H3
  isplitl [H4]; · iexact H4
  isplitl [H5]; · iexists _; iexact H5
  isplitl [Hs]
  · iexists fs; rw [owns_whole]; iexact Hs
  iintro ⟨H0, H1, H2, H3, H4, H5, ⟨%fs', Hs⟩⟩
  isplitl [Ha Hb Hc Hd He Hf Hs Hp]
  · isplitr [Hp]
    · isplitl [Ha]; · iexact Ha
      isplitl [Hb]; · iexact Hb
      isplitl [Hc]; · iexact Hc
      isplitl [Hd]; · iexact Hd
      isplitl [He]; · iexact He
      isplitl [Hf]; · iexact Hf
      iexists fs'; rw [← owns_whole (c : Thread nD τ) cc1_scratch0 fullShare fs']; iexact Hs
    iexact Hp
  isplitl [Ho]; · iexact Ho
  isplitl [H0]; · iexact H0
  isplitl [H1]; · iexact H1
  isplitl [H2]; · iexact H2
  isplitl [H3]; · iexact H3
  isplitl [H4]; · iexact H4
  iexact H5

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Fold.lean ====
/-
  The buffers' contents between the items of @main, for any float instance: the launch memory folded through three host
  operations, the projection region, three more host operations and the attention region — a host stretch applies its
  operations; a region replaces its result array by what its write-backs leave and changes nothing else — and the two
  pipelines' proof data, each at its region's entry contents.
-/
import proofs.«409074_j27238682591490_3_alg».proof.Proof.Gen.Kernel.Launch
import proofs.«409074_j27238682591490_3_alg».proof.Proof.Gen.Kernel.Skeleton
import proofs.«409074_j27238682591490_3_alg».proof.Proof.Gen.Kernel.Points
import proofs.«409074_j27238682591490_3_alg».proof.Proof.K.Reg0
import proofs.«409074_j27238682591490_3_alg».proof.Proof.K.Reg1
import proofs.«409074_j27238682591490_3_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between items -/

/-- At launch. -/
abbrev W0 : Dev nD → Valuation τ sig (Elt F) := fun c b => m (c, b)
/-- After the first host stretch: the projection region's entry contents, -/
abbrev W1 : Dev nD → Valuation τ sig (Elt F) := fun c => StableHlo.after hostOps0 (W0 m c)
/-- read at the TensorCore's references. -/
abbrev E1 : (c : Dev nD) → (b : Ref sig .tc) → Buf (Elt F) ((c : Thread nD τ).loc b) := fun c b => W1 m c b
/-- What the projection region leaves in its result array: its sixteen write-backs folded. -/
abbrev res0 (c : Dev nD) : Buf (Elt F) ((c : Thread nD τ).loc main_v3) := (dat0 (E1 m) c).arrAt 3 cfg0.N
/-- After the projection region: its result array replaced, nothing else changed. -/
def W2 (c : Dev nD) : Valuation τ sig (Elt F) := Function.update (W1 m c) (Proc.devRef .tc main_v3) (res0 m c)
abbrev X2 : (c : Dev nD) → (b : Ref sig .tc) → Buf (Elt F) ((c : Thread nD τ).loc b) := fun c b => W2 m c b
/-- After the second host stretch: the attention region's entry contents, -/
abbrev W3 : Dev nD → Valuation τ sig (Elt F) := fun c => StableHlo.after hostOps1 (W2 m c)
abbrev E3 : (c : Dev nD) → (b : Ref sig .tc) → Buf (Elt F) ((c : Thread nD τ).loc b) := fun c b => W3 m c b
/-- What the attention region leaves in its result array: its thirty-two write-backs folded. -/
abbrev res1 (c : Dev nD) : Buf (Elt F) ((c : Thread nD τ).loc main_v7) := (dat1 (E3 m) c).arrAt 5 cfg1.N
/-- After the attention region. -/
def W4 (c : Dev nD) : Valuation τ sig (Elt F) := Function.update (W3 m c) (Proc.devRef .tc main_v7) (res1 m c)
abbrev X4 : (c : Dev nD) → (b : Ref sig .tc) → Buf (Elt F) ((c : Thread nD τ).loc b) := fun c b => W4 m c b

theorem W2_res (c : Dev nD) : W2 m c (Proc.devRef .tc main_v3) = res0 m c := by
  unfold W2; exact Function.update_self _ _ _
theorem W2_of_ne (c : Dev nD) (b : Ref sig .tc) (hb : b ≠ main_v3) : W2 m c (Proc.devRef .tc b) = W1 m c (Proc.devRef .tc b) := by
  unfold W2; exact Function.update_of_ne (StableHlo.devRef_ne_of_ne hb) _ _
theorem W4_res (c : Dev nD) : W4 m c (Proc.devRef .tc main_v7) = res1 m c := by
  unfold W4; exact Function.update_self _ _ _
theorem W4_of_ne (c : Dev nD) (b : Ref sig .tc) (hb : b ≠ main_v7) : W4 m c (Proc.devRef .tc b) = W3 m c (Proc.devRef .tc b) := by
  unfold W4; exact Function.update_of_ne (StableHlo.devRef_ne_of_ne hb) _ _

/-- No host operation writes a reference outside its stretch's results. -/
theorem W1_of (c : Dev nD) (r : Ref sig .tc) (h : r ∉ hostOps0_W) : W1 m c (Proc.devRef .tc r) = W0 m c (Proc.devRef .tc r) :=
  StableHlo.after_of_writes_sub hostOps0 _ hostOps0_writes h
theorem W3_of (c : Dev nD) (r : Ref sig .tc) (h : r ∉ hostOps1_W) : W3 m c (Proc.devRef .tc r) = W2 m c (Proc.devRef .tc r) :=
  StableHlo.after_of_writes_sub hostOps1 _ hostOps1_writes h

/-- An argument reaches the end as launched. -/
theorem W4_arg (c : Dev nD) (r : Ref sig .tc) (h7 : r ≠ main_v7) (h1 : r ∉ hostOps1_W) (h3 : r ≠ main_v3) (h0 : r ∉ hostOps0_W) :
    W4 m c (Proc.devRef .tc r) = m ((c : Thread nD τ).loc r) :=
  (W4_of_ne m c r h7).trans <| (W3_of m c r h1).trans <| (W2_of_ne m c r h3).trans <| (W1_of m c r h0).trans rfl

/-! ## The regions' arrays at their exits -/

/-- The projection region's arrays at its exit: the inputs as entered, the result at its folded write-backs. -/
theorem hF0 (c : Dev nD) (w : Fin cfg0.W) : (dat0 (E1 m) c).arrAt w cfg0.N = X2 m c (Pipeline.arrRef spec0 w) := by
  match w with
  | ⟨0, _⟩ => exact ((dat0 (E1 m) c).arrAt_in 0 rfl _).trans ((A_eq0 (E1 m) c 0).trans (W2_of_ne m c _ (by decide)).symm)
  | ⟨1, _⟩ => exact ((dat0 (E1 m) c).arrAt_in 1 rfl _).trans ((A_eq0 (E1 m) c 1).trans (W2_of_ne m c _ (by decide)).symm)
  | ⟨2, _⟩ => exact ((dat0 (E1 m) c).arrAt_in 2 rfl _).trans ((A_eq0 (E1 m) c 2).trans (W2_of_ne m c _ (by decide)).symm)
  | ⟨3, _⟩ => exact (W2_res m c).symm
theorem hrest0 (c : Dev nD) : ∀ b, b ∉ Finset.univ.image (Pipeline.arrRef spec0) → X2 m c b = E1 m c b :=
  fun b hb => W2_of_ne m c b fun e => hb (Finset.mem_image.mpr ⟨3, Finset.mem_univ _, e.symm⟩)

/-! ## The proof data family and the thread state -/

/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E3 m) c

end Cert.Kernel.Hand

end
-- ==== Proof.K.Shares.lean ====
/-
  The attention region reads the projected array through three windows (query, key, value). At the region's entry the
  core's full hold on that array is divided — a half for the query window, a quarter each for the key and value windows —
  and at its exit, the array unchanged, the three parts are joined again. The other three arrays (output weight, bias,
  result) are distinct buffers held in full.
-/
import proofs.«409074_j27238682591490_3_alg».proof.Proof.Gen.Kernel.Launch
import proofs.«409074_j27238682591490_3_alg».proof.Proof.Gen.Kernel.Skeleton
import proofs.«409074_j27238682591490_3_alg».proof.Proof.Gen.Kernel.Points
import proofs.«409074_j27238682591490_3_alg».proof.Proof.K.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers behind the six windows -/

/-- The distinct buffers behind the attention region's six windows: the projected array, the output weight, the bias and
    the result. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v4) ↦{fullShare} V main_v4) ∗ (((c : Thread nD τ).loc main_v5) ↦{fullShare} V main_v5)
          ∗ (((c : Thread nD τ).loc main_v6) ↦{fullShare} V main_v6) ∗ (((c : Thread nD τ).loc main_v7) ↦{fullShare} V main_v7)) :=
  bigSep_eq_bigSepL_of_eq [main_v4, main_v5, main_v6, main_v7] (by decide) (by decide) _

/-- The six windows' arrays one by one: the projected array under the query window's half and the key and value
    windows' quarters, the other three arrays held in full; each a whole buffer. -/
theorem arrays1_eq (c : Dev nD) (V : (c : Dev nD) → (b : Ref sig .tc) → Buf (Elt F) ((c : Thread nD τ).loc b))
    (G : (w : Fin cfg1.W) → Buf (Elt F) ((cfg1.win w).arr.view.loc (c : Thread nD τ))) :
    ((dat1 V c).arrays G : sProp 𝕄)
      = iprop((((c : Thread nD τ).loc main_v4) ↦{fullShare.left} G 0) ∗ (((c : Thread nD τ).loc main_v4) ↦{fullShare.right.left} G 1)
          ∗ (((c : Thread nD τ).loc main_v4) ↦{fullShare.right.right} G 2) ∗ (((c : Thread nD τ).loc main_v5) ↦{fullShare} G 3)
          ∗ (((c : Thread nD τ).loc main_v6) ↦{fullShare} G 4) ∗ (((c : Thread nD τ).loc main_v7) ↦{fullShare} G 5)) := by
  unfold Dat.arrays
  rw [bigSep_W1]
  rw [(arr_whole1 0).set_eq_univ, (arr_whole1 3).set_eq_univ, (arr_whole1 4).set_eq_univ, (arr_whole1 5).set_eq_univ]
  rfl

/-- The four buffers at contents `V`, each held in full, are the six windows' arrays at contents read off `V`: the
    projected array's full hold is its half and two quarters, one way and the other. -/
theorem arrBufs1_arrays (c : Dev nD) (V₀ : (c : Dev nD) → (b : Ref sig .tc) → Buf (Elt F) ((c : Thread nD τ).loc b))
    (V : (b : Ref sig .tc) → Buf (Elt F) ((c : Thread nD τ).loc b))
    (G : (w : Fin cfg1.W) → Buf (Elt F) ((cfg1.win w).arr.view.loc (c : Thread nD τ)))
    (hG : ∀ w, G w = V (Pipeline.arrRef spec1 w)) :
    (Pipeline.arrBufs (Ix := Unit) (Name := ℕ) (U := UR sig nD τ) (Lvl := ℕ) spec1 c V : sProp 𝕄) ⊣⊢ (dat1 V₀ c).arrays G := by
  rw [arrBufs1_eq, arrays1_eq, hG 0, hG 1, hG 2, hG 3, hG 4, hG 5]
  show iprop((((c : Thread nD τ).loc main_v4) ↦{fullShare} V main_v4) ∗ (((c : Thread nD τ).loc main_v5) ↦{fullShare} V main_v5)
          ∗ (((c : Thread nD τ).loc main_v6) ↦{fullShare} V main_v6) ∗ (((c : Thread nD τ).loc main_v7) ↦{fullShare} V main_v7))
    ⊣⊢ iprop((((c : Thread nD τ).loc main_v4) ↦{fullShare.left} V main_v4) ∗ (((c : Thread nD τ).loc main_v4) ↦{fullShare.right.left} V main_v4)
          ∗ (((c : Thread nD τ).loc main_v4) ↦{fullShare.right.right} V main_v4) ∗ (((c : Thread nD τ).loc main_v5) ↦{fullShare} V main_v5)
          ∗ (((c : Thread nD τ).loc main_v6) ↦{fullShare} V main_v6) ∗ (((c : Thread nD τ).loc main_v7) ↦{fullShare} V main_v7))
  constructor
  · iintro ⟨H4, H5, H6, H7⟩
    ihave H := (pointsTo_share (PosShare.mem_left_op_right fullShare)).1 $$ H4
    icases H with ⟨Hl, Hr⟩
    ihave H := (pointsTo_share (PosShare.mem_left_op_right fullShare.right)).1 $$ Hr
    icases H with ⟨Hrl, Hrr⟩
    isplitl [Hl]; · iexact Hl
    isplitl [Hrl]; · iexact Hrl
    isplitl [Hrr]; · iexact Hrr
    isplitl [H5]; · iexact H5
    isplitl [H6]; · iexact H6
    iexact H7
  · iintro ⟨Hl, Hrl, Hrr, H5, H6, H7⟩
    isplitl [Hl Hrl Hrr]
    · iapply (pointsTo_share (PosShare.mem_left_op_right fullShare)).2
      isplitl [Hl]; · iexact Hl
      iapply (pointsTo_share (PosShare.mem_left_op_right fullShare.right)).2
      isplitl [Hrl]; · iexact Hrl
      iexact Hrr
    isplitl [H5]; · iexact H5
    isplitl [H6]; · iexact H6
    iexact H7

/-! ## The region's entry -/

/-- ENTRY of the attention region, the arrays' part: the core's unscoped buffers at `V` give the region's six windows
    their arrays — the projected array's full hold divided into a half for the query window and a quarter each for the
    key and value windows — and the unscoped rest. -/
theorem arrays1_of_unscopedBufs (c : Dev nD) :
    (unscopedBufs c (E3 m c) : sProp 𝕄) ⊢ iprop((pdats m 1 c).arrays ((pdats m 1 c).arrAt · 0)
      ∗ Pipeline.unscopedRest (Ix := Unit) (Name := ℕ) (U := UR sig nD τ) (Lvl := ℕ) spec1 c (E3 m c)) := by
  rw [Pipeline.unscopedBufs_split₀ cfgs 1 winFacts₀1.arr_unscoped c (E3 m c)]
  exact sep_mono (arrBufs1_arrays c (E3 m) (E3 m c) _ fun w => A_eq1 (E3 m) c w).1 .rfl

/-! ## The arrays at the region's exit -/

/-- The attention region's arrays at its exit: the five inputs as entered, the result at its folded write-backs. -/
theorem hF1 (c : Dev nD) (w : Fin cfg1.W) : (dat1 (E3 m) c).arrAt w cfg1.N = X4 m c (Pipeline.arrRef spec1 w) := by
  match w with
  | ⟨0, _⟩ => exact ((dat1 (E3 m) c).arrAt_in 0 rfl _).trans ((A_eq1 (E3 m) c 0).trans (W4_of_ne m c _ (by decide)).symm)
  | ⟨1, _⟩ => exact ((dat1 (E3 m) c).arrAt_in 1 rfl _).trans ((A_eq1 (E3 m) c 1).trans (W4_of_ne m c _ (by decide)).symm)
  | ⟨2, _⟩ => exact ((dat1 (E3 m) c).arrAt_in 2 rfl _).trans ((A_eq1 (E3 m) c 2).trans (W4_of_ne m c _ (by decide)).symm)
  | ⟨3, _⟩ => exact ((dat1 (E3 m) c).arrAt_in 3 rfl _).trans ((A_eq1 (E3 m) c 3).trans (W4_of_ne m c _ (by decide)).symm)
  | ⟨4, _⟩ => exact ((dat1 (E3 m) c).arrAt_in 4 rfl _).trans ((A_eq1 (E3 m) c 4).trans (W4_of_ne m c _ (by decide)).symm)
  | ⟨5, _⟩ => exact (W4_res m c).symm

/-- Off the region's arrays nothing changed. -/
theorem hrest1 (c : Dev nD) : ∀ b, b ∉ Finset.univ.image (Pipeline.arrRef spec1) → X4 m c b = E3 m c b :=
  fun b hb => W4_of_ne m c b fun e => hb (Finset.mem_image.mpr ⟨5, Finset.mem_univ _, e.symm⟩)

/-- EXIT of the attention region, the arrays' part: the six windows' arrays at their final contents — the three holds on
    the projected array joined again, the result array at its folded write-backs — and the unscoped rest are the core's
    unscoped buffers at `W4`. -/
theorem unscopedBufs_of_arrays1 (c : Dev nD) :
    iprop((pdats m 1 c).arrays ((pdats m 1 c).arrAt · cfg1.N)
      ∗ Pipeline.unscopedRest (Ix := Unit) (Name := ℕ) (U := UR sig nD τ) (Lvl := ℕ) spec1 c (E3 m c)) ⊢ (unscopedBufs c (X4 m c) : sProp 𝕄) := by
  rw [Pipeline.unscopedBufs_split₀ cfgs 1 winFacts₀1.arr_unscoped c (X4 m c)]
  refine sep_mono (arrBufs1_arrays c (E3 m) (X4 m c) _ fun w => hF1 m c w).2 (Entails.of_eq ?_)
  unfold Pipeline.unscopedRest
  exact bigSep_congr fun b hb => by rw [hrest1 m c b (Finset.mem_sdiff.mp hb).2]

end Cert.Kernel.Hand

end
-- ==== Proof.K.Run.lean ====
/-
  The run of @main from launch to return, for any float instance: three host operations (a reshape of x, the weight
  narrowed, the bias reshaped), the projection region, three more (the projected array reshaped to [4, 2048, 3072], the
  output weight narrowed, its bias reshaped), the attention region. Between two items the core holds every unscoped
  buffer whole at contents named here — the launch memory folded through the items: a host stretch applies its
  operations; a region replaces its result array by what its write-backs leave and changes nothing else — beside its
  generator register and a zero debt. The attention region reads the projected array through three windows, so at
  its entry the core's hold on that array is divided among them and at its exit joined again.
-/
import proofs.«409074_j27238682591490_3_alg».proof.Proof.Gen.Kernel.Launch
import proofs.«409074_j27238682591490_3_alg».proof.Proof.Gen.Kernel.Skeleton
import proofs.«409074_j27238682591490_3_alg».proof.Proof.Gen.Kernel.Points
import proofs.«409074_j27238682591490_3_alg».proof.Proof.K.Fold
import proofs.«409074_j27238682591490_3_alg».proof.Proof.K.Shares
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The thread state -/

abbrev 𝒱₀ : Variants := Variants.none
abbrev L : GSem nD τ sig → Finset Unit := fun _ => ∅
abbrev lv : GSem nD τ sig → Unit → ℕ := fun _ _ => 0
/-- Beside the buffers: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- The projection region: entered from every unscoped buffer at `W1`, left at `W2`. Its four arrays are distinct buffers,
    split out of the unscoped buffers at entry and put back at exit; the generator register goes into the region's
    invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (X2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region: entered from every unscoped buffer at `W3`, left at `W4`. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (E3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := arrays1_of_unscopedBufs m c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := unscopedBufs_of_arrays1 m c
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m) ]
theorem main_run (c : Dev nD) : main (F := F) c = Pipeline.Seg.run (segs m) := (main_chain c).trans (by chain_rfl)

set_option backward.isDefEq.respectTransparency.types false in
/-- THE RUN, at any float instance: from any memory with zero counters every weakly fair execution of @main terminates,
    nothing faulting, and in every final state the result array holds what the attention region's write-backs leave
    (`res1`) and the five argument arrays are as launched. -/
theorem run_main : θ_run defs (onTc (τ := τ) (main (F := F))) ⟨m, fun _ => 0, ρ⟩ (fun r => ∀ c : Dev nD,
      r.2.mem ((c.tc : Thread nD τ).loc main_v7) = res1 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c =>
      ⟨(h c _ (mem_uc main_v7 (by decide))).trans (W4_res m c),
       (h c _ (mem_uc main_arg0 (by decide))).trans (W4_arg m c main_arg0 (by decide) (by decide) (by decide) (by decide)),
       (h c _ (mem_uc main_arg1 (by decide))).trans (W4_arg m c main_arg1 (by decide) (by decide) (by decide) (by decide)),
       (h c _ (mem_uc main_arg2 (by decide))).trans (W4_arg m c main_arg2 (by decide) (by decide) (by decide) (by decide)),
       (h c _ (mem_uc main_arg3 (by decide))).trans (W4_arg m c main_arg3 (by decide) (by decide) (by decide) (by decide)),
       (h c _ (mem_uc main_arg4 (by decide))).trans (W4_arg m c main_arg4 (by decide) (by decide) (by decide) (by decide))⟩)

end Cert.Kernel.Hand

end
-- ==== Proof.KI.Reg0.lean ====
/-
  The projection region (the first pallas_call): a grid of 16 row blocks. At point t the body loads the
  512×1024 block of x, the whole 3072×1024 weight and the 1×3072 bias from their staging buffers, forms
  x·wᵀ + b and stores the 512×3072 result block. Stated for any float instance and at any contents `V` of the
  core's buffers when the region is entered.
-/
import proofs.«409074_j27238682591490_3_alg».proof.Proof.Gen.KernelIdeal.Launch
import proofs.«409074_j27238682591490_3_alg».proof.Proof.Gen.KernelIdeal.Skeleton
import proofs.«409074_j27238682591490_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Blocks -/

/-- Window `w`'s block at point `t`, read off the window's array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, whether the pipeline fetched there or kept the
    buffer: the window is never cut or idle, and an unfetched point has the block index of the point before. One
    statement per input window (the block's type reduces only at a literal window). -/
theorem before0_0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = blk0 V c 2 t) (t : Fin cfg0.N) (d) : dat.before 2 t d = blk0 V c 2 t :=
  (dat.before_in_eq_fetched 2 rfl (fun _ => rfl) (fun _ _ _ => rfl) (fun t => by rw [hafter]; unfold Dat.blockOf blk0; rw [hA]; try rfl) t d).trans
    (by unfold Dat.fetched Dat.blockOf blk0; rw [hA]; try rfl)

/-! ## The body -/

abbrev rX0 : Rect S512x1024 := Rect.unit (s := S512x1024) ![0, 0] S512x1024.size inb_S512x1024_S512x1024_0_0
abbrev rW0 : Rect S3072x1024 := Rect.unit (s := S3072x1024) ![0, 0] S3072x1024.size inb_S3072x1024_S3072x1024_0_0
abbrev rB0 : Rect S1x3072 := Rect.unit (s := S1x3072) ![0, 0] S1x3072.size inb_S1x3072_S1x3072_0_0
abbrev rO0 : Rect S512x3072 := Rect.unit (s := S512x3072) ![0, 0] S512x3072.size inb_S512x3072_S512x3072_0_0

/-- What the body leaves in the result's staging buffer: one store of the whole block, its value the
    projection of the three loaded blocks. -/
def out0 (x : Vec F S512x1024 .f32) (w : Vec F S3072x1024 .bf16) (b : Vec F S1x3072 .f32) : Vec F S512x3072 .bf16 :=
  View.canon [⟨rO0, k0_pay1 (View.ld x rX0) (View.ld w rW0) (View.ld b rB0)⟩]

/-- The one store covers the buffer. -/
theorem cover0 (p0 : Vec F S512x3072 .bf16) (y : S512x3072.Idx) :
    ∃ pc ∈ ([⟨rO0, p0⟩] : List (View.Piece (Elt F) S512x3072 .bf16)), y ∈ pc.1.set :=
  View.cover_of_tiled [⟨rO0, p0⟩] S512x3072.size (by rfl) y

set_option maxHeartbeats 1000000 in
/-- The body on whole staging memrefs: inputs at `x`, `w`, `b`, the result's buffer at anything; it returns with the
    inputs as they were and the result's buffer at `out0 x w b`. -/
theorem sound_kernel0 (c : Dev nD) (E : Set ℕ) (i : grid0.Coords)
    (arg1 : Memref sig .tc .vmem S512x1024 .f32) (harg1 : arg1.IsWhole) (arg2 : Memref sig .tc .vmem S3072x1024 .bf16) (harg2 : arg2.IsWhole)
    (arg3 : Memref sig .tc .vmem S1x3072 .f32) (harg3 : arg3.IsWhole) (arg4 : Memref sig .tc .vmem S512x3072 .bf16) (harg4 : arg4.IsWhole)
    (x : Vec F S512x1024 .f32) (w : Vec F S3072x1024 .bf16) (b : Vec F S1x3072 .f32) (K : PUnit → sProp 𝕄) :
    iprop(owns (c : Thread nD τ) arg1 fullShare x ∗ owns (c : Thread nD τ) arg2 fullShare w ∗ owns (c : Thread nD τ) arg3 fullShare b
        ∗ (∃ d, owns (c : Thread nD τ) arg4 fullShare d)
        ∗ (iprop(owns (c : Thread nD τ) arg1 fullShare x ∗ owns (c : Thread nD τ) arg2 fullShare w ∗ owns (c : Thread nD τ) arg3 fullShare b
            ∗ owns (c : Thread nD τ) arg4 fullShare (out0 x w b)) -∗ K ⟨⟩))
      ⊢ wp frame (wpE (defs₀ (F := F)) Variants.none c none) E (cc0__proj_kernel i arg1 harg1 arg2 harg2 arg3 harg3 arg4 harg4) K := by
  simp only [cc0__proj_kernel_eq_skeleton]; unfold cc0__proj_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0 _)

/-! ## The proof data -/

/-- Region 0's proof data on core `c`: the arrays as entered; after the body each input's buffer at its block, the
    result's at `out0` of the input blocks; the invariant is the scoped rest and the generator register, untouched;
    nothing owed; full shares. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => out0 (blk0 V c 0 t) (blk0 V c 1 t) (blk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = blk0 V c 2 t := by dsimp only [dat0]
theorem after0_3 (c : Dev nD) (t : Fin cfg0.N) :
    (dat0 V c).after 3 t = out0 (blk0 V c 0 t) (blk0 V c 1 t) (blk0 V c 2 t) := by dsimp only [dat0]

theorem before0_0 (c : Dev nD) (t : Fin cfg0.N) (d) : (dat0 V c).before 0 t d = blk0 V c 0 t :=
  before0_0_of V (dat0 V c) (A_eq0 V c 0) (after0_0 V c) t d
theorem before0_1 (c : Dev nD) (t : Fin cfg0.N) (d) : (dat0 V c).before 1 t d = blk0 V c 1 t :=
  before0_1_of V (dat0 V c) (A_eq0 V c 1) (after0_1 V c) t d
theorem before0_2 (c : Dev nD) (t : Fin cfg0.N) (d) : (dat0 V c).before 2 t d = blk0 V c 2 t :=
  before0_2_of V (dat0 V c) (A_eq0 V c 2) (after0_2 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (blk0 V c 0 t) (blk0 V c 1 t) (blk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Body1.lean ====
/-
  The attention region's body (the second pallas_call). At a point it holds a 256-row query block and the batch's
  whole key and value blocks, each 1024 columns wide = 16 heads of 64. Head h takes columns [64h, 64h + 64) of each,
  scales the query by 1/8, forms the 256×2048 scores, the row softmax, and the 256×64 context, which it stores into
  columns [64h, 64h + 64) of a 256×1024 scratch; the scratch, read back whole, is projected by woᵀ, the bias added,
  and the 256×1024 result stored. Every head is the same function `headOut` of its three column slices.
-/
import proofs.«409074_j27238682591490_3_alg».proof.Proof.Gen.KernelIdeal.Launch
import proofs.«409074_j27238682591490_3_alg».proof.Proof.Gen.KernelIdeal.Skeleton
import proofs.«409074_j27238682591490_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body reads and writes -/

abbrev rQ0 : Rect S1x256x1024 := Rect.unit (s := S1x256x1024) ![0, 0, 0] S1x256x64.size inb_S1x256x1024_S1x256x64_0_0_0
abbrev rQ1 : Rect S1x256x1024 := Rect.unit (s := S1x256x1024) ![0, 0, 64] S1x256x64.size inb_S1x256x1024_S1x256x64_0_0_64
abbrev rQ2 : Rect S1x256x1024 := Rect.unit (s := S1x256x1024) ![0, 0, 128] S1x256x64.size inb_S1x256x1024_S1x256x64_0_0_128
abbrev rQ3 : Rect S1x256x1024 := Rect.unit (s := S1x256x1024) ![0, 0, 192] S1x256x64.size inb_S1x256x1024_S1x256x64_0_0_192
abbrev rQ4 : Rect S1x256x1024 := Rect.unit (s := S1x256x1024) ![0, 0, 256] S1x256x64.size inb_S1x256x1024_S1x256x64_0_0_256
abbrev rQ5 : Rect S1x256x1024 := Rect.unit (s := S1x256x1024) ![0, 0, 320] S1x256x64.size inb_S1x256x1024_S1x256x64_0_0_320
abbrev rQ6 : Rect S1x256x1024 := Rect.unit (s := S1x256x1024) ![0, 0, 384] S1x256x64.size inb_S1x256x1024_S1x256x64_0_0_384
abbrev rQ7 : Rect S1x256x1024 := Rect.unit (s := S1x256x1024) ![0, 0, 448] S1x256x64.size inb_S1x256x1024_S1x256x64_0_0_448
abbrev rQ8 : Rect S1x256x1024 := Rect.unit (s := S1x256x1024) ![0, 0, 512] S1x256x64.size inb_S1x256x1024_S1x256x64_0_0_512
abbrev rQ9 : Rect S1x256x1024 := Rect.unit (s := S1x256x1024) ![0, 0, 576] S1x256x64.size inb_S1x256x1024_S1x256x64_0_0_576
abbrev rQ10 : Rect S1x256x1024 := Rect.unit (s := S1x256x1024) ![0, 0, 640] S1x256x64.size inb_S1x256x1024_S1x256x64_0_0_640
abbrev rQ11 : Rect S1x256x1024 := Rect.unit (s := S1x256x1024) ![0, 0, 704] S1x256x64.size inb_S1x256x1024_S1x256x64_0_0_704
abbrev rQ12 : Rect S1x256x1024 := Rect.unit (s := S1x256x1024) ![0, 0, 768] S1x256x64.size inb_S1x256x1024_S1x256x64_0_0_768
abbrev rQ13 : Rect S1x256x1024 := Rect.unit (s := S1x256x1024) ![0, 0, 832] S1x256x64.size inb_S1x256x1024_S1x256x64_0_0_832
abbrev rQ14 : Rect S1x256x1024 := Rect.unit (s := S1x256x1024) ![0, 0, 896] S1x256x64.size inb_S1x256x1024_S1x256x64_0_0_896
abbrev rQ15 : Rect S1x256x1024 := Rect.unit (s := S1x256x1024) ![0, 0, 960] S1x256x64.size inb_S1x256x1024_S1x256x64_0_0_960
abbrev rK0 : Rect S1x2048x1024 := Rect.unit (s := S1x2048x1024) ![0, 0, 0] S1x2048x64.size inb_S1x2048x1024_S1x2048x64_0_0_0
abbrev rK1 : Rect S1x2048x1024 := Rect.unit (s := S1x2048x1024) ![0, 0, 64] S1x2048x64.size inb_S1x2048x1024_S1x2048x64_0_0_64
abbrev rK2 : Rect S1x2048x1024 := Rect.unit (s := S1x2048x1024) ![0, 0, 128] S1x2048x64.size inb_S1x2048x1024_S1x2048x64_0_0_128
abbrev rK3 : Rect S1x2048x1024 := Rect.unit (s := S1x2048x1024) ![0, 0, 192] S1x2048x64.size inb_S1x2048x1024_S1x2048x64_0_0_192
abbrev rK4 : Rect S1x2048x1024 := Rect.unit (s := S1x2048x1024) ![0, 0, 256] S1x2048x64.size inb_S1x2048x1024_S1x2048x64_0_0_256
abbrev rK5 : Rect S1x2048x1024 := Rect.unit (s := S1x2048x1024) ![0, 0, 320] S1x2048x64.size inb_S1x2048x1024_S1x2048x64_0_0_320
abbrev rK6 : Rect S1x2048x1024 := Rect.unit (s := S1x2048x1024) ![0, 0, 384] S1x2048x64.size inb_S1x2048x1024_S1x2048x64_0_0_384
abbrev rK7 : Rect S1x2048x1024 := Rect.unit (s := S1x2048x1024) ![0, 0, 448] S1x2048x64.size inb_S1x2048x1024_S1x2048x64_0_0_448
abbrev rK8 : Rect S1x2048x1024 := Rect.unit (s := S1x2048x1024) ![0, 0, 512] S1x2048x64.size inb_S1x2048x1024_S1x2048x64_0_0_512
abbrev rK9 : Rect S1x2048x1024 := Rect.unit (s := S1x2048x1024) ![0, 0, 576] S1x2048x64.size inb_S1x2048x1024_S1x2048x64_0_0_576
abbrev rK10 : Rect S1x2048x1024 := Rect.unit (s := S1x2048x1024) ![0, 0, 640] S1x2048x64.size inb_S1x2048x1024_S1x2048x64_0_0_640
abbrev rK11 : Rect S1x2048x1024 := Rect.unit (s := S1x2048x1024) ![0, 0, 704] S1x2048x64.size inb_S1x2048x1024_S1x2048x64_0_0_704
abbrev rK12 : Rect S1x2048x1024 := Rect.unit (s := S1x2048x1024) ![0, 0, 768] S1x2048x64.size inb_S1x2048x1024_S1x2048x64_0_0_768
abbrev rK13 : Rect S1x2048x1024 := Rect.unit (s := S1x2048x1024) ![0, 0, 832] S1x2048x64.size inb_S1x2048x1024_S1x2048x64_0_0_832
abbrev rK14 : Rect S1x2048x1024 := Rect.unit (s := S1x2048x1024) ![0, 0, 896] S1x2048x64.size inb_S1x2048x1024_S1x2048x64_0_0_896
abbrev rK15 : Rect S1x2048x1024 := Rect.unit (s := S1x2048x1024) ![0, 0, 960] S1x2048x64.size inb_S1x2048x1024_S1x2048x64_0_0_960
abbrev rS0 : Rect S256x1024 := Rect.unit (s := S256x1024) ![0, 0] S256x64.size inb_S256x1024_S256x64_0_0
abbrev rS1 : Rect S256x1024 := Rect.unit (s := S256x1024) ![0, 64] S256x64.size inb_S256x1024_S256x64_0_64
abbrev rS2 : Rect S256x1024 := Rect.unit (s := S256x1024) ![0, 128] S256x64.size inb_S256x1024_S256x64_0_128
abbrev rS3 : Rect S256x1024 := Rect.unit (s := S256x1024) ![0, 192] S256x64.size inb_S256x1024_S256x64_0_192
abbrev rS4 : Rect S256x1024 := Rect.unit (s := S256x1024) ![0, 256] S256x64.size inb_S256x1024_S256x64_0_256
abbrev rS5 : Rect S256x1024 := Rect.unit (s := S256x1024) ![0, 320] S256x64.size inb_S256x1024_S256x64_0_320
abbrev rS6 : Rect S256x1024 := Rect.unit (s := S256x1024) ![0, 384] S256x64.size inb_S256x1024_S256x64_0_384
abbrev rS7 : Rect S256x1024 := Rect.unit (s := S256x1024) ![0, 448] S256x64.size inb_S256x1024_S256x64_0_448
abbrev rS8 : Rect S256x1024 := Rect.unit (s := S256x1024) ![0, 512] S256x64.size inb_S256x1024_S256x64_0_512
abbrev rS9 : Rect S256x1024 := Rect.unit (s := S256x1024) ![0, 576] S256x64.size inb_S256x1024_S256x64_0_576
abbrev rS10 : Rect S256x1024 := Rect.unit (s := S256x1024) ![0, 640] S256x64.size inb_S256x1024_S256x64_0_640
abbrev rS11 : Rect S256x1024 := Rect.unit (s := S256x1024) ![0, 704] S256x64.size inb_S256x1024_S256x64_0_704
abbrev rS12 : Rect S256x1024 := Rect.unit (s := S256x1024) ![0, 768] S256x64.size inb_S256x1024_S256x64_0_768
abbrev rS13 : Rect S256x1024 := Rect.unit (s := S256x1024) ![0, 832] S256x64.size inb_S256x1024_S256x64_0_832
abbrev rS14 : Rect S256x1024 := Rect.unit (s := S256x1024) ![0, 896] S256x64.size inb_S256x1024_S256x64_0_896
abbrev rS15 : Rect S256x1024 := Rect.unit (s := S256x1024) ![0, 960] S256x64.size inb_S256x1024_S256x64_0_960
abbrev rSall : Rect S256x1024 := Rect.unit (s := S256x1024) ![0, 0] S256x1024.size inb_S256x1024_S256x1024_0_0
abbrev rWo : Rect S1024x1024 := Rect.unit (s := S1024x1024) ![0, 0] S1024x1024.size inb_S1024x1024_S1024x1024_0_0
abbrev rBo : Rect S1x1024 := Rect.unit (s := S1x1024) ![0, 0] S1x1024.size inb_S1x1024_S1x1024_0_0
abbrev rOut : Rect S1x256x1024 := Rect.unit (s := S1x256x1024) ![0, 0, 0] S1x256x1024.size inb_S1x256x1024_S1x256x1024_0_0_0

/-! ## What the body computes -/

/-- One head: from its 256×64 query slice and 2048×64 key and value slices to its 256×64 context
    (the first head's stored value as the skeleton names it; every head is this function of its own slices). -/
abbrev headOut (q : Vec F S1x256x64 .bf16) (k v : Vec F S1x2048x64 .bf16) : FVec F S256x64 .bf16 := k1_pay2 q k v

/-- The scratch after the sixteen heads' stores (later stores first): head h's context in columns [64h, 64h + 64). -/
def ctx1 (xq : Vec F S1x256x1024 .bf16) (xk xv : Vec F S1x2048x1024 .bf16) : Vec F S256x1024 .bf16 :=
  View.canon [⟨rS15, headOut (View.ld xq rQ15) (View.ld xk rK15) (View.ld xv rK15)⟩,
    ⟨rS14, headOut (View.ld xq rQ14) (View.ld xk rK14) (View.ld xv rK14)⟩,
    ⟨rS13, headOut (View.ld xq rQ13) (View.ld xk rK13) (View.ld xv rK13)⟩,
    ⟨rS12, headOut (View.ld xq rQ12) (View.ld xk rK12) (View.ld xv rK12)⟩,
    ⟨rS11, headOut (View.ld xq rQ11) (View.ld xk rK11) (View.ld xv rK11)⟩,
    ⟨rS10, headOut (View.ld xq rQ10) (View.ld xk rK10) (View.ld xv rK10)⟩,
    ⟨rS9, headOut (View.ld xq rQ9) (View.ld xk rK9) (View.ld xv rK9)⟩,
    ⟨rS8, headOut (View.ld xq rQ8) (View.ld xk rK8) (View.ld xv rK8)⟩,
    ⟨rS7, headOut (View.ld xq rQ7) (View.ld xk rK7) (View.ld xv rK7)⟩,
    ⟨rS6, headOut (View.ld xq rQ6) (View.ld xk rK6) (View.ld xv rK6)⟩,
    ⟨rS5, headOut (View.ld xq rQ5) (View.ld xk rK5) (View.ld xv rK5)⟩,
    ⟨rS4, headOut (View.ld xq rQ4) (View.ld xk rK4) (View.ld xv rK4)⟩,
    ⟨rS3, headOut (View.ld xq rQ3) (View.ld xk rK3) (View.ld xv rK3)⟩,
    ⟨rS2, headOut (View.ld xq rQ2) (View.ld xk rK2) (View.ld xv rK2)⟩,
    ⟨rS1, headOut (View.ld xq rQ1) (View.ld xk rK1) (View.ld xv rK1)⟩,
    ⟨rS0, headOut (View.ld xq rQ0) (View.ld xk rK0) (View.ld xv rK0)⟩]

/-- The result block: the projection of the scratch read back whole. -/
def out1 (xq : Vec F S1x256x1024 .bf16) (xk xv : Vec F S1x2048x1024 .bf16) (wo : Vec F S1024x1024 .bf16) (bo : Vec F S1x1024 .f32) :
    Vec F S1x256x1024 .f32 :=
  View.canon [⟨rOut, k1_pay1 (View.ld (ctx1 xq xk xv) rSall) (View.ld wo rWo) (View.ld bo rBo)⟩]

theorem coverOut (p0 : Vec F S1x256x1024 .f32) (y : S1x256x1024.Idx) :
    ∃ pc ∈ ([⟨rOut, p0⟩] : List (View.Piece (Elt F) S1x256x1024 .f32)), y ∈ pc.1.set :=
  View.cover_of_tiled [⟨rOut, p0⟩] S1x256x1024.size (by rfl) y

set_option maxHeartbeats 4000000 in
/-- The body on whole staging memrefs: the five inputs at their contents, the result's buffer and the scratch at
    anything; it returns with the inputs as they were, the result's buffer at `out1` of them, the scratch at something. -/
theorem sound_kernel1 (c : Dev nD) (E : Set ℕ) (i : grid1.Coords)
    (arg2 : Memref sig .tc .vmem S1x256x1024 .bf16) (harg2 : arg2.IsWhole) (arg3 : Memref sig .tc .vmem S1x2048x1024 .bf16) (harg3 : arg3.IsWhole)
    (arg4 : Memref sig .tc .vmem S1x2048x1024 .bf16) (harg4 : arg4.IsWhole) (arg5 : Memref sig .tc .vmem S1024x1024 .bf16) (harg5 : arg5.IsWhole)
    (arg6 : Memref sig .tc .vmem S1x1024 .f32) (harg6 : arg6.IsWhole) (arg7 : Memref sig .tc .vmem S1x256x1024 .f32) (harg7 : arg7.IsWhole)
    (arg8 : Memref sig .tc .vmem S256x1024 .bf16) (harg8 : arg8.IsWhole)
    (xq : Vec F S1x256x1024 .bf16) (xk xv : Vec F S1x2048x1024 .bf16) (wo : Vec F S1024x1024 .bf16) (bo : Vec F S1x1024 .f32)
    (K : PUnit → sProp 𝕄) :
    iprop(owns (c : Thread nD τ) arg2 fullShare xq ∗ owns (c : Thread nD τ) arg3 fullShare xk ∗ owns (c : Thread nD τ) arg4 fullShare xv
        ∗ owns (c : Thread nD τ) arg5 fullShare wo ∗ owns (c : Thread nD τ) arg6 fullShare bo
        ∗ (∃ d, owns (c : Thread nD τ) arg7 fullShare d) ∗ (∃ d, owns (c : Thread nD τ) arg8 fullShare d)
        ∗ (iprop(owns (c : Thread nD τ) arg2 fullShare xq ∗ owns (c : Thread nD τ) arg3 fullShare xk ∗ owns (c : Thread nD τ) arg4 fullShare xv
            ∗ owns (c : Thread nD τ) arg5 fullShare wo ∗ owns (c : Thread nD τ) arg6 fullShare bo
            ∗ owns (c : Thread nD τ) arg7 fullShare (out1 xq xk xv wo bo) ∗ (∃ d, owns (c : Thread nD τ) arg8 fullShare d)) -∗ K ⟨⟩))
      ⊢ wp frame (wpE (defs₀ (F := F)) Variants.none c none) E
          (cc1__attn_outproj_kernel i arg2 harg2 arg3 harg3 arg4 harg4 arg5 harg5 arg6 harg6 arg7 harg7 arg8 harg8) K := by
  unfold owns
  iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf2; subst hf3; subst hf4; subst hf5; subst hf6
  sl_exec_parts!
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    sl_unfold_run_names
    rw [View.read_writes_eq_canon _ _ _ (coverOut _), View.readCov_eq_canon']
    rfl
  iexists _, _; isplitr
  swap; · iexact H8
  ipureintro; rfl

end Cert.KernelIdeal.Hand

end
-- ==== Proof.KI.Reg1.lean ====
/-
  The attention region (the second pallas_call) as a pipeline: a grid of 4 batches × 8 query blocks. The query,
  key and value windows all read the one projected array (column blocks 0, 1, 2 of its 3072 features), so the
  core's hold on that array is divided among the three windows; the weight and bias windows are whole arrays;
  the result window writes one 256-row block per point. Stated for any float instance and at any contents `V`
  of the core's buffers when the region is entered.
-/
import proofs.«409074_j27238682591490_3_alg».proof.Proof.Gen.KernelIdeal.Launch
import proofs.«409074_j27238682591490_3_alg».proof.Proof.Gen.KernelIdeal.Skeleton
import proofs.«409074_j27238682591490_3_alg».proof.Proof.Gen.KernelIdeal.Points
import proofs.«409074_j27238682591490_3_alg».proof.Proof.KI.Body1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Blocks -/

/-- Window `w`'s block at point `t`, read off the window's array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, whether the pipeline fetched there or kept the
    buffer: the window is never cut or idle, and an unfetched point has the block index of the point before. One
    statement per input window (the block's type reduces only at a literal window). -/
theorem before1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = blk1 V c 3 t) (t : Fin cfg1.N) (d) : dat.before 3 t d = blk1 V c 3 t :=
  (dat.before_in_eq_fetched 3 rfl (fun _ => rfl) (fun _ _ _ => rfl) (fun t => by rw [hafter]; unfold Dat.blockOf blk1; rw [hA]; try rfl) t d).trans
    (by unfold Dat.fetched Dat.blockOf blk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = blk1 V c 4 t) (t : Fin cfg1.N) (d) : dat.before 4 t d = blk1 V c 4 t :=
  (dat.before_in_eq_fetched 4 rfl (fun _ => rfl) (fun _ _ _ => rfl) (fun t => by rw [hafter]; unfold Dat.blockOf blk1; rw [hA]; try rfl) t d).trans
    (by unfold Dat.fetched Dat.blockOf blk1; rw [hA]; try rfl)

/-! ## The proof data -/

/-- Region 1's proof data on core `c`: the arrays as entered; after the body each input's buffer at its block, the
    result's at `out1` of the input blocks; the invariant is the scoped rest (the scratch among it) and the generator
    register; nothing owed. The projected array is read by three windows: the core's full hold on it is divided into a
    half and two quarters. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => out1 (blk1 V c 0 t) (blk1 V c 1 t) (blk1 V c 2 t) (blk1 V c 3 t) (blk1 V c 4 t)
  Φ _ := Pipeline.ΦA spec1 c
  q w := match w with
    | ⟨0, _⟩ => fullShare.left
    | ⟨1, _⟩ => fullShare.right.left
    | ⟨2, _⟩ => fullShare.right.right
    | ⟨3, _⟩ => fullShare
    | ⟨4, _⟩ => fullShare
    | ⟨5, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) : (dat1 V c).after 3 t = blk1 V c 3 t := by dsimp only [dat1]
theorem after1_4 (c : Dev nD) (t : Fin cfg1.N) : (dat1 V c).after 4 t = blk1 V c 4 t := by dsimp only [dat1]
theorem after1_5 (c : Dev nD) (t : Fin cfg1.N) :
    (dat1 V c).after 5 t = out1 (blk1 V c 0 t) (blk1 V c 1 t) (blk1 V c 2 t) (blk1 V c 3 t) (blk1 V c 4 t) := by dsimp only [dat1]

theorem before1_0 (c : Dev nD) (t : Fin cfg1.N) (d) : (dat1 V c).before 0 t d = blk1 V c 0 t :=
  before1_0_of V (dat1 V c) (A_eq1 V c 0) (after1_0 V c) t d
theorem before1_1 (c : Dev nD) (t : Fin cfg1.N) (d) : (dat1 V c).before 1 t d = blk1 V c 1 t :=
  before1_1_of V (dat1 V c) (A_eq1 V c 1) (after1_1 V c) t d
theorem before1_2 (c : Dev nD) (t : Fin cfg1.N) (d) : (dat1 V c).before 2 t d = blk1 V c 2 t :=
  before1_2_of V (dat1 V c) (A_eq1 V c 2) (after1_2 V c) t d
theorem before1_3 (c : Dev nD) (t : Fin cfg1.N) (d) : (dat1 V c).before 3 t d = blk1 V c 3 t :=
  before1_3_of V (dat1 V c) (A_eq1 V c 3) (after1_3 V c) t d
theorem before1_4 (c : Dev nD) (t : Fin cfg1.N) (d) : (dat1 V c).before 4 t d = blk1 V c 4 t :=
  before1_4_of V (dat1 V c) (A_eq1 V c 4) (after1_4 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' buffers hold their blocks, the scratch is taken out of the scoped rest for the
    run and put back at whatever the run leaves in it. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5,
    show (dat1 V c).Φ t.castSucc = Pipeline.ΦA spec1 c from rfl]
  unfold Pipeline.ΦA
  rw [scopedRest1_eq]
  iintro ⟨⟨⟨Ha, Hb, Hc, Hd, He, Hf, ⟨%fs, Hs⟩⟩, Hp⟩, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ _ _ (blk1 V c 0 t) (blk1 V c 1 t) (blk1 V c 2 t) (blk1 V c 3 t) (blk1 V c 4 t) _)
  isplitl [H0]; · iexact H0
  isplitl [H1]; · iexact H1
  isplitl [H2]; · iexact H2
  isplitl [H3]; · iexact H3
  isplitl [H4]; · iexact H4
  isplitl [H5]; · iexists _; iexact H5
  isplitl [Hs]
  · iexists fs; rw [owns_whole]; iexact Hs
  iintro ⟨H0, H1, H2, H3, H4, H5, ⟨%fs', Hs⟩⟩
  isplitl [Ha Hb Hc Hd He Hf Hs Hp]
  · isplitr [Hp]
    · isplitl [Ha]; · iexact Ha
      isplitl [Hb]; · iexact Hb
      isplitl [Hc]; · iexact Hc
      isplitl [Hd]; · iexact Hd
      isplitl [He]; · iexact He
      isplitl [Hf]; · iexact Hf
      iexists fs'; rw [← owns_whole (c : Thread nD τ) cc1_scratch0 fullShare fs']; iexact Hs
    iexact Hp
  isplitl [Ho]; · iexact Ho
  isplitl [H0]; · iexact H0
  isplitl [H1]; · iexact H1
  isplitl [H2]; · iexact H2
  isplitl [H3]; · iexact H3
  isplitl [H4]; · iexact H4
  iexact H5

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Fold.lean ====
/-
  The buffers' contents between the items of @main, for any float instance: the launch memory folded through three host
  operations, the projection region, three more host operations and the attention region — a host stretch applies its
  operations; a region replaces its result array by what its write-backs leave and changes nothing else — and the two
  pipelines' proof data, each at its region's entry contents.
-/
import proofs.«409074_j27238682591490_3_alg».proof.Proof.Gen.KernelIdeal.Launch
import proofs.«409074_j27238682591490_3_alg».proof.Proof.Gen.KernelIdeal.Skeleton
import proofs.«409074_j27238682591490_3_alg».proof.Proof.Gen.KernelIdeal.Points
import proofs.«409074_j27238682591490_3_alg».proof.Proof.KI.Reg0
import proofs.«409074_j27238682591490_3_alg».proof.Proof.KI.Reg1
import proofs.«409074_j27238682591490_3_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between items -/

/-- At launch. -/
abbrev W0 : Dev nD → Valuation τ sig (Elt F) := fun c b => m (c, b)
/-- After the first host stretch: the projection region's entry contents, -/
abbrev W1 : Dev nD → Valuation τ sig (Elt F) := fun c => StableHlo.after hostOps0 (W0 m c)
/-- read at the TensorCore's references. -/
abbrev E1 : (c : Dev nD) → (b : Ref sig .tc) → Buf (Elt F) ((c : Thread nD τ).loc b) := fun c b => W1 m c b
/-- What the projection region leaves in its result array: its sixteen write-backs folded. -/
abbrev res0 (c : Dev nD) : Buf (Elt F) ((c : Thread nD τ).loc main_v3) := (dat0 (E1 m) c).arrAt 3 cfg0.N
/-- After the projection region: its result array replaced, nothing else changed. -/
def W2 (c : Dev nD) : Valuation τ sig (Elt F) := Function.update (W1 m c) (Proc.devRef .tc main_v3) (res0 m c)
abbrev X2 : (c : Dev nD) → (b : Ref sig .tc) → Buf (Elt F) ((c : Thread nD τ).loc b) := fun c b => W2 m c b
/-- After the second host stretch: the attention region's entry contents, -/
abbrev W3 : Dev nD → Valuation τ sig (Elt F) := fun c => StableHlo.after hostOps1 (W2 m c)
abbrev E3 : (c : Dev nD) → (b : Ref sig .tc) → Buf (Elt F) ((c : Thread nD τ).loc b) := fun c b => W3 m c b
/-- What the attention region leaves in its result array: its thirty-two write-backs folded. -/
abbrev res1 (c : Dev nD) : Buf (Elt F) ((c : Thread nD τ).loc main_v7) := (dat1 (E3 m) c).arrAt 5 cfg1.N
/-- After the attention region. -/
def W4 (c : Dev nD) : Valuation τ sig (Elt F) := Function.update (W3 m c) (Proc.devRef .tc main_v7) (res1 m c)
abbrev X4 : (c : Dev nD) → (b : Ref sig .tc) → Buf (Elt F) ((c : Thread nD τ).loc b) := fun c b => W4 m c b

theorem W2_res (c : Dev nD) : W2 m c (Proc.devRef .tc main_v3) = res0 m c := by
  unfold W2; exact Function.update_self _ _ _
theorem W2_of_ne (c : Dev nD) (b : Ref sig .tc) (hb : b ≠ main_v3) : W2 m c (Proc.devRef .tc b) = W1 m c (Proc.devRef .tc b) := by
  unfold W2; exact Function.update_of_ne (StableHlo.devRef_ne_of_ne hb) _ _
theorem W4_res (c : Dev nD) : W4 m c (Proc.devRef .tc main_v7) = res1 m c := by
  unfold W4; exact Function.update_self _ _ _
theorem W4_of_ne (c : Dev nD) (b : Ref sig .tc) (hb : b ≠ main_v7) : W4 m c (Proc.devRef .tc b) = W3 m c (Proc.devRef .tc b) := by
  unfold W4; exact Function.update_of_ne (StableHlo.devRef_ne_of_ne hb) _ _

/-- No host operation writes a reference outside its stretch's results. -/
theorem W1_of (c : Dev nD) (r : Ref sig .tc) (h : r ∉ hostOps0_W) : W1 m c (Proc.devRef .tc r) = W0 m c (Proc.devRef .tc r) :=
  StableHlo.after_of_writes_sub hostOps0 _ hostOps0_writes h
theorem W3_of (c : Dev nD) (r : Ref sig .tc) (h : r ∉ hostOps1_W) : W3 m c (Proc.devRef .tc r) = W2 m c (Proc.devRef .tc r) :=
  StableHlo.after_of_writes_sub hostOps1 _ hostOps1_writes h

/-- An argument reaches the end as launched. -/
theorem W4_arg (c : Dev nD) (r : Ref sig .tc) (h7 : r ≠ main_v7) (h1 : r ∉ hostOps1_W) (h3 : r ≠ main_v3) (h0 : r ∉ hostOps0_W) :
    W4 m c (Proc.devRef .tc r) = m ((c : Thread nD τ).loc r) :=
  (W4_of_ne m c r h7).trans <| (W3_of m c r h1).trans <| (W2_of_ne m c r h3).trans <| (W1_of m c r h0).trans rfl

/-! ## The regions' arrays at their exits -/

/-- The projection region's arrays at its exit: the inputs as entered, the result at its folded write-backs. -/
theorem hF0 (c : Dev nD) (w : Fin cfg0.W) : (dat0 (E1 m) c).arrAt w cfg0.N = X2 m c (Pipeline.arrRef spec0 w) := by
  match w with
  | ⟨0, _⟩ => exact ((dat0 (E1 m) c).arrAt_in 0 rfl _).trans ((A_eq0 (E1 m) c 0).trans (W2_of_ne m c _ (by decide)).symm)
  | ⟨1, _⟩ => exact ((dat0 (E1 m) c).arrAt_in 1 rfl _).trans ((A_eq0 (E1 m) c 1).trans (W2_of_ne m c _ (by decide)).symm)
  | ⟨2, _⟩ => exact ((dat0 (E1 m) c).arrAt_in 2 rfl _).trans ((A_eq0 (E1 m) c 2).trans (W2_of_ne m c _ (by decide)).symm)
  | ⟨3, _⟩ => exact (W2_res m c).symm
theorem hrest0 (c : Dev nD) : ∀ b, b ∉ Finset.univ.image (Pipeline.arrRef spec0) → X2 m c b = E1 m c b :=
  fun b hb => W2_of_ne m c b fun e => hb (Finset.mem_image.mpr ⟨3, Finset.mem_univ _, e.symm⟩)

/-! ## The proof data family and the thread state -/

/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E3 m) c

end Cert.KernelIdeal.Hand

end
-- ==== Proof.KI.Shares.lean ====
/-
  The attention region reads the projected array through three windows (query, key, value). At the region's entry the
  core's full hold on that array is divided — a half for the query window, a quarter each for the key and value windows —
  and at its exit, the array unchanged, the three parts are joined again. The other three arrays (output weight, bias,
  result) are distinct buffers held in full.
-/
import proofs.«409074_j27238682591490_3_alg».proof.Proof.Gen.KernelIdeal.Launch
import proofs.«409074_j27238682591490_3_alg».proof.Proof.Gen.KernelIdeal.Skeleton
import proofs.«409074_j27238682591490_3_alg».proof.Proof.Gen.KernelIdeal.Points
import proofs.«409074_j27238682591490_3_alg».proof.Proof.KI.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers behind the six windows -/

/-- The distinct buffers behind the attention region's six windows: the projected array, the output weight, the bias and
    the result. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v4) ↦{fullShare} V main_v4) ∗ (((c : Thread nD τ).loc main_v5) ↦{fullShare} V main_v5)
          ∗ (((c : Thread nD τ).loc main_v6) ↦{fullShare} V main_v6) ∗ (((c : Thread nD τ).loc main_v7) ↦{fullShare} V main_v7)) :=
  bigSep_eq_bigSepL_of_eq [main_v4, main_v5, main_v6, main_v7] (by decide) (by decide) _

/-- The six windows' arrays one by one: the projected array under the query window's half and the key and value
    windows' quarters, the other three arrays held in full; each a whole buffer. -/
theorem arrays1_eq (c : Dev nD) (V : (c : Dev nD) → (b : Ref sig .tc) → Buf (Elt F) ((c : Thread nD τ).loc b))
    (G : (w : Fin cfg1.W) → Buf (Elt F) ((cfg1.win w).arr.view.loc (c : Thread nD τ))) :
    ((dat1 V c).arrays G : sProp 𝕄)
      = iprop((((c : Thread nD τ).loc main_v4) ↦{fullShare.left} G 0) ∗ (((c : Thread nD τ).loc main_v4) ↦{fullShare.right.left} G 1)
          ∗ (((c : Thread nD τ).loc main_v4) ↦{fullShare.right.right} G 2) ∗ (((c : Thread nD τ).loc main_v5) ↦{fullShare} G 3)
          ∗ (((c : Thread nD τ).loc main_v6) ↦{fullShare} G 4) ∗ (((c : Thread nD τ).loc main_v7) ↦{fullShare} G 5)) := by
  unfold Dat.arrays
  rw [bigSep_W1]
  rw [(arr_whole1 0).set_eq_univ, (arr_whole1 3).set_eq_univ, (arr_whole1 4).set_eq_univ, (arr_whole1 5).set_eq_univ]
  rfl

/-- The four buffers at contents `V`, each held in full, are the six windows' arrays at contents read off `V`: the
    projected array's full hold is its half and two quarters, one way and the other. -/
theorem arrBufs1_arrays (c : Dev nD) (V₀ : (c : Dev nD) → (b : Ref sig .tc) → Buf (Elt F) ((c : Thread nD τ).loc b))
    (V : (b : Ref sig .tc) → Buf (Elt F) ((c : Thread nD τ).loc b))
    (G : (w : Fin cfg1.W) → Buf (Elt F) ((cfg1.win w).arr.view.loc (c : Thread nD τ)))
    (hG : ∀ w, G w = V (Pipeline.arrRef spec1 w)) :
    (Pipeline.arrBufs (Ix := Unit) (Name := ℕ) (U := UR sig nD τ) (Lvl := ℕ) spec1 c V : sProp 𝕄) ⊣⊢ (dat1 V₀ c).arrays G := by
  rw [arrBufs1_eq, arrays1_eq, hG 0, hG 1, hG 2, hG 3, hG 4, hG 5]
  show iprop((((c : Thread nD τ).loc main_v4) ↦{fullShare} V main_v4) ∗ (((c : Thread nD τ).loc main_v5) ↦{fullShare} V main_v5)
          ∗ (((c : Thread nD τ).loc main_v6) ↦{fullShare} V main_v6) ∗ (((c : Thread nD τ).loc main_v7) ↦{fullShare} V main_v7))
    ⊣⊢ iprop((((c : Thread nD τ).loc main_v4) ↦{fullShare.left} V main_v4) ∗ (((c : Thread nD τ).loc main_v4) ↦{fullShare.right.left} V main_v4)
          ∗ (((c : Thread nD τ).loc main_v4) ↦{fullShare.right.right} V main_v4) ∗ (((c : Thread nD τ).loc main_v5) ↦{fullShare} V main_v5)
          ∗ (((c : Thread nD τ).loc main_v6) ↦{fullShare} V main_v6) ∗ (((c : Thread nD τ).loc main_v7) ↦{fullShare} V main_v7))
  constructor
  · iintro ⟨H4, H5, H6, H7⟩
    ihave H := (pointsTo_share (PosShare.mem_left_op_right fullShare)).1 $$ H4
    icases H with ⟨Hl, Hr⟩
    ihave H := (pointsTo_share (PosShare.mem_left_op_right fullShare.right)).1 $$ Hr
    icases H with ⟨Hrl, Hrr⟩
    isplitl [Hl]; · iexact Hl
    isplitl [Hrl]; · iexact Hrl
    isplitl [Hrr]; · iexact Hrr
    isplitl [H5]; · iexact H5
    isplitl [H6]; · iexact H6
    iexact H7
  · iintro ⟨Hl, Hrl, Hrr, H5, H6, H7⟩
    isplitl [Hl Hrl Hrr]
    · iapply (pointsTo_share (PosShare.mem_left_op_right fullShare)).2
      isplitl [Hl]; · iexact Hl
      iapply (pointsTo_share (PosShare.mem_left_op_right fullShare.right)).2
      isplitl [Hrl]; · iexact Hrl
      iexact Hrr
    isplitl [H5]; · iexact H5
    isplitl [H6]; · iexact H6
    iexact H7

/-! ## The region's entry -/

/-- ENTRY of the attention region, the arrays' part: the core's unscoped buffers at `V` give the region's six windows
    their arrays — the projected array's full hold divided into a half for the query window and a quarter each for the
    key and value windows — and the unscoped rest. -/
theorem arrays1_of_unscopedBufs (c : Dev nD) :
    (unscopedBufs c (E3 m c) : sProp 𝕄) ⊢ iprop((pdats m 1 c).arrays ((pdats m 1 c).arrAt · 0)
      ∗ Pipeline.unscopedRest (Ix := Unit) (Name := ℕ) (U := UR sig nD τ) (Lvl := ℕ) spec1 c (E3 m c)) := by
  rw [Pipeline.unscopedBufs_split₀ cfgs 1 winFacts₀1.arr_unscoped c (E3 m c)]
  exact sep_mono (arrBufs1_arrays c (E3 m) (E3 m c) _ fun w => A_eq1 (E3 m) c w).1 .rfl

/-! ## The arrays at the region's exit -/

/-- The attention region's arrays at its exit: the five inputs as entered, the result at its folded write-backs. -/
theorem hF1 (c : Dev nD) (w : Fin cfg1.W) : (dat1 (E3 m) c).arrAt w cfg1.N = X4 m c (Pipeline.arrRef spec1 w) := by
  match w with
  | ⟨0, _⟩ => exact ((dat1 (E3 m) c).arrAt_in 0 rfl _).trans ((A_eq1 (E3 m) c 0).trans (W4_of_ne m c _ (by decide)).symm)
  | ⟨1, _⟩ => exact ((dat1 (E3 m) c).arrAt_in 1 rfl _).trans ((A_eq1 (E3 m) c 1).trans (W4_of_ne m c _ (by decide)).symm)
  | ⟨2, _⟩ => exact ((dat1 (E3 m) c).arrAt_in 2 rfl _).trans ((A_eq1 (E3 m) c 2).trans (W4_of_ne m c _ (by decide)).symm)
  | ⟨3, _⟩ => exact ((dat1 (E3 m) c).arrAt_in 3 rfl _).trans ((A_eq1 (E3 m) c 3).trans (W4_of_ne m c _ (by decide)).symm)
  | ⟨4, _⟩ => exact ((dat1 (E3 m) c).arrAt_in 4 rfl _).trans ((A_eq1 (E3 m) c 4).trans (W4_of_ne m c _ (by decide)).symm)
  | ⟨5, _⟩ => exact (W4_res m c).symm

/-- Off the region's arrays nothing changed. -/
theorem hrest1 (c : Dev nD) : ∀ b, b ∉ Finset.univ.image (Pipeline.arrRef spec1) → X4 m c b = E3 m c b :=
  fun b hb => W4_of_ne m c b fun e => hb (Finset.mem_image.mpr ⟨5, Finset.mem_univ _, e.symm⟩)

/-- EXIT of the attention region, the arrays' part: the six windows' arrays at their final contents — the three holds on
    the projected array joined again, the result array at its folded write-backs — and the unscoped rest are the core's
    unscoped buffers at `W4`. -/
theorem unscopedBufs_of_arrays1 (c : Dev nD) :
    iprop((pdats m 1 c).arrays ((pdats m 1 c).arrAt · cfg1.N)
      ∗ Pipeline.unscopedRest (Ix := Unit) (Name := ℕ) (U := UR sig nD τ) (Lvl := ℕ) spec1 c (E3 m c)) ⊢ (unscopedBufs c (X4 m c) : sProp 𝕄) := by
  rw [Pipeline.unscopedBufs_split₀ cfgs 1 winFacts₀1.arr_unscoped c (X4 m c)]
  refine sep_mono (arrBufs1_arrays c (E3 m) (X4 m c) _ fun w => hF1 m c w).2 (Entails.of_eq ?_)
  unfold Pipeline.unscopedRest
  exact bigSep_congr fun b hb => by rw [hrest1 m c b (Finset.mem_sdiff.mp hb).2]

end Cert.KernelIdeal.Hand

end
-- ==== Proof.KI.Run.lean ====
/-
  The run of @main from launch to return, for any float instance: three host operations (a reshape of x, the weight
  narrowed, the bias reshaped), the projection region, three more (the projected array reshaped to [4, 2048, 3072], the
  output weight narrowed, its bias reshaped), the attention region. Between two items the core holds every unscoped
  buffer whole at contents named here — the launch memory folded through the items: a host stretch applies its
  operations; a region replaces its result array by what its write-backs leave and changes nothing else — beside its
  generator register and a zero debt. The attention region reads the projected array through three windows, so at
  its entry the core's hold on that array is divided among them and at its exit joined again.
-/
import proofs.«409074_j27238682591490_3_alg».proof.Proof.Gen.KernelIdeal.Launch
import proofs.«409074_j27238682591490_3_alg».proof.Proof.Gen.KernelIdeal.Skeleton
import proofs.«409074_j27238682591490_3_alg».proof.Proof.Gen.KernelIdeal.Points
import proofs.«409074_j27238682591490_3_alg».proof.Proof.KI.Fold
import proofs.«409074_j27238682591490_3_alg».proof.Proof.KI.Shares
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The thread state -/

abbrev 𝒱₀ : Variants := Variants.none
abbrev L : GSem nD τ sig → Finset Unit := fun _ => ∅
abbrev lv : GSem nD τ sig → Unit → ℕ := fun _ _ => 0
/-- Beside the buffers: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- The projection region: entered from every unscoped buffer at `W1`, left at `W2`. Its four arrays are distinct buffers,
    split out of the unscoped buffers at entry and put back at exit; the generator register goes into the region's
    invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (X2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region: entered from every unscoped buffer at `W3`, left at `W4`. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (E3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := arrays1_of_unscopedBufs m c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := unscopedBufs_of_arrays1 m c
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m) ]
theorem main_run (c : Dev nD) : main (F := F) c = Pipeline.Seg.run (segs m) := (main_chain c).trans (by chain_rfl)

set_option backward.isDefEq.respectTransparency.types false in
/-- THE RUN, at any float instance: from any memory with zero counters every weakly fair execution of @main terminates,
    nothing faulting, and in every final state the result array holds what the attention region's write-backs leave
    (`res1`) and the five argument arrays are as launched. -/
theorem run_main : θ_run defs (onTc (τ := τ) (main (F := F))) ⟨m, fun _ => 0, ρ⟩ (fun r => ∀ c : Dev nD,
      r.2.mem ((c.tc : Thread nD τ).loc main_v7) = res1 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c =>
      ⟨(h c _ (mem_uc main_v7 (by decide))).trans (W4_res m c),
       (h c _ (mem_uc main_arg0 (by decide))).trans (W4_arg m c main_arg0 (by decide) (by decide) (by decide) (by decide)),
       (h c _ (mem_uc main_arg1 (by decide))).trans (W4_arg m c main_arg1 (by decide) (by decide) (by decide) (by decide)),
       (h c _ (mem_uc main_arg2 (by decide))).trans (W4_arg m c main_arg2 (by decide) (by decide) (by decide) (by decide)),
       (h c _ (mem_uc main_arg3 (by decide))).trans (W4_arg m c main_arg3 (by decide) (by decide) (by decide) (by decide)),
       (h c _ (mem_uc main_arg4 (by decide))).trans (W4_arg m c main_arg4 (by decide) (by decide) (by decide) (by decide))⟩)

end Cert.KernelIdeal.Hand

end
-- ==== Proof.KI.Val0.lean ====
/-
  What the projection region leaves in its result array, read at the ideal values: x·wᵀ + b at every row and feature.
-/
import proofs.«409074_j27238682591490_3_alg».proof.Proof.KI.Reg0
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The region's arrays at their literal types: x as 8192 rows, the narrowed weight, the bias as one row, the result. -/
abbrev inX (c : Dev nD) : S8192x1024.Idx → EReal := V c main_v0
abbrev inW (c : Dev nD) : S3072x1024.Idx → EReal := V c main_v1
abbrev inB (c : Dev nD) : S1x3072.Idx → EReal := V c main_v2
abbrev outP (c : Dev nD) : S8192x3072.Idx → EReal := (dat0 (F := Ideal) V c).arrAt 3 cfg0.N

/-! ## The body's payload at an index -/

/-- The product's left operand is read at the output's row … -/
theorem lhs_proj_0 (i : S512x3072.Idx) (q : dot_S512x1024_S3072x1024_S512x3072_1_1_0_0_n_n.contr.Idx) :
    (dot_S512x1024_S3072x1024_S512x3072_1_1_0_0_n_n.lhsIdx i q 0).val = (i 0).val := by
  unfold DotDims.lhsIdx
  rw [dif_neg (show ¬(0 : Fin S512x1024.rank) ∈ dot_S512x1024_S3072x1024_S512x3072_1_1_0_0_n_n.lhsBatch by decide), dif_pos (show (0 : Fin S512x1024.rank) ∈ dot_S512x1024_S3072x1024_S512x3072_1_1_0_0_n_n.lhsNonContracting by decide)]
  rfl
/-- … and at the contraction's coordinate; -/
theorem lhs_proj_1 (i : S512x3072.Idx) (q : dot_S512x1024_S3072x1024_S512x3072_1_1_0_0_n_n.contr.Idx) :
    (dot_S512x1024_S3072x1024_S512x3072_1_1_0_0_n_n.lhsIdx i q 1).val = (q ⟨0, by decide⟩).val :=
  dot_S512x1024_S3072x1024_S512x3072_1_1_0_0_n_n.lhsIdx_val_of_single rfl i q
/-- the right operand at the output's feature … -/
theorem rhs_proj_0 (i : S512x3072.Idx) (q : dot_S512x1024_S3072x1024_S512x3072_1_1_0_0_n_n.contr.Idx) :
    (dot_S512x1024_S3072x1024_S512x3072_1_1_0_0_n_n.rhsIdx i q 0).val = (i 1).val := by
  unfold DotDims.rhsIdx
  rw [dif_neg (show ¬(0 : Fin S3072x1024.rank) ∈ dot_S512x1024_S3072x1024_S512x3072_1_1_0_0_n_n.rhsBatch by decide), dif_pos (show (0 : Fin S3072x1024.rank) ∈ dot_S512x1024_S3072x1024_S512x3072_1_1_0_0_n_n.rhsNonContracting by decide)]
  rfl
/-- … and at the contraction's coordinate. -/
theorem rhs_proj_1 (i : S512x3072.Idx) (q : dot_S512x1024_S3072x1024_S512x3072_1_1_0_0_n_n.contr.Idx) :
    (dot_S512x1024_S3072x1024_S512x3072_1_1_0_0_n_n.rhsIdx i q 1).val = (q ⟨0, by decide⟩).val :=
  dot_S512x1024_S3072x1024_S512x3072_1_1_0_0_n_n.rhsIdx_val_of_single rfl i q

/-- The block product into the zero accumulator, at row p and feature q: the sum over the 1024 shared coordinates. -/
theorem proj_matmul_apply (a : FVec Ideal S512x1024 .bf16) (w : FVec Ideal S3072x1024 .bf16) (p : Fin 512) (q : Fin 3072) :
    matmul dot_S512x1024_S3072x1024_S512x3072_1_1_0_0_n_n none a w (constant (F := Ideal) S512x3072 .f32 0x00000000#32) (ix2 p q)
      = ∑ e : Fin 1024, a (ix2 p e) * w (ix2 q e) := by
  show FloatOps.matmul dot_S512x1024_S3072x1024_S512x3072_1_1_0_0_n_n none a w (constant S512x3072 .f32 0x00000000#32) (ix2 p q) = _
  rw [Ideal.matmul_constant_zero_apply, ← Equiv.sum_comp (contrEquiv1 dot_S512x1024_S3072x1024_S512x3072_1_1_0_0_n_n 1024 rfl rfl).symm]
  refine Finset.sum_congr rfl fun k _ => ?_
  have hk := contrEquiv1_symm_val dot_S512x1024_S3072x1024_S512x3072_1_1_0_0_n_n 1024 rfl rfl k
  have el : dot_S512x1024_S3072x1024_S512x3072_1_1_0_0_n_n.lhsIdx (ix2 p q) ((contrEquiv1 dot_S512x1024_S3072x1024_S512x3072_1_1_0_0_n_n 1024 rfl rfl).symm k) = ix2 p k := funext fun d => Fin.ext (by
    match d with
    | ⟨0, _⟩ => exact lhs_proj_0 _ _
    | ⟨1, _⟩ => exact (lhs_proj_1 _ _).trans hk)
  have er : dot_S512x1024_S3072x1024_S512x3072_1_1_0_0_n_n.rhsIdx (ix2 p q) ((contrEquiv1 dot_S512x1024_S3072x1024_S512x3072_1_1_0_0_n_n 1024 rfl rfl).symm k) = ix2 q k := funext fun d => Fin.ext (by
    match d with
    | ⟨0, _⟩ => exact rhs_proj_0 _ _
    | ⟨1, _⟩ => exact (rhs_proj_1 _ _).trans hk)
  rw [el, er]

/-- The bias row spread over the block's rows, at row p and feature q: the bias at feature q. -/
theorem bias_spread_apply (b : FVec Ideal S1x3072 .f32) (p : Fin 512) (q : Fin 3072) :
    broadcastTo S512x3072 b broadcasts_S1x3072_S512x3072 (ix2 p q) = b (ix2 0 q) := by
  refine broadcastTo_apply b broadcasts_S1x3072_S512x3072 (ix2 p q) (ix2 0 q) (fun a => ?_)
  match a with
  | ⟨0, _⟩ => rfl
  | ⟨1, _⟩ => rfl

/-- The payload at row p and feature q of a block: the row of x against the row of w, plus the bias at q. -/
theorem pay0_apply (x : Vec Ideal S512x1024 .f32) (w : Vec Ideal S3072x1024 .bf16) (b : Vec Ideal S1x3072 .f32) (p : Fin 512) (q : Fin 3072) :
    k0_pay1 (F := Ideal) x w b (ix2 p q) = (∑ e : Fin 1024, x (ix2 p e) * w (ix2 q e)) + b (ix2 0 q) := by
  unfold k0_pay1
  rw [shapeCast_self, shapeCast_self, shapeCast_self]
  refine (truncf_apply (ψ := .bf16) _ bitsLt_bf16_f32 (ix2 p q)).trans ?_
  refine (addf_apply _ _ (ix2 p q)).trans ?_
  rw [proj_matmul_apply, bias_spread_apply]
  rfl

theorem hz0 : (![0, 0] : Fin 2 → Nat) = fun _ => 0 := funext fun a => by fin_cases a <;> rfl

/-- What the body leaves in the result's buffer, at row p and feature q. -/
theorem out0_apply (x : Vec Ideal S512x1024 .f32) (w : Vec Ideal S3072x1024 .bf16) (b : Vec Ideal S1x3072 .f32) (p : Fin 512) (q : Fin 3072) :
    out0 (F := Ideal) x w b (ix2 p q) = (∑ e : Fin 1024, x (ix2 p e) * w (ix2 q e)) + b (ix2 0 q) := by
  unfold out0
  rw [View.canon_unit_zero hz0]
  simp only [View.ld_unit_zero (S := S512x1024) hz0, View.ld_unit_zero (S := S3072x1024) hz0, View.ld_unit_zero (S := S1x3072) hz0]
  exact pay0_apply x w b p q

/-! ## From blocks to the array -/

/-- The projection of whole arrays, entry by entry: row i of x against row f of w, plus the bias at f. -/
def proj (x : S8192x1024.Idx → EReal) (w : S3072x1024.Idx → EReal) (b : S1x3072.Idx → EReal) : S8192x3072.Idx → EReal :=
  fun j => (∑ e : Fin 1024, x (ix2 (⟨(j 0).val, idx2_lt0 j⟩ : Fin 8192) e) * w (ix2 (⟨(j 1).val, idx2_lt1 j⟩ : Fin 3072) e))
    + b (ix2 (0 : Fin 1) (⟨(j 1).val, idx2_lt1 j⟩ : Fin 3072))

/-- The three input blocks at a point, at their literal types. -/
abbrev xblk (c : Dev nD) (t : Fin cfg0.N) : Vec Ideal S512x1024 .f32 := blk0 (F := Ideal) V c 0 t
abbrev wblk (c : Dev nD) (t : Fin cfg0.N) : Vec Ideal S3072x1024 .bf16 := blk0 (F := Ideal) V c 1 t
abbrev bblk (c : Dev nD) (t : Fin cfg0.N) : Vec Ideal S1x3072 .f32 := blk0 (F := Ideal) V c 2 t

/-- The printed index maps over the sixteen points: the x block and the result block sit at block row t, the weight
    and the bias are whole. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The x block at point t is rows 512·t … 512·t + 511 of x. -/
theorem xblk_apply (c : Dev nD) (t : Fin cfg0.N) (p : Fin 512) (e : Fin 1024) (r : Fin 8192) (hr : r.val = t.val * 512 + p.val) :
    xblk V c t (ix2 p e) = inX V c (ix2 r e) := by
  obtain ⟨e0, e1, -⟩ := idx_facts0 t
  show V c main_v0 (((cfg0.win 0).blk t).view.emb (ix2 p e)) = V c main_v0 (ix2 r e)
  refine congrArg (V c main_v0) (funext fun a => Fin.ext ?_)
  match a with
  | ⟨0, _⟩ => show win0_0.index t (0 : Fin 2) * 512 + 1 * p.val = r.val; omega
  | ⟨1, _⟩ => show win0_0.index t (1 : Fin 2) * 1024 + 1 * e.val = e.val; omega

/-- The weight's block is the whole weight at every point. -/
theorem wblk_apply (c : Dev nD) (t : Fin cfg0.N) (q : Fin 3072) (e : Fin 1024) :
    wblk V c t (ix2 q e) = inW V c (ix2 q e) := by
  obtain ⟨-, -, e0, e1, -⟩ := idx_facts0 t
  show V c main_v1 (((cfg0.win 1).blk t).view.emb (ix2 q e)) = V c main_v1 (ix2 q e)
  refine congrArg (V c main_v1) (funext fun a => Fin.ext ?_)
  match a with
  | ⟨0, _⟩ => show win0_1.index t (0 : Fin 2) * 3072 + 1 * q.val = q.val; omega
  | ⟨1, _⟩ => show win0_1.index t (1 : Fin 2) * 1024 + 1 * e.val = e.val; omega

/-- The bias's block is the whole bias at every point. -/
theorem bblk_apply (c : Dev nD) (t : Fin cfg0.N) (z : Fin 1) (q : Fin 3072) :
    bblk V c t (ix2 z q) = inB V c (ix2 z q) := by
  obtain ⟨-, -, -, -, e0, e1, -⟩ := idx_facts0 t
  show V c main_v2 (((cfg0.win 2).blk t).view.emb (ix2 z q)) = V c main_v2 (ix2 z q)
  refine congrArg (V c main_v2) (funext fun a => Fin.ext ?_)
  match a with
  | ⟨0, _⟩ => show win0_2.index t (0 : Fin 2) * 1 + 1 * z.val = z.val; omega
  | ⟨1, _⟩ => show win0_2.index t (1 : Fin 2) * 3072 + 1 * q.val = q.val; omega

/-- What point t writes back is block t of the projection of the three input arrays as the region finds them. -/
theorem flushed0_eq (c : Dev nD) (t : Fin cfg0.N) :
    (dat0 (F := Ideal) V c).flushed 3 t = ((cfg0.win 3).blk t).view.read (Elt Ideal) (proj (inX V c) (inW V c) (inB V c)) := by
  show (cfg0.win 3).cut (grid0.coords t) ((dat0 (F := Ideal) V c).after 3 t) = _
  rw [after0_3]
  obtain ⟨-, -, -, -, -, -, e0, e1⟩ := idx_facts0 t
  funext j
  have hx : (cfg0.win 3).xinj (grid0.coords t) j = ix2 (⟨(j 0).val, (j 0).isLt⟩ : Fin 512) (⟨(j 1).val, (j 1).isLt⟩ : Fin 3072) :=
    funext fun a => match a with | ⟨0, _⟩ => rfl | ⟨1, _⟩ => rfl
  show out0 (xblk V c t) (wblk V c t) (bblk V c t) ((cfg0.win 3).xinj (grid0.coords t) j) = proj (inX V c) (inW V c) (inB V c) (((cfg0.win 3).blk t).view.emb j)
  rw [hx, out0_apply]
  have hr : ((((cfg0.win 3).blk t).view.emb j) 0).val = t.val * 512 + (j 0).val := by
    show win0_3.index t (0 : Fin 2) * 512 + 1 * (j 0).val = _
    omega
  have hq : (⟨((((cfg0.win 3).blk t).view.emb j) 1).val, idx2_lt1 (((cfg0.win 3).blk t).view.emb j)⟩ : Fin 3072) = ⟨(j 1).val, (j 1).isLt⟩ := by
    apply Fin.ext
    show win0_3.index t (1 : Fin 2) * 3072 + 1 * (j 1).val = (j 1).val
    omega
  unfold proj
  rw [hq]
  refine congrArg₂ (· + ·) (Finset.sum_congr rfl fun e _ => congrArg₂ (· * ·) ?_ ?_) ?_
  · exact xblk_apply V c t ⟨(j 0).val, (j 0).isLt⟩ e ⟨((((cfg0.win 3).blk t).view.emb j) 0).val, idx2_lt0 (((cfg0.win 3).blk t).view.emb j)⟩ hr
  · exact wblk_apply V c t ⟨(j 1).val, (j 1).isLt⟩ e
  · exact bblk_apply V c t 0 ⟨(j 1).val, (j 1).isLt⟩

/-- An index of the result array is in point t's block iff each coordinate is in the block's range on its axis. -/
theorem mem_blk0 (t : Fin cfg0.N) (i : S8192x3072.Idx) :
    i ∈ ((cfg0.win 3).blk t).view.set ↔ ∀ a : Fin 2, win0_3.index t a * S512x3072.size a ≤ (i a).val ∧ (i a).val < win0_3.index t a * S512x3072.size a + S512x3072.size a := by
  show i ∈ ((View.whole main_v3).slice (win0_3.rect t)).set ↔ _
  rw [View.set_slice_whole, Rect.mem_set_unit]
  exact Iff.rfl

/-- Row r of the result array is written back by point r / 512. -/
theorem covered0 (i : S8192x3072.Idx) : ∃ t : Fin cfg0.N, (cfg0.win 3).flush t = true ∧ i ∈ ((cfg0.win 3).blk t).view.set := by
  have hi0 : (i 0).val < 8192 := (i 0).isLt
  have hi1 : (i 1).val < 3072 := (i 1).isLt
  have hN : cfg0.N = 16 := by decide
  have ht : (i 0).val / 512 < cfg0.N := by rw [hN]; omega
  obtain ⟨-, -, -, -, -, -, e0, e1⟩ := idx_facts0 ⟨(i 0).val / 512, ht⟩
  refine ⟨⟨(i 0).val / 512, ht⟩, flush0_3 _, ?_⟩
  rw [mem_blk0]
  intro a
  match a with
  | ⟨0, _⟩ =>
    show win0_3.index ⟨(i 0).val / 512, ht⟩ (0 : Fin 2) * 512 ≤ (i 0).val ∧ (i 0).val < win0_3.index ⟨(i 0).val / 512, ht⟩ (0 : Fin 2) * 512 + 512
    rw [e0]
    show (i 0).val / 512 * 512 ≤ (i 0).val ∧ (i 0).val < (i 0).val / 512 * 512 + 512
    omega
  | ⟨1, _⟩ =>
    show win0_3.index ⟨(i 0).val / 512, ht⟩ (1 : Fin 2) * 3072 ≤ (i 1).val ∧ (i 1).val < win0_3.index ⟨(i 0).val / 512, ht⟩ (1 : Fin 2) * 3072 + 3072
    rw [e1]
    omega

/-- The result array after the region: the projection of the three input arrays as entered. -/
theorem res0_eq (c : Dev nD) : outP V c = proj (inX V c) (inW V c) (inB V c) :=
  (dat0 (F := Ideal) V c).arrAt_eq_of_cover 3 (proj (inX V c) (inW V c) (inB V c)) (fun t _ => flushed0_eq V c t) covered0

/-- After the sixteen write-backs the result array holds the projection of the region's three input arrays. -/
theorem res0_apply (c : Dev nD) (i : Fin 8192) (f : Fin 3072) :
    outP V c (ix2 i f) = (∑ e : Fin 1024, inX V c (ix2 i e) * inW V c (ix2 f e)) + inB V c (ix2 0 f) := by
  rw [res0_eq]
  rfl

end Cert.KernelIdeal.Hand

end
-- ==== Proof.Spec.lean ====
/-
  The mathematics of the certificate, free of any program: multi-head attention with an output projection,
  written over extended reals and plain coordinates.

  For inputs x : [4, 2048, 1024], wq : [3072, 1024], bq : [3072], wo : [1024, 1024], bo : [1024]:
    qkv b s f   = Σ_e x b s e · wq f e + bq f                       (the fused q/k/v projection)
    column c of the model dimension belongs to head c / 64; its query columns are (c/64)·64 + d, its key
    columns 1024 + (c/64)·64 + d (d < 64), its value column 2048 + c
    score       = Σ_d q_d · k_d scaled by 1/√64 — the kernel scales each q_d before the product, the
                  reference scales the finished sum: `scoreK` and `scoreR`
    soft s j    = exp (s j − max s) / Σ_k exp (s k − max s)          (a row's softmax weights)
    ctx b i c   = Σ_j soft (score b i · c) j · v b j c
    out b i f   = Σ_e ctx b i e · wo f e + bo f
-/
import Idealize.ShloMosaic.PureOps.Ideal

noncomputable section

namespace Cert.Spec

open Idealize.ShloMosaic

/-- The projection `x·wᵀ + b` at batch `b`, position `s`, feature `f`. -/
def qkv (x : Fin 4 → Fin 2048 → Fin 1024 → EReal) (wq : Fin 3072 → Fin 1024 → EReal) (bq : Fin 3072 → EReal)
    (b : Fin 4) (s : Fin 2048) (f : Fin 3072) : EReal :=
  (∑ e : Fin 1024, x b s e * wq f e) + bq f

/-- Column `c`'s head reads query feature `(c / 64)·64 + d`, -/
def qcol (c : Fin 1024) (d : Fin 64) : Fin 3072 := ⟨c.val / 64 * 64 + d.val, by have := c.isLt; have := d.isLt; omega⟩
/-- key feature `1024 + (c / 64)·64 + d`, -/
def kcol (c : Fin 1024) (d : Fin 64) : Fin 3072 := ⟨1024 + c.val / 64 * 64 + d.val, by have := c.isLt; have := d.isLt; omega⟩
/-- and value feature `2048 + c`. -/
def vcol (c : Fin 1024) : Fin 3072 := ⟨2048 + c.val, by have := c.isLt; omega⟩

/-- Column `c`'s head, within a 1024-column block: column `(c / 64)·64 + d`. -/
def hcol (c : Fin 1024) (d : Fin 64) : Fin 1024 := ⟨c.val / 64 * 64 + d.val, by have := c.isLt; have := d.isLt; omega⟩

/-- A row's largest entry, from the bottom element. -/
def rowMax {n : ℕ} (s : Fin n → EReal) : EReal := (Finset.univ : Finset (Fin n)).fold max ⊥ s

/-- Entry `j`'s softmax weight in a row of scores. -/
def soft {n : ℕ} (s : Fin n → EReal) (j : Fin n) : EReal :=
  Ideal.div (Ideal.exp (s j - rowMax s)) (∑ k : Fin n, Ideal.exp (s k - rowMax s))

/-- A query row's attention output against values `v`, given its scores. -/
def attend {n : ℕ} (s : Fin n → EReal) (v : Fin n → EReal) : EReal := ∑ j : Fin n, soft s j * v j

/-- The score with the scale `κ` folded into the query (the kernel's order of operations). -/
def scoreK (p : Fin 4 → Fin 2048 → Fin 3072 → EReal) (κ : EReal) (b : Fin 4) (i : Fin 2048) (c : Fin 1024) (j : Fin 2048) : EReal :=
  ∑ d : Fin 64, (p b i (qcol c d) * κ) * p b j (kcol c d)

/-- The score scaled after the sum (the reference's order of operations). -/
def scoreR (p : Fin 4 → Fin 2048 → Fin 3072 → EReal) (κ : EReal) (b : Fin 4) (i : Fin 2048) (c : Fin 1024) (j : Fin 2048) : EReal :=
  (∑ d : Fin 64, p b i (qcol c d) * p b j (kcol c d)) * κ

/-- The context column `c` of query row `(b, i)` from a score function. -/
def ctx (score : Fin 4 → Fin 2048 → Fin 1024 → Fin 2048 → EReal) (p : Fin 4 → Fin 2048 → Fin 3072 → EReal)
    (b : Fin 4) (i : Fin 2048) (c : Fin 1024) : EReal :=
  attend (score b i c) (fun j => p b j (vcol c))

/-- The output projection of the context. -/
def out (score : Fin 4 → Fin 2048 → Fin 1024 → Fin 2048 → EReal) (p : Fin 4 → Fin 2048 → Fin 3072 → EReal)
    (wo : Fin 1024 → Fin 1024 → EReal) (bo : Fin 1024 → EReal) (b : Fin 4) (i : Fin 2048) (f : Fin 1024) : EReal :=
  (∑ e : Fin 1024, ctx score p b i e * wo f e) + bo f

/-- One query row against one batch's keys and values, as the kernel's body sees them — `q` the row's 1024 query
    columns, `k` and `v` the batch's 2048 × 1024 key and value blocks —: the score of column `c`'s head against key row `j`, -/
def rowScoreK (q : Fin 1024 → EReal) (k : Fin 2048 → Fin 1024 → EReal) (κ : EReal) (c : Fin 1024) (j : Fin 2048) : EReal :=
  ∑ d : Fin 64, (q (hcol c d) * κ) * k j (hcol c d)

/-- and the row's projected output at feature `f`. -/
def rowOutK (q : Fin 1024 → EReal) (k v : Fin 2048 → Fin 1024 → EReal) (κ : EReal)
    (wo : Fin 1024 → Fin 1024 → EReal) (bo : Fin 1024 → EReal) (f : Fin 1024) : EReal :=
  (∑ e : Fin 1024, attend (rowScoreK q k κ e) (fun j => v j e) * wo f e) + bo f

/-- What the kernel computes, `κ` its folded scale. -/
def outK (p : Fin 4 → Fin 2048 → Fin 3072 → EReal) (κ : EReal) (wo : Fin 1024 → Fin 1024 → EReal) (bo : Fin 1024 → EReal) :
    Fin 4 → Fin 2048 → Fin 1024 → EReal := out (scoreK p κ) p wo bo

/-- What the reference computes, `κ` its scale. -/
def outR (p : Fin 4 → Fin 2048 → Fin 3072 → EReal) (κ : EReal) (wo : Fin 1024 → Fin 1024 → EReal) (bo : Fin 1024 → EReal) :
    Fin 4 → Fin 2048 → Fin 1024 → EReal := out (scoreR p κ) p wo bo

end Cert.Spec

end
-- ==== Proof.KI.Out1Val.lean ====
/-
  What the attention body's result block holds, read at the ideal values at row r and feature f: the projected
  attention output of query row r against the block's keys and values.
-/
import proofs.«409074_j27238682591490_3_alg».proof.Proof.KI.Body1
import proofs.«409074_j27238682591490_3_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

/-! ## The three contractions' operand indices -/

theorem lhs_qk_0 (i : S256x2048.Idx) (q : dot_S256x64_S2048x64_S256x2048_1_1_0_0_n_n.contr.Idx) :
    (dot_S256x64_S2048x64_S256x2048_1_1_0_0_n_n.lhsIdx i q 0).val = (i 0).val := by
  unfold DotDims.lhsIdx
  rw [dif_neg (show ¬(0 : Fin S256x64.rank) ∈ dot_S256x64_S2048x64_S256x2048_1_1_0_0_n_n.lhsBatch by decide), dif_pos (show (0 : Fin S256x64.rank) ∈ dot_S256x64_S2048x64_S256x2048_1_1_0_0_n_n.lhsNonContracting by decide)]
  rfl
theorem lhs_qk_1 (i : S256x2048.Idx) (q : dot_S256x64_S2048x64_S256x2048_1_1_0_0_n_n.contr.Idx) :
    (dot_S256x64_S2048x64_S256x2048_1_1_0_0_n_n.lhsIdx i q 1).val = (q ⟨0, by decide⟩).val :=
  dot_S256x64_S2048x64_S256x2048_1_1_0_0_n_n.lhsIdx_val_of_single rfl i q
theorem rhs_qk_0 (i : S256x2048.Idx) (q : dot_S256x64_S2048x64_S256x2048_1_1_0_0_n_n.contr.Idx) :
    (dot_S256x64_S2048x64_S256x2048_1_1_0_0_n_n.rhsIdx i q 0).val = (i 1).val := by
  unfold DotDims.rhsIdx
  rw [dif_neg (show ¬(0 : Fin S2048x64.rank) ∈ dot_S256x64_S2048x64_S256x2048_1_1_0_0_n_n.rhsBatch by decide), dif_pos (show (0 : Fin S2048x64.rank) ∈ dot_S256x64_S2048x64_S256x2048_1_1_0_0_n_n.rhsNonContracting by decide)]
  rfl
theorem rhs_qk_1 (i : S256x2048.Idx) (q : dot_S256x64_S2048x64_S256x2048_1_1_0_0_n_n.contr.Idx) :
    (dot_S256x64_S2048x64_S256x2048_1_1_0_0_n_n.rhsIdx i q 1).val = (q ⟨0, by decide⟩).val :=
  dot_S256x64_S2048x64_S256x2048_1_1_0_0_n_n.rhsIdx_val_of_single rfl i q

/-- The query-key contraction into a zero accumulator, at row `r` and key `j`: the sum over the 64 head columns. -/
theorem matmul_qk_apply (a : FVec Ideal S256x64 .bf16) (b : FVec Ideal S2048x64 .bf16) (r : Fin 256) (j : Fin 2048) :
    matmul dot_S256x64_S2048x64_S256x2048_1_1_0_0_n_n none a b (constant (F := Ideal) S256x2048 .f32 0x00000000#32) (ix2 r j)
      = ∑ d : Fin 64, a (ix2 r d) * b (ix2 j d) := by
  refine (Ideal.matmul_constant_zero_apply dot_S256x64_S2048x64_S256x2048_1_1_0_0_n_n none a b (ix2 r j)).trans ?_
  rw [← Equiv.sum_comp (ValueIdx.contrEquiv1 dot_S256x64_S2048x64_S256x2048_1_1_0_0_n_n 64 rfl rfl).symm]
  refine Finset.sum_congr rfl fun k _ => ?_
  have hk := ValueIdx.contrEquiv1_symm_val dot_S256x64_S2048x64_S256x2048_1_1_0_0_n_n 64 rfl rfl k
  have el : dot_S256x64_S2048x64_S256x2048_1_1_0_0_n_n.lhsIdx (ix2 r j) ((ValueIdx.contrEquiv1 dot_S256x64_S2048x64_S256x2048_1_1_0_0_n_n 64 rfl rfl).symm k) = ix2 r k := funext fun a => Fin.ext (by
    match a with
    | ⟨0, _⟩ => exact lhs_qk_0 _ _
    | ⟨1, _⟩ => exact (lhs_qk_1 _ _).trans hk)
  have er : dot_S256x64_S2048x64_S256x2048_1_1_0_0_n_n.rhsIdx (ix2 r j) ((ValueIdx.contrEquiv1 dot_S256x64_S2048x64_S256x2048_1_1_0_0_n_n 64 rfl rfl).symm k) = ix2 j k := funext fun a => Fin.ext (by
    match a with
    | ⟨0, _⟩ => exact rhs_qk_0 _ _
    | ⟨1, _⟩ => exact (rhs_qk_1 _ _).trans hk)
  rw [el, er]

theorem lhs_pv_0 (i : S256x64.Idx) (q : dot_S256x2048_S2048x64_S256x64_1_0_0_1_n_n.contr.Idx) :
    (dot_S256x2048_S2048x64_S256x64_1_0_0_1_n_n.lhsIdx i q 0).val = (i 0).val := by
  unfold DotDims.lhsIdx
  rw [dif_neg (show ¬(0 : Fin S256x2048.rank) ∈ dot_S256x2048_S2048x64_S256x64_1_0_0_1_n_n.lhsBatch by decide), dif_pos (show (0 : Fin S256x2048.rank) ∈ dot_S256x2048_S2048x64_S256x64_1_0_0_1_n_n.lhsNonContracting by decide)]
  rfl
theorem lhs_pv_1 (i : S256x64.Idx) (q : dot_S256x2048_S2048x64_S256x64_1_0_0_1_n_n.contr.Idx) :
    (dot_S256x2048_S2048x64_S256x64_1_0_0_1_n_n.lhsIdx i q 1).val = (q ⟨0, by decide⟩).val :=
  dot_S256x2048_S2048x64_S256x64_1_0_0_1_n_n.lhsIdx_val_of_single rfl i q
theorem rhs_pv_0 (i : S256x64.Idx) (q : dot_S256x2048_S2048x64_S256x64_1_0_0_1_n_n.contr.Idx) :
    (dot_S256x2048_S2048x64_S256x64_1_0_0_1_n_n.rhsIdx i q 0).val = (q ⟨0, by decide⟩).val :=
  dot_S256x2048_S2048x64_S256x64_1_0_0_1_n_n.rhsIdx_val_of_single rfl i q
theorem rhs_pv_1 (i : S256x64.Idx) (q : dot_S256x2048_S2048x64_S256x64_1_0_0_1_n_n.contr.Idx) :
    (dot_S256x2048_S2048x64_S256x64_1_0_0_1_n_n.rhsIdx i q 1).val = (i 1).val := by
  unfold DotDims.rhsIdx
  rw [dif_neg (show ¬(1 : Fin S2048x64.rank) ∈ dot_S256x2048_S2048x64_S256x64_1_0_0_1_n_n.rhsBatch by decide), dif_pos (show (1 : Fin S2048x64.rank) ∈ dot_S256x2048_S2048x64_S256x64_1_0_0_1_n_n.rhsNonContracting by decide)]
  rfl

/-- The weights-values contraction into a zero accumulator, at row `r` and head column `d`: the sum over the 2048 keys. -/
theorem matmul_pv_apply (a : FVec Ideal S256x2048 .bf16) (b : FVec Ideal S2048x64 .bf16) (r : Fin 256) (d : Fin 64) :
    matmul dot_S256x2048_S2048x64_S256x64_1_0_0_1_n_n none a b (constant (F := Ideal) S256x64 .f32 0x00000000#32) (ix2 r d)
      = ∑ j : Fin 2048, a (ix2 r j) * b (ix2 j d) := by
  refine (Ideal.matmul_constant_zero_apply dot_S256x2048_S2048x64_S256x64_1_0_0_1_n_n none a b (ix2 r d)).trans ?_
  rw [← Equiv.sum_comp (ValueIdx.contrEquiv1 dot_S256x2048_S2048x64_S256x64_1_0_0_1_n_n 2048 rfl rfl).symm]
  refine Finset.sum_congr rfl fun k _ => ?_
  have hk := ValueIdx.contrEquiv1_symm_val dot_S256x2048_S2048x64_S256x64_1_0_0_1_n_n 2048 rfl rfl k
  have el : dot_S256x2048_S2048x64_S256x64_1_0_0_1_n_n.lhsIdx (ix2 r d) ((ValueIdx.contrEquiv1 dot_S256x2048_S2048x64_S256x64_1_0_0_1_n_n 2048 rfl rfl).symm k) = ix2 r k := funext fun a => Fin.ext (by
    match a with
    | ⟨0, _⟩ => exact lhs_pv_0 _ _
    | ⟨1, _⟩ => exact (lhs_pv_1 _ _).trans hk)
  have er : dot_S256x2048_S2048x64_S256x64_1_0_0_1_n_n.rhsIdx (ix2 r d) ((ValueIdx.contrEquiv1 dot_S256x2048_S2048x64_S256x64_1_0_0_1_n_n 2048 rfl rfl).symm k) = ix2 k d := funext fun a => Fin.ext (by
    match a with
    | ⟨0, _⟩ => exact (rhs_pv_0 _ _).trans hk
    | ⟨1, _⟩ => exact rhs_pv_1 _ _)
  rw [el, er]

theorem lhs_wo_0 (i : S256x1024.Idx) (q : dot_S256x1024_S1024x1024_S256x1024_1_1_0_0_n_n.contr.Idx) :
    (dot_S256x1024_S1024x1024_S256x1024_1_1_0_0_n_n.lhsIdx i q 0).val = (i 0).val := by
  unfold DotDims.lhsIdx
  rw [dif_neg (show ¬(0 : Fin S256x1024.rank) ∈ dot_S256x1024_S1024x1024_S256x1024_1_1_0_0_n_n.lhsBatch by decide), dif_pos (show (0 : Fin S256x1024.rank) ∈ dot_S256x1024_S1024x1024_S256x1024_1_1_0_0_n_n.lhsNonContracting by decide)]
  rfl
theorem lhs_wo_1 (i : S256x1024.Idx) (q : dot_S256x1024_S1024x1024_S256x1024_1_1_0_0_n_n.contr.Idx) :
    (dot_S256x1024_S1024x1024_S256x1024_1_1_0_0_n_n.lhsIdx i q 1).val = (q ⟨0, by decide⟩).val :=
  dot_S256x1024_S1024x1024_S256x1024_1_1_0_0_n_n.lhsIdx_val_of_single rfl i q
theorem rhs_wo_0 (i : S256x1024.Idx) (q : dot_S256x1024_S1024x1024_S256x1024_1_1_0_0_n_n.contr.Idx) :
    (dot_S256x1024_S1024x1024_S256x1024_1_1_0_0_n_n.rhsIdx i q 0).val = (i 1).val := by
  unfold DotDims.rhsIdx
  rw [dif_neg (show ¬(0 : Fin S1024x1024.rank) ∈ dot_S256x1024_S1024x1024_S256x1024_1_1_0_0_n_n.rhsBatch by decide), dif_pos (show (0 : Fin S1024x1024.rank) ∈ dot_S256x1024_S1024x1024_S256x1024_1_1_0_0_n_n.rhsNonContracting by decide)]
  rfl
theorem rhs_wo_1 (i : S256x1024.Idx) (q : dot_S256x1024_S1024x1024_S256x1024_1_1_0_0_n_n.contr.Idx) :
    (dot_S256x1024_S1024x1024_S256x1024_1_1_0_0_n_n.rhsIdx i q 1).val = (q ⟨0, by decide⟩).val :=
  dot_S256x1024_S1024x1024_S256x1024_1_1_0_0_n_n.rhsIdx_val_of_single rfl i q

/-- The output projection into a zero accumulator, at row `r` and feature `f`: the sum over the 1024 context columns. -/
theorem matmul_wo_apply (a : FVec Ideal S256x1024 .bf16) (b : FVec Ideal S1024x1024 .bf16) (r : Fin 256) (f : Fin 1024) :
    matmul dot_S256x1024_S1024x1024_S256x1024_1_1_0_0_n_n none a b (constant (F := Ideal) S256x1024 .f32 0x00000000#32) (ix2 r f)
      = ∑ e : Fin 1024, a (ix2 r e) * b (ix2 f e) := by
  refine (Ideal.matmul_constant_zero_apply dot_S256x1024_S1024x1024_S256x1024_1_1_0_0_n_n none a b (ix2 r f)).trans ?_
  rw [← Equiv.sum_comp (ValueIdx.contrEquiv1 dot_S256x1024_S1024x1024_S256x1024_1_1_0_0_n_n 1024 rfl rfl).symm]
  refine Finset.sum_congr rfl fun k _ => ?_
  have hk := ValueIdx.contrEquiv1_symm_val dot_S256x1024_S1024x1024_S256x1024_1_1_0_0_n_n 1024 rfl rfl k
  have el : dot_S256x1024_S1024x1024_S256x1024_1_1_0_0_n_n.lhsIdx (ix2 r f) ((ValueIdx.contrEquiv1 dot_S256x1024_S1024x1024_S256x1024_1_1_0_0_n_n 1024 rfl rfl).symm k) = ix2 r k := funext fun a => Fin.ext (by
    match a with
    | ⟨0, _⟩ => exact lhs_wo_0 _ _
    | ⟨1, _⟩ => exact (lhs_wo_1 _ _).trans hk)
  have er : dot_S256x1024_S1024x1024_S256x1024_1_1_0_0_n_n.rhsIdx (ix2 r f) ((ValueIdx.contrEquiv1 dot_S256x1024_S1024x1024_S256x1024_1_1_0_0_n_n 1024 rfl rfl).symm k) = ix2 f k := funext fun a => Fin.ext (by
    match a with
    | ⟨0, _⟩ => exact rhs_wo_0 _ _
    | ⟨1, _⟩ => exact (rhs_wo_1 _ _).trans hk)
  rw [el, er]

/-! ## The row reductions and the keepdims column forms -/

/-- The f32 word of minus infinity is the bottom element. -/
theorem ofBits_neg_inf_f32 : Ideal.ofBits .f32 0xFF800000#32 = ⊥ := by simp [Ideal.ofBits, Ideal.ieee]

/-- The index the lane reduction inserts at row `r`, lane `j`. -/
theorem lift_row (r : Fin 256) (j : Fin 2048) :
    reduces_S256x2048_S256.lift (ix1 r) j = ix2 r j := by
  funext a; refine Fin.ext ?_
  match a with
  | ⟨0, _⟩ => rfl
  | ⟨1, _⟩ => rfl

/-- The lane maximum from minus infinity, at row `r`: the row's largest entry. -/
theorem rowmax_apply (s : FVec Ideal S256x2048 .f32) (r : Fin 256) :
    multiReduction (F := Ideal) .maximumf [1] S256 s 0xFF800000#32 reduces_S256x2048_S256 (.inl rfl) rfl (ix1 r)
      = Cert.Spec.rowMax (fun j : Fin 2048 => s (ix2 r j)) := by
  refine (Ideal.multiReduction_maximumf_single s 0xFF800000#32 reduces_S256x2048_S256 (.inl rfl) rfl (ix1 r)).trans ?_
  unfold Cert.Spec.rowMax
  have e : (s ∘ reduces_S256x2048_S256.lift (ix1 r)) = fun j : Fin 2048 => s (ix2 r j) :=
    funext fun j => congrArg s (lift_row r j)
  rw [e]
  exact congrArg (fun b => (Finset.univ : Finset (Fin 2048)).fold max b fun j : Fin 2048 => s (ix2 r j)) ofBits_neg_inf_f32

/-- The lane sum from zero, at row `r`: the row's sum. -/
theorem rowsum_apply (s : FVec Ideal S256x2048 .f32) (r : Fin 256) :
    multiReduction (F := Ideal) .add [1] S256 s 0x00000000#32 reduces_S256x2048_S256 (.inl rfl) rfl (ix1 r)
      = ∑ j : Fin 2048, s (ix2 r j) := by
  refine (Ideal.multiReduction_add_single s 0x00000000#32 reduces_S256x2048_S256 (.inl rfl) rfl (ix1 r)).trans ?_
  exact Finset.sum_congr rfl fun j _ => congrArg s (lift_row r j)

/-- A per-row value kept as a column and broadcast along the lanes reads, at `(r, j)`, the row's value. -/
theorem keepdims_apply {α : Type} (x : S256.Idx → α) (r : Fin 256) (j : Fin 2048) :
    broadcastTo S256x2048 (shapeCast S256x1 x shapeCasts_S256_S256x1) broadcasts_S256x1_S256x2048 (ix2 r j) = x (ix1 r) := by
  refine (broadcastTo_apply _ broadcasts_S256x1_S256x2048 (ix2 r j) (ix2 r (0 : Fin 1)) fun a => ?_).trans ?_
  · match a with
    | ⟨0, _⟩ => rfl
    | ⟨1, _⟩ => rfl
  · refine shapeCast_apply x shapeCasts_S256_S256x1 (ix2 r (0 : Fin 1)) (ix1 r) ?_
    rw [Shape.rowMajor_val_two, Shape.rowMajor_val_one]
    show r.val = r.val * 1 + 0
    omega

/-! ## One head -/

/-- The scaled scores of one head: the query slice times 1/8, contracted with the key slice over the head's 64 columns. -/
def scoresV (q : FVec Ideal S1x256x64 .bf16) (k : FVec Ideal S1x2048x64 .bf16) : FVec Ideal S256x2048 .f32 :=
  matmul dot_S256x64_S2048x64_S256x2048_1_1_0_0_n_n none
    (mulf (shapeCast S256x64 q shapeCasts_S1x256x64_S256x64) (broadcast S256x64 (Scalar.ofBits (F := Ideal) .bf16 0x3E00#16)))
    (shapeCast S2048x64 k shapeCasts_S1x2048x64_S2048x64) (constant (F := Ideal) S256x2048 .f32 0x00000000#32)

theorem scoresV_apply (q : FVec Ideal S1x256x64 .bf16) (k : FVec Ideal S1x2048x64 .bf16) (r : Fin 256) (j : Fin 2048) :
    scoresV q k (ix2 r j)
      = ∑ d : Fin 64, (q (ix3 (0 : Fin 1) r d) * Ideal.ofBits .bf16 0x3E00#16) * k (ix3 (0 : Fin 1) j d) := by
  unfold scoresV
  refine (matmul_qk_apply _ _ r j).trans ?_
  refine Finset.sum_congr rfl fun d _ => ?_
  rw [mulf_apply, broadcast_apply, shapeCast_1ab_ab_apply, shapeCast_1ab_ab_apply]
  rfl

/-- The row softmax of a block of scores, as the kernel forms it: subtract the row maximum, exponentiate, divide by the row sum. -/
def softW (s : FVec Ideal S256x2048 .f32) : FVec Ideal S256x2048 .f32 :=
  divf
    (exp (subf s (broadcastTo S256x2048 (shapeCast S256x1
      (multiReduction (F := Ideal) .maximumf [1] S256 s 0xFF800000#32 reduces_S256x2048_S256 (.inl rfl) rfl) shapeCasts_S256_S256x1) broadcasts_S256x1_S256x2048)))
    (broadcastTo S256x2048 (shapeCast S256x1
      (multiReduction (F := Ideal) .add [1] S256
        (exp (subf s (broadcastTo S256x2048 (shapeCast S256x1
          (multiReduction (F := Ideal) .maximumf [1] S256 s 0xFF800000#32 reduces_S256x2048_S256 (.inl rfl) rfl) shapeCasts_S256_S256x1) broadcasts_S256x1_S256x2048)))
        0x00000000#32 reduces_S256x2048_S256 (.inl rfl) rfl) shapeCasts_S256_S256x1) broadcasts_S256x1_S256x2048)

/-- The exponentials of a row's entries less the row's maximum. -/
theorem expSub_apply (s : FVec Ideal S256x2048 .f32) (r : Fin 256) (j : Fin 2048) :
    exp (subf s (broadcastTo S256x2048 (shapeCast S256x1
      (multiReduction (F := Ideal) .maximumf [1] S256 s 0xFF800000#32 reduces_S256x2048_S256 (.inl rfl) rfl) shapeCasts_S256_S256x1) broadcasts_S256x1_S256x2048)) (ix2 r j)
      = Ideal.exp (s (ix2 r j) - Cert.Spec.rowMax (fun j : Fin 2048 => s (ix2 r j))) := by
  show Ideal.exp (s (ix2 r j) - broadcastTo S256x2048 (shapeCast S256x1
      (multiReduction (F := Ideal) .maximumf [1] S256 s 0xFF800000#32 reduces_S256x2048_S256 (.inl rfl) rfl) shapeCasts_S256_S256x1) broadcasts_S256x1_S256x2048 (ix2 r j)) = _
  rw [keepdims_apply, rowmax_apply]

theorem softW_apply (s : FVec Ideal S256x2048 .f32) (r : Fin 256) (j : Fin 2048) :
    softW s (ix2 r j) = Cert.Spec.soft (fun j : Fin 2048 => s (ix2 r j)) j := by
  unfold softW Cert.Spec.soft
  rw [divf_apply, expSub_apply, keepdims_apply, rowsum_apply]
  exact congrArg (Ideal.div _) (Finset.sum_congr rfl fun k _ => expSub_apply s r k)

theorem k1_pay2_eq (q : FVec Ideal S1x256x64 .bf16) (k v : FVec Ideal S1x2048x64 .bf16) :
    k1_pay2 (F := Ideal) q k v
      = shapeCast S256x64 (truncf .bf16 (matmul dot_S256x2048_S2048x64_S256x64_1_0_0_1_n_n none
          (truncf .bf16 (softW (scoresV q k)) bitsLt_bf16_f32) (shapeCast S2048x64 v shapeCasts_S1x2048x64_S2048x64)
          (constant (F := Ideal) S256x64 .f32 0x00000000#32)) bitsLt_bf16_f32) shapeCasts_S256x64_S256x64 := rfl

/-- One head's context at row `r`, head column `d`: the attention of the row's scaled scores against the value slice's column. -/
theorem headOut_apply (q : FVec Ideal S1x256x64 .bf16) (k v : FVec Ideal S1x2048x64 .bf16) (r : Fin 256) (d : Fin 64) :
    headOut (F := Ideal) q k v (ix2 r d)
      = Cert.Spec.attend
          (fun j : Fin 2048 => ∑ d' : Fin 64, (q (ix3 (0 : Fin 1) r d') * Ideal.ofBits .bf16 0x3E00#16) * k (ix3 (0 : Fin 1) j d'))
          (fun j : Fin 2048 => v (ix3 (0 : Fin 1) j d)) := by
  show k1_pay2 (F := Ideal) q k v (ix2 r d) = _
  rw [k1_pay2_eq, shapeCast_self]
  refine (matmul_pv_apply _ _ r d).trans ?_
  unfold Cert.Spec.attend
  refine Finset.sum_congr rfl fun j _ => ?_
  rw [shapeCast_1ab_ab_apply]
  show softW (scoresV q k) (ix2 r j) * _ = _
  rw [softW_apply]
  have e : (fun j : Fin 2048 => scoresV q k (ix2 r j))
      = fun j : Fin 2048 => ∑ d' : Fin 64, (q (ix3 (0 : Fin 1) r d') * Ideal.ofBits .bf16 0x3E00#16) * k (ix3 (0 : Fin 1) j d') :=
    funext fun j => scoresV_apply q k r j
  rw [e]

/-! ## The scratch, read back -/

/-- What the scratch holds at `(r, e)`: the attention of query row `r` in column `e`'s head, against value column `e`. -/
def ctxAt (xq : Vec Ideal S1x256x1024 .bf16) (xk xv : Vec Ideal S1x2048x1024 .bf16) (y : S256x1024.Idx) : EReal :=
  Cert.Spec.attend
    (Cert.Spec.rowScoreK (fun c : Fin 1024 => xq (ix3 (0 : Fin 1) (⟨(y 0).val, idx2_lt0 y⟩ : Fin 256) c))
      (fun (j : Fin 2048) (c : Fin 1024) => xk (ix3 (0 : Fin 1) j c)) (Ideal.ofBits .bf16 0x3E00#16) ⟨(y 1).val, idx2_lt1 y⟩)
    (fun j : Fin 2048 => xv (ix3 (0 : Fin 1) j (⟨(y 1).val, idx2_lt1 y⟩ : Fin 1024)))

/-- A 64-column slice of a `[1, n, 1024]` block from column `o` reads, at `(0, i, d)`, the block at `(0, i, o + d)`. -/
theorem ld_cols3 {Val : EltTy → Type} {e : EltTy} {n : Nat} (X : (⟨3, ![1, n, 1024]⟩ : Shape).Idx → Val e) (o : Nat)
    (inb : ∀ a, (![0, 0, o] : Fin 3 → Nat) a + (![1, n, 64] : Fin 3 → Nat) a ≤ (⟨3, ![1, n, 1024]⟩ : Shape).size a)
    (i : Fin n) (d : Fin 64) (c : Fin 1024) (hc : c.val = o + d.val) :
    View.ld X (Rect.unit (s := ⟨3, ![1, n, 1024]⟩) ![0, 0, o] ![1, n, 64] inb) (ix3 (0 : Fin 1) i d) = X (ix3 (0 : Fin 1) i c) := by
  refine congrArg X (funext fun a => Fin.ext ?_)
  show ((Rect.unit (s := ⟨3, ![1, n, 1024]⟩) ![0, 0, o] ![1, n, 64] inb).emb (ix3 (0 : Fin 1) i d) a).val = _
  rw [Rect.emb_apply]
  match a with
  | ⟨0, _⟩ => rfl
  | ⟨1, _⟩ => show 0 + 1 * i.val = i.val; omega
  | ⟨2, _⟩ => show o + 1 * d.val = c.val; omega

/-- Where a 64-column piece of the scratch from column `o` puts its `(r, d)`. -/
theorem emb_cols2 (o : Nat) (inb : ∀ a, (![0, o] : Fin 2 → Nat) a + (![256, 64] : Fin 2 → Nat) a ≤ S256x1024.size a)
    (r : Fin 256) (d : Fin 64) (c : Fin 1024) (hc : c.val = o + d.val) :
    (Rect.unit (s := S256x1024) ![0, o] ![256, 64] inb).emb (ix2 r d) = ix2 r c := by
  funext a; refine Fin.ext ?_
  rw [Rect.emb_apply]
  match a with
  | ⟨0, _⟩ => show 0 + 1 * r.val = r.val; omega
  | ⟨1, _⟩ => show o + 1 * d.val = c.val; omega

/-- Head `h`'s piece is the block of `ctxAt` its rectangle names. -/
theorem piece_eq (xq : Vec Ideal S1x256x1024 .bf16) (xk xv : Vec Ideal S1x2048x1024 .bf16) (o h : Nat) (ho : o = 64 * h) (hh : h < 16)
    (inbQ : ∀ a, (![0, 0, o] : Fin 3 → Nat) a + S1x256x64.size a ≤ S1x256x1024.size a)
    (inbK : ∀ a, (![0, 0, o] : Fin 3 → Nat) a + S1x2048x64.size a ≤ S1x2048x1024.size a)
    (inbS : ∀ a, (![0, o] : Fin 2 → Nat) a + S256x64.size a ≤ S256x1024.size a) (x : S256x64.Idx) :
    headOut (F := Ideal) (View.ld xq (Rect.unit (s := S1x256x1024) ![0, 0, o] S1x256x64.size inbQ))
        (View.ld xk (Rect.unit (s := S1x2048x1024) ![0, 0, o] S1x2048x64.size inbK))
        (View.ld xv (Rect.unit (s := S1x2048x1024) ![0, 0, o] S1x2048x64.size inbK)) x
      = ctxAt xq xk xv ((Rect.unit (s := S256x1024) ![0, o] S256x64.size inbS).emb x) := by
  obtain ⟨r, d, rfl⟩ : ∃ (r : Fin 256) (d : Fin 64), x = ix2 r d := ⟨x 0, x 1, eq_ix2 x⟩
  have hc : o + d.val < 1024 := by have := d.isLt; omega
  rw [headOut_apply, emb_cols2 o inbS r d ⟨o + d.val, hc⟩ rfl]
  unfold ctxAt Cert.Spec.rowScoreK
  have hcol : ∀ d' : Fin 64, (Cert.Spec.hcol ⟨o + d.val, hc⟩ d').val = o + d'.val := fun d' => by
    show (o + d.val) / 64 * 64 + d'.val = _
    have := d.isLt; omega
  have e1 : (fun j : Fin 2048 => ∑ d' : Fin 64,
        (View.ld xq (Rect.unit (s := S1x256x1024) ![0, 0, o] S1x256x64.size inbQ) (ix3 (0 : Fin 1) r d') * Ideal.ofBits .bf16 0x3E00#16)
          * View.ld xk (Rect.unit (s := S1x2048x1024) ![0, 0, o] S1x2048x64.size inbK) (ix3 (0 : Fin 1) j d'))
      = fun j : Fin 2048 => ∑ d' : Fin 64,
        (xq (ix3 (0 : Fin 1) r (Cert.Spec.hcol ⟨o + d.val, hc⟩ d')) * Ideal.ofBits .bf16 0x3E00#16)
          * xk (ix3 (0 : Fin 1) j (Cert.Spec.hcol ⟨o + d.val, hc⟩ d')) :=
    funext fun j => Finset.sum_congr rfl fun d' _ => by
      rw [ld_cols3 xq o inbQ r d' _ (hcol d'), ld_cols3 xk o inbK j d' _ (hcol d')]
  have e2 : (fun j : Fin 2048 => View.ld xv (Rect.unit (s := S1x2048x1024) ![0, 0, o] S1x2048x64.size inbK) (ix3 (0 : Fin 1) j d))
      = fun j : Fin 2048 => xv (ix3 (0 : Fin 1) j (⟨o + d.val, hc⟩ : Fin 1024)) :=
    funext fun j => ld_cols3 xv o inbK j d _ rfl
  rw [e1, e2]

/-- The scratch after the sixteen stores is `ctxAt` everywhere. -/
theorem ctx1_apply (xq : Vec Ideal S1x256x1024 .bf16) (xk xv : Vec Ideal S1x2048x1024 .bf16) (y : S256x1024.Idx) :
    ctx1 (F := Ideal) xq xk xv y = ctxAt xq xk xv y := by
  unfold ctx1
  refine View.canon_apply_of_pieces (Val := Elt Ideal) (S := S256x1024) (e := .bf16) (ctxAt xq xk xv) _ ?_ y (View.cover_of_tiledL (s := S256x1024) _ S256x64.size (by sl_kernel_rfl) y)
  intro p hp
  simp only [List.mem_cons, List.not_mem_nil, or_false] at hp
  rcases hp with rfl | rfl | rfl | rfl | rfl | rfl | rfl | rfl | rfl | rfl | rfl | rfl | rfl | rfl | rfl | rfl
  · exact fun x => piece_eq xq xk xv 960 15 rfl (by decide) inb_S1x256x1024_S1x256x64_0_0_960 inb_S1x2048x1024_S1x2048x64_0_0_960 inb_S256x1024_S256x64_0_960 x
  · exact fun x => piece_eq xq xk xv 896 14 rfl (by decide) inb_S1x256x1024_S1x256x64_0_0_896 inb_S1x2048x1024_S1x2048x64_0_0_896 inb_S256x1024_S256x64_0_896 x
  · exact fun x => piece_eq xq xk xv 832 13 rfl (by decide) inb_S1x256x1024_S1x256x64_0_0_832 inb_S1x2048x1024_S1x2048x64_0_0_832 inb_S256x1024_S256x64_0_832 x
  · exact fun x => piece_eq xq xk xv 768 12 rfl (by decide) inb_S1x256x1024_S1x256x64_0_0_768 inb_S1x2048x1024_S1x2048x64_0_0_768 inb_S256x1024_S256x64_0_768 x
  · exact fun x => piece_eq xq xk xv 704 11 rfl (by decide) inb_S1x256x1024_S1x256x64_0_0_704 inb_S1x2048x1024_S1x2048x64_0_0_704 inb_S256x1024_S256x64_0_704 x
  · exact fun x => piece_eq xq xk xv 640 10 rfl (by decide) inb_S1x256x1024_S1x256x64_0_0_640 inb_S1x2048x1024_S1x2048x64_0_0_640 inb_S256x1024_S256x64_0_640 x
  · exact fun x => piece_eq xq xk xv 576 9 rfl (by decide) inb_S1x256x1024_S1x256x64_0_0_576 inb_S1x2048x1024_S1x2048x64_0_0_576 inb_S256x1024_S256x64_0_576 x
  · exact fun x => piece_eq xq xk xv 512 8 rfl (by decide) inb_S1x256x1024_S1x256x64_0_0_512 inb_S1x2048x1024_S1x2048x64_0_0_512 inb_S256x1024_S256x64_0_512 x
  · exact fun x => piece_eq xq xk xv 448 7 rfl (by decide) inb_S1x256x1024_S1x256x64_0_0_448 inb_S1x2048x1024_S1x2048x64_0_0_448 inb_S256x1024_S256x64_0_448 x
  · exact fun x => piece_eq xq xk xv 384 6 rfl (by decide) inb_S1x256x1024_S1x256x64_0_0_384 inb_S1x2048x1024_S1x2048x64_0_0_384 inb_S256x1024_S256x64_0_384 x
  · exact fun x => piece_eq xq xk xv 320 5 rfl (by decide) inb_S1x256x1024_S1x256x64_0_0_320 inb_S1x2048x1024_S1x2048x64_0_0_320 inb_S256x1024_S256x64_0_320 x
  · exact fun x => piece_eq xq xk xv 256 4 rfl (by decide) inb_S1x256x1024_S1x256x64_0_0_256 inb_S1x2048x1024_S1x2048x64_0_0_256 inb_S256x1024_S256x64_0_256 x
  · exact fun x => piece_eq xq xk xv 192 3 rfl (by decide) inb_S1x256x1024_S1x256x64_0_0_192 inb_S1x2048x1024_S1x2048x64_0_0_192 inb_S256x1024_S256x64_0_192 x
  · exact fun x => piece_eq xq xk xv 128 2 rfl (by decide) inb_S1x256x1024_S1x256x64_0_0_128 inb_S1x2048x1024_S1x2048x64_0_0_128 inb_S256x1024_S256x64_0_128 x
  · exact fun x => piece_eq xq xk xv 64 1 rfl (by decide) inb_S1x256x1024_S1x256x64_0_0_64 inb_S1x2048x1024_S1x2048x64_0_0_64 inb_S256x1024_S256x64_0_64 x
  · exact fun x => piece_eq xq xk xv 0 0 rfl (by decide) inb_S1x256x1024_S1x256x64_0_0_0 inb_S1x2048x1024_S1x2048x64_0_0_0 inb_S256x1024_S256x64_0_0 x

/-! ## The projection -/

theorem k1_pay1_eq (c : FVec Ideal S256x1024 .bf16) (w : FVec Ideal S1024x1024 .bf16) (b : FVec Ideal S1x1024 .f32) :
    k1_pay1 (F := Ideal) c w b
      = shapeCast S1x256x1024 (addf
          (matmul dot_S256x1024_S1024x1024_S256x1024_1_1_0_0_n_n none c (shapeCast S1024x1024 w shapeCasts_S1024x1024_S1024x1024)
            (constant (F := Ideal) S256x1024 .f32 0x00000000#32))
          (broadcastTo S256x1024 (shapeCast S1x1024 b shapeCasts_S1x1024_S1x1024) broadcasts_S1x1024_S256x1024))
          shapeCasts_S256x1024_S1x256x1024 := rfl

/-- The projected block at row `r`, feature `f`: the context row against weight row `f`, plus the bias. -/
theorem k1_pay1_apply (c : FVec Ideal S256x1024 .bf16) (w : FVec Ideal S1024x1024 .bf16) (b : FVec Ideal S1x1024 .f32)
    (r : Fin 256) (f : Fin 1024) :
    k1_pay1 (F := Ideal) c w b (ix3 (0 : Fin 1) r f)
      = (∑ e : Fin 1024, c (ix2 r e) * w (ix2 f e)) + b (ix2 (0 : Fin 1) f) := by
  rw [k1_pay1_eq, shapeCast_ab_1ab_apply, addf_apply, shapeCast_self, shapeCast_self, matmul_wo_apply, broadcastTo_1b_ab_apply]

theorem zero_off2 : (![0, 0] : Fin 2 → Nat) = fun _ => 0 := by
  funext a; match a with | ⟨0, _⟩ => rfl | ⟨1, _⟩ => rfl
theorem zero_off3 : (![0, 0, 0] : Fin 3 → Nat) = fun _ => 0 := by
  funext a; match a with | ⟨0, _⟩ => rfl | ⟨1, _⟩ => rfl | ⟨2, _⟩ => rfl

/-- The result block at row `r`, feature `f`. -/
theorem out1_apply (xq : Vec Ideal S1x256x1024 .bf16) (xk xv : Vec Ideal S1x2048x1024 .bf16) (wo : Vec Ideal S1024x1024 .bf16)
    (bo : Vec Ideal S1x1024 .f32) (r : Fin 256) (f : Fin 1024) :
    out1 (F := Ideal) xq xk xv wo bo (ix3 0 r f)
      = Cert.Spec.rowOutK (fun c => xq (ix3 0 r c)) (fun j c => xk (ix3 0 j c)) (fun j c => xv (ix3 0 j c))
          (Ideal.ofBits .bf16 0x3E00#16) (fun f e => wo (ix2 f e)) (fun f => bo (ix2 0 f)) f := by
  unfold out1
  rw [View.canon_unit_zero (S := S1x256x1024) zero_off3, View.ld_unit_zero (S := S256x1024) zero_off2,
    View.ld_unit_zero (S := S1024x1024) zero_off2, View.ld_unit_zero (S := S1x1024) zero_off2]
  refine (k1_pay1_apply _ _ _ r f).trans ?_
  unfold Cert.Spec.rowOutK
  refine congrArg (· + bo (ix2 (0 : Fin 1) f)) (Finset.sum_congr rfl fun e _ => ?_)
  rw [ctx1_apply]
  rfl

end Cert.KernelIdeal.Hand

end
-- ==== Proof.Algebra.lean ====
/-
  The one law that joins the two programs: on real numbers, scaling each query entry by 1/8 before the dot product
  is scaling the dot product by 1/8 afterwards, and 1 / sqrt 64 is 1/8. The projection of real inputs is real.
-/
import proofs.«409074_j27238682591490_3_alg».proof.Proof.Spec
import Idealize.ShloMosaic.PureOps.Ideal.Laws

noncomputable section

namespace Cert.Spec

open Idealize.ShloMosaic

/-- The kernel's folded scale, the bf16 word 0x3E00, is 1/8. -/
theorem kappaK : Ideal.ofBits .bf16 0x3E00#16 = ((1 / 8 : ℝ) : EReal) := by
  simp [Ideal.ofBits, Ideal.ieee, -EReal.coe_mul]
  norm_num

/-- The f32 word 0x3F800000 is 1. -/
theorem ofBits_one : Ideal.ofBits .f32 0x3F800000#32 = ((1 : ℝ) : EReal) := by
  simp [Ideal.ofBits, Ideal.ieee, -EReal.coe_mul]
  norm_num

/-- The f32 word 0x42800000 is 64. -/
theorem ofBits_sixtyfour : Ideal.ofBits .f32 0x42800000#32 = ((64 : ℝ) : EReal) := by
  simp [Ideal.ofBits, Ideal.ieee, -EReal.coe_mul]
  norm_num

/-- The reference's scale 1 / sqrt 64 is 1/8. -/
theorem kappaR : Ideal.div (Ideal.ofBits .f32 0x3F800000#32) (Ideal.sqrt (Ideal.ofBits .f32 0x42800000#32)) = ((1 / 8 : ℝ) : EReal) := by
  have h8 : Real.sqrt 64 = 8 := by
    rw [show (64 : ℝ) = 8 ^ 2 by norm_num]
    exact Real.sqrt_sq (by norm_num)
  rw [ofBits_one, ofBits_sixtyfour, Ideal.sqrt_coe, if_neg (by norm_num), h8, Ideal.div_coe (by norm_num), ← EReal.coe_mul]
  norm_num

/-- A finite sum of reals, taken in the extended reals, is the real sum. -/
theorem sum_coe {ι : Type} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The projection of real inputs is real. -/
theorem qkv_real (x : Fin 4 → Fin 2048 → Fin 1024 → EReal) (wq : Fin 3072 → Fin 1024 → EReal) (bq : Fin 3072 → EReal)
    (hx : ∀ b s e, ∃ r : ℝ, x b s e = (r : EReal)) (hw : ∀ f e, ∃ r : ℝ, wq f e = (r : EReal)) (hb : ∀ f, ∃ r : ℝ, bq f = (r : EReal)) :
    ∀ b s f, ∃ r : ℝ, qkv x wq bq b s f = (r : EReal) := by
  intro b s f
  choose xr hxr using hx
  choose wr hwr using hw
  choose br hbr using hb
  refine ⟨(∑ e, xr b s e * wr f e) + br f, ?_⟩
  unfold qkv
  simp only [hxr, hwr, hbr, ← EReal.coe_mul, sum_coe, ← EReal.coe_add]

/-- On a real projected array the two orders of scaling give one score, hence one output. -/
theorem outK_eq_outR (p : Fin 4 → Fin 2048 → Fin 3072 → EReal) (hp : ∀ b s f, ∃ r : ℝ, p b s f = (r : EReal))
    (wo : Fin 1024 → Fin 1024 → EReal) (bo : Fin 1024 → EReal) :
    outK p ((1 / 8 : ℝ) : EReal) wo bo = outR p ((1 / 8 : ℝ) : EReal) wo bo := by
  -- over the reals the sum of (q d * κ) * k d is (the sum of q d * k d) * κ: distribute and commute
  have hs : scoreK p ((1 / 8 : ℝ) : EReal) = scoreR p ((1 / 8 : ℝ) : EReal) := by
    funext b i c j
    choose pr hpr using hp
    unfold scoreK scoreR
    simp only [hpr, ← EReal.coe_mul, sum_coe]
    congr 1
    rw [Finset.sum_mul]
    apply Finset.sum_congr rfl
    intro d _
    ring
  unfold outK outR
  rw [hs]

/-- The key feature of a column's head is 1024 past the head's column within the key block. -/
theorem kcol_eq (e : Fin 1024) (d : Fin 64) :
    kcol e d = ⟨1024 + (hcol e d).val, by have := (hcol e d).isLt; omega⟩ := by
  apply Fin.ext
  show 1024 + e.val / 64 * 64 + d.val = 1024 + (e.val / 64 * 64 + d.val)
  omega

/-- The kernel's output in the body's own terms: row (b, i) against batch b's key and value columns. -/
theorem outK_eq_rowOutK (p : Fin 4 → Fin 2048 → Fin 3072 → EReal) (κ : EReal) (wo : Fin 1024 → Fin 1024 → EReal) (bo : Fin 1024 → EReal)
    (b : Fin 4) (i : Fin 2048) (f : Fin 1024) :
    outK p κ wo bo b i f
      = rowOutK (fun c => p b i ⟨c.val, by have := c.isLt; omega⟩) (fun j c => p b j ⟨1024 + c.val, by have := c.isLt; omega⟩)
          (fun j c => p b j ⟨2048 + c.val, by have := c.isLt; omega⟩) κ wo bo f := by
  -- the scores agree term by term: the query feature is the head's column, the key feature 1024 past it
  have hsc : ∀ e, scoreK p κ b i e = rowScoreK (fun c => p b i ⟨c.val, by have := c.isLt; omega⟩)
      (fun j c => p b j ⟨1024 + c.val, by have := c.isLt; omega⟩) κ e := by
    intro e
    funext j
    unfold scoreK rowScoreK
    refine Finset.sum_congr rfl fun d _ => ?_
    rw [kcol_eq]
    rfl
  unfold outK out ctx rowOutK
  refine congrArg (· + bo f) (Finset.sum_congr rfl fun e _ => ?_)
  rw [hsc e]
  rfl

end Cert.Spec

end
-- ==== Proof.KI.Val1.lean ====
/-
  What the attention region leaves in its result array, read at the ideal values: at batch b, position i, feature f the
  projected attention output of query row (b, i) against batch b's keys and values, all read off the projected array.
-/
import proofs.«409074_j27238682591490_3_alg».proof.Proof.KI.Reg1
import proofs.«409074_j27238682591490_3_alg».proof.Proof.KI.Out1Val
import proofs.«409074_j27238682591490_3_alg».proof.Proof.Algebra
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The region's arrays at their literal types: the projected array, the narrowed output weight, its bias as one row,
    the result. -/
abbrev inP (c : Dev nD) : S4x2048x3072.Idx → EReal := V c main_v4
abbrev inWo (c : Dev nD) : S1024x1024.Idx → EReal := V c main_v5
abbrev inBo (c : Dev nD) : S1x1024.Idx → EReal := V c main_v6
abbrev outA (c : Dev nD) : S4x2048x1024.Idx → EReal := (dat1 (F := Ideal) V c).arrAt 5 cfg1.N

/-- The five input blocks of a grid point at their literal types. -/
abbrev qblk (c : Dev nD) (t : Fin cfg1.N) : Vec Ideal S1x256x1024 .bf16 := blk1 (F := Ideal) V c 0 t
abbrev kblk (c : Dev nD) (t : Fin cfg1.N) : Vec Ideal S1x2048x1024 .bf16 := blk1 (F := Ideal) V c 1 t
abbrev vblk (c : Dev nD) (t : Fin cfg1.N) : Vec Ideal S1x2048x1024 .bf16 := blk1 (F := Ideal) V c 2 t
abbrev woblk (c : Dev nD) (t : Fin cfg1.N) : Vec Ideal S1024x1024 .bf16 := blk1 (F := Ideal) V c 3 t
abbrev boblk (c : Dev nD) (t : Fin cfg1.N) : Vec Ideal S1x1024 .f32 := blk1 (F := Ideal) V c 4 t

/-- The block index maps over the grid: point t is batch t / 8, query block t % 8; the keys and values are column
    blocks 1 and 2 of the whole batch; the weight and bias are whole. -/
theorem idx_facts1 : ∀ t : Fin cfg1.N,
    win1_0.index t (0 : Fin 3) = t.val / 8 ∧ win1_0.index t (1 : Fin 3) = t.val % 8 ∧ win1_0.index t (2 : Fin 3) = 0
    ∧ win1_1.index t (0 : Fin 3) = t.val / 8 ∧ win1_1.index t (1 : Fin 3) = 0 ∧ win1_1.index t (2 : Fin 3) = 1
    ∧ win1_2.index t (0 : Fin 3) = t.val / 8 ∧ win1_2.index t (1 : Fin 3) = 0 ∧ win1_2.index t (2 : Fin 3) = 2
    ∧ win1_3.index t (0 : Fin 2) = 0 ∧ win1_3.index t (1 : Fin 2) = 0
    ∧ win1_4.index t (0 : Fin 2) = 0 ∧ win1_4.index t (1 : Fin 2) = 0
    ∧ win1_5.index t (0 : Fin 3) = t.val / 8 ∧ win1_5.index t (1 : Fin 3) = t.val % 8 ∧ win1_5.index t (2 : Fin 3) = 0 :=
  (by decide +kernel : ∀ t : Fin grid1.N, _)

theorem qblk_apply (c : Dev nD) (t : Fin cfg1.N) (r : Fin 256) (cc : Fin 1024) (b : Fin 4) (i : Fin 2048) (g : Fin 3072)
    (hb : b.val = t.val / 8) (hi : i.val = t.val % 8 * 256 + r.val) (hg : g.val = cc.val) :
    qblk V c t (ix3 0 r cc) = inP V c (ix3 b i g) := by
  obtain ⟨e0, e1, e2, -⟩ := idx_facts1 t
  show V c main_v4 (((cfg1.win 0).blk t).view.emb (ix3 0 r cc)) = V c main_v4 (ix3 b i g)
  congr 1
  funext a; apply Fin.ext
  match a with
  | ⟨0, _⟩ => show win1_0.index t (0 : Fin 3) * 1 + 1 * 0 = b.val; omega
  | ⟨1, _⟩ => show win1_0.index t (1 : Fin 3) * 256 + 1 * r.val = i.val; omega
  | ⟨2, _⟩ => show win1_0.index t (2 : Fin 3) * 1024 + 1 * cc.val = g.val; omega

theorem kblk_apply (c : Dev nD) (t : Fin cfg1.N) (j : Fin 2048) (cc : Fin 1024) (b : Fin 4) (g : Fin 3072)
    (hb : b.val = t.val / 8) (hg : g.val = 1024 + cc.val) :
    kblk V c t (ix3 0 j cc) = inP V c (ix3 b j g) := by
  obtain ⟨-, -, -, e0, e1, e2, -⟩ := idx_facts1 t
  show V c main_v4 (((cfg1.win 1).blk t).view.emb (ix3 0 j cc)) = V c main_v4 (ix3 b j g)
  congr 1
  funext a; apply Fin.ext
  match a with
  | ⟨0, _⟩ => show win1_1.index t (0 : Fin 3) * 1 + 1 * 0 = b.val; omega
  | ⟨1, _⟩ => show win1_1.index t (1 : Fin 3) * 2048 + 1 * j.val = j.val; omega
  | ⟨2, _⟩ => show win1_1.index t (2 : Fin 3) * 1024 + 1 * cc.val = g.val; omega

theorem vblk_apply (c : Dev nD) (t : Fin cfg1.N) (j : Fin 2048) (cc : Fin 1024) (b : Fin 4) (g : Fin 3072)
    (hb : b.val = t.val / 8) (hg : g.val = 2048 + cc.val) :
    vblk V c t (ix3 0 j cc) = inP V c (ix3 b j g) := by
  obtain ⟨-, -, -, -, -, -, e0, e1, e2, -⟩ := idx_facts1 t
  show V c main_v4 (((cfg1.win 2).blk t).view.emb (ix3 0 j cc)) = V c main_v4 (ix3 b j g)
  congr 1
  funext a; apply Fin.ext
  match a with
  | ⟨0, _⟩ => show win1_2.index t (0 : Fin 3) * 1 + 1 * 0 = b.val; omega
  | ⟨1, _⟩ => show win1_2.index t (1 : Fin 3) * 2048 + 1 * j.val = j.val; omega
  | ⟨2, _⟩ => show win1_2.index t (2 : Fin 3) * 1024 + 1 * cc.val = g.val; omega

theorem woblk_apply (c : Dev nD) (t : Fin cfg1.N) (f e : Fin 1024) :
    woblk V c t (ix2 f e) = inWo V c (ix2 f e) := by
  obtain ⟨-, -, -, -, -, -, -, -, -, e0, e1, -⟩ := idx_facts1 t
  show V c main_v5 (((cfg1.win 3).blk t).view.emb (ix2 f e)) = V c main_v5 (ix2 f e)
  congr 1
  funext a; apply Fin.ext
  match a with
  | ⟨0, _⟩ => show win1_3.index t (0 : Fin 2) * 1024 + 1 * f.val = f.val; omega
  | ⟨1, _⟩ => show win1_3.index t (1 : Fin 2) * 1024 + 1 * e.val = e.val; omega

theorem boblk_apply (c : Dev nD) (t : Fin cfg1.N) (f : Fin 1024) :
    boblk V c t (ix2 0 f) = inBo V c (ix2 0 f) := by
  obtain ⟨-, -, -, -, -, -, -, -, -, -, -, e0, e1, -⟩ := idx_facts1 t
  show V c main_v6 (((cfg1.win 4).blk t).view.emb (ix2 0 f)) = V c main_v6 (ix2 0 f)
  congr 1
  funext a; apply Fin.ext
  match a with
  | ⟨0, _⟩ => show win1_4.index t (0 : Fin 2) * 1 + 1 * 0 = 0; omega
  | ⟨1, _⟩ => show win1_4.index t (1 : Fin 2) * 1024 + 1 * f.val = f.val; omega

/-- The attention output of the region's input arrays, as one function on the result array's indices. -/
abbrev attnOut (c : Dev nD) : S4x2048x1024.Idx → EReal := fun j =>
  Cert.Spec.outK (fun b s g => inP V c (ix3 b s g)) (Ideal.ofBits .bf16 0x3E00#16)
    (fun f e => inWo V c (ix2 f e)) (fun f => inBo V c (ix2 0 f)) (j 0) (j 1) (j 2)

/-- At grid point t the body's result block, at row r and feature f, is the attention output of row
    (t / 8, (t % 8) · 256 + r). -/
theorem point_apply (c : Dev nD) (t : Fin cfg1.N) (r : Fin 256) (f : Fin 1024) (b : Fin 4) (i : Fin 2048)
    (hb : b.val = t.val / 8) (hi : i.val = t.val % 8 * 256 + r.val) :
    out1 (F := Ideal) (qblk V c t) (kblk V c t) (vblk V c t) (woblk V c t) (boblk V c t) (ix3 0 r f)
      = Cert.Spec.outK (fun b s g => inP V c (ix3 b s g)) (Ideal.ofBits .bf16 0x3E00#16)
          (fun f e => inWo V c (ix2 f e)) (fun f => inBo V c (ix2 0 f)) b i f := by
  rw [out1_apply (qblk V c t) (kblk V c t) (vblk V c t) (woblk V c t) (boblk V c t) r f, Cert.Spec.outK_eq_rowOutK]
  congr 1
  · funext cc; exact qblk_apply V c t r cc b i _ hb hi rfl
  · funext j cc; exact kblk_apply V c t j cc b _ hb rfl
  · funext j cc; exact vblk_apply V c t j cc b _ hb rfl
  · funext f e; exact woblk_apply V c t f e
  · funext f; exact boblk_apply V c t f

/-- What grid point t writes back is its block of the attention output. -/
theorem flushed1_eq (c : Dev nD) (t : Fin cfg1.N) :
    (dat1 (F := Ideal) V c).flushed 5 t = ((cfg1.win 5).blk t).view.read (Elt Ideal) (attnOut V c) := by
  show (cfg1.win 5).cut (grid1.coords t) ((dat1 (F := Ideal) V c).after 5 t) = _
  rw [after1_5]
  obtain ⟨-, -, -, -, -, -, -, -, -, -, -, -, -, e0, e1, e2⟩ := idx_facts1 t
  funext y
  obtain ⟨z, r, f, rfl⟩ : ∃ (z : Fin 1) (r : Fin 256) (f : Fin 1024), y = ix3 z r f := ⟨y 0, y 1, y 2, eq_ix3 y⟩
  obtain rfl : z = 0 := Subsingleton.elim _ _
  have hb : t.val / 8 < 4 := by have := t.isLt; have : cfg1.N = 32 := rfl; omega
  have hi : t.val % 8 * 256 + r.val < 2048 := by have := r.isLt; omega
  show out1 (F := Ideal) (qblk V c t) (kblk V c t) (vblk V c t) (woblk V c t) (boblk V c t) (ix3 0 r f)
    = attnOut V c (((cfg1.win 5).blk t).view.emb (ix3 0 r f))
  rw [point_apply V c t r f ⟨t.val / 8, hb⟩ ⟨t.val % 8 * 256 + r.val, hi⟩ rfl rfl]
  have hemb : ((cfg1.win 5).blk t).view.emb (ix3 0 r f) = (ix3 ⟨t.val / 8, hb⟩ ⟨t.val % 8 * 256 + r.val, hi⟩ f : S4x2048x1024.Idx) := by
    funext a; apply Fin.ext
    match a with
    | ⟨0, _⟩ => show win1_5.index t (0 : Fin 3) * 1 + 1 * 0 = t.val / 8; omega
    | ⟨1, _⟩ => show win1_5.index t (1 : Fin 3) * 256 + 1 * r.val = t.val % 8 * 256 + r.val; omega
    | ⟨2, _⟩ => show win1_5.index t (2 : Fin 3) * 1024 + 1 * f.val = f.val; omega
  rw [hemb]

/-- An index of the result array is in point t's block iff each coordinate is in the block's range on its axis. -/
theorem mem_blk1 (t : Fin cfg1.N) (i : S4x2048x1024.Idx) :
    i ∈ ((cfg1.win 5).blk t).view.set ↔ ∀ a : Fin 3, win1_5.index t a * S1x256x1024.size a ≤ (i a).val ∧ (i a).val < win1_5.index t a * S1x256x1024.size a + S1x256x1024.size a := by
  show i ∈ ((View.whole main_v7).slice (win1_5.rect t)).set ↔ _
  rw [View.set_slice_whole, Rect.mem_set_unit]
  exact Iff.rfl

/-- Row (b, i) of the result array lies in the block of grid point 8 b + i / 256. -/
theorem cover1 (i : S4x2048x1024.Idx) :
    ∃ t : Fin cfg1.N, (cfg1.win 5).flush t = true ∧ i ∈ ((cfg1.win 5).blk t).view.set := by
  have h0 : (i 0).val < 4 := (i 0).isLt
  have h1 : (i 1).val < 2048 := (i 1).isLt
  have h2 : (i 2).val < 1024 := (i 2).isLt
  obtain ⟨t, ht⟩ : ∃ t : Fin cfg1.N, t.val = (i 0).val * 8 + (i 1).val / 256 :=
    ⟨⟨(i 0).val * 8 + (i 1).val / 256, by show _ < 32; omega⟩, rfl⟩
  refine ⟨t, flush1_5 t, ?_⟩
  rw [mem_blk1]
  obtain ⟨-, -, -, -, -, -, -, -, -, -, -, -, -, e0, e1, e2⟩ := idx_facts1 t
  intro a
  match a with
  | ⟨0, _⟩ => show win1_5.index t (0 : Fin 3) * 1 ≤ (i 0).val ∧ (i 0).val < win1_5.index t (0 : Fin 3) * 1 + 1; omega
  | ⟨1, _⟩ => show win1_5.index t (1 : Fin 3) * 256 ≤ (i 1).val ∧ (i 1).val < win1_5.index t (1 : Fin 3) * 256 + 256; omega
  | ⟨2, _⟩ => show win1_5.index t (2 : Fin 3) * 1024 ≤ (i 2).val ∧ (i 2).val < win1_5.index t (2 : Fin 3) * 1024 + 1024; omega

/-- After the thirty-two write-backs the result array is the attention output, as functions. -/
theorem res1_eq (c : Dev nD) : outA V c = attnOut V c :=
  (dat1 (F := Ideal) V c).arrAt_eq_of_cover 5 (attnOut V c) (fun t _ => flushed1_eq V c t) cover1

/-- After the thirty-two write-backs the result array holds the kernel's attention output of the region's input arrays. -/
theorem res1_apply (c : Dev nD) (b : Fin 4) (i : Fin 2048) (f : Fin 1024) :
    outA V c (ix3 b i f)
      = Cert.Spec.outK (fun b s g => inP V c (ix3 b s g)) (Ideal.ofBits .bf16 0x3E00#16)
          (fun f e => inWo V c (ix2 f e)) (fun f => inBo V c (ix2 0 f)) b i f := by
  rw [res1_eq V c]

end Cert.KernelIdeal.Hand

end
-- ==== Proof.KI.Glue.lean ====
/-
  The host operations between the regions, read at the ideal values: x enters the projection as 8192 rows (row
  b·2048 + s is position s of batch b); the weights are narrowed, which changes nothing at the ideal values; the biases
  become one-row arrays; the projected array returns to [4, 2048, 3072]. Composed with the two regions' values this
  gives the kernel program's result as the specification's function of the five argument arrays.
-/
import proofs.«409074_j27238682591490_3_alg».proof.Proof.KI.Fold
import proofs.«409074_j27238682591490_3_alg».proof.Proof.KI.Val0
import proofs.«409074_j27238682591490_3_alg».proof.Proof.KI.Val1
import proofs.«409074_j27238682591490_3_alg».proof.Proof.Spec
import Idealize.ShloMosaic.Lib.StableHlo.Run
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx Idealize.ShloMosaic.StableHlo

variable (m : (ℓ : Loc nD τ sig) → Buf (Elt Ideal) ℓ)

/-- The five argument arrays at their literal types. -/
abbrev aX (c : Dev nD) : S4x2048x1024.Idx → EReal := m ((c.tc : Thread nD τ).loc main_arg0)
abbrev aWq (c : Dev nD) : S3072x1024.Idx → EReal := m ((c.tc : Thread nD τ).loc main_arg1)
abbrev aBq (c : Dev nD) : S3072.Idx → EReal := m ((c.tc : Thread nD τ).loc main_arg2)
abbrev aWo (c : Dev nD) : S1024x1024.Idx → EReal := m ((c.tc : Thread nD τ).loc main_arg3)
abbrev aBo (c : Dev nD) : S1024.Idx → EReal := m ((c.tc : Thread nD τ).loc main_arg4)

/-- Row `b·2048 + s` of the 8192. -/
abbrev row (b : Fin 4) (s : Fin 2048) : Fin 8192 := ⟨b.val * 2048 + s.val, by have := b.isLt; have := s.isLt; omega⟩

/-! ## The first host stretch -/

theorem E1_v0 (c : Dev nD) : (E1 (F := Ideal) m c main_v0 : S8192x1024.Idx → EReal)
    = shapeCast S8192x1024 (aX m c) shapeCasts_S4x2048x1024_S8192x1024 := by
  show StableHlo.after hostOps0 (W0 m c) (Proc.devRef .tc main_v0) = _
  after_results; rfl

/-- Narrowing changes nothing at the ideal values. -/
theorem E1_v1 (c : Dev nD) : (E1 (F := Ideal) m c main_v1 : S3072x1024.Idx → EReal) = aWq m c := by
  show StableHlo.after hostOps0 (W0 m c) (Proc.devRef .tc main_v1) = _
  after_results; rfl

theorem E1_v2 (c : Dev nD) : (E1 (F := Ideal) m c main_v2 : S1x3072.Idx → EReal)
    = shapeCast S1x3072 (aBq m c) shapeCasts_S3072_S1x3072 := by
  show StableHlo.after hostOps0 (W0 m c) (Proc.devRef .tc main_v2) = _
  after_results; rfl

/-- x as 8192 rows: row `b·2048 + s` is position `s` of batch `b`. -/
theorem inX_apply (c : Dev nD) (b : Fin 4) (s : Fin 2048) (e : Fin 1024) :
    inX (E1 m) c (ix2 (row b s) e) = aX m c (ix3 b s e) := by
  show (E1 (F := Ideal) m c main_v0 : S8192x1024.Idx → EReal) _ = _
  rw [E1_v0]
  refine shapeCast_apply _ _ _ (ix3 b s e) ?_
  rw [Shape.rowMajor_val_three, Shape.rowMajor_val_two]
  rfl

/-- The narrowed weight holds the weight's values. -/
theorem inW_apply (c : Dev nD) (f : Fin 3072) (e : Fin 1024) : inW (E1 m) c (ix2 f e) = aWq m c (ix2 f e) := by
  show (E1 (F := Ideal) m c main_v1 : S3072x1024.Idx → EReal) _ = _
  rw [E1_v1]

/-- The bias as one row. -/
theorem inB_apply (c : Dev nD) (f : Fin 3072) : inB (E1 m) c (ix2 0 f) = aBq m c (ix1 f) := by
  show (E1 (F := Ideal) m c main_v2 : S1x3072.Idx → EReal) _ = _
  rw [E1_v2]
  refine shapeCast_apply _ _ _ (ix1 f) ?_
  rw [Shape.rowMajor_val_one, Shape.rowMajor_val_two]
  show f.val = 0 * 3072 + f.val
  omega

/-! ## The second host stretch -/

theorem E3_v4 (c : Dev nD) : (E3 (F := Ideal) m c main_v4 : S4x2048x3072.Idx → EReal)
    = shapeCast S4x2048x3072 (outP (E1 m) c) shapeCasts_S8192x3072_S4x2048x3072 := by
  show StableHlo.after hostOps1 (W2 m c) (Proc.devRef .tc main_v4) = _
  after_results
  rw [W2_res]; rfl

theorem E3_v5 (c : Dev nD) : (E3 (F := Ideal) m c main_v5 : S1024x1024.Idx → EReal) = aWo m c := by
  show StableHlo.after hostOps1 (W2 m c) (Proc.devRef .tc main_v5) = _
  after_results
  rw [W2_of_ne m c main_arg3 (by decide), W1_of m c main_arg3 (by decide)]; rfl

theorem E3_v6 (c : Dev nD) : (E3 (F := Ideal) m c main_v6 : S1x1024.Idx → EReal)
    = shapeCast S1x1024 (aBo m c) shapeCasts_S1024_S1x1024 := by
  show StableHlo.after hostOps1 (W2 m c) (Proc.devRef .tc main_v6) = _
  after_results
  rw [W2_of_ne m c main_arg4 (by decide), W1_of m c main_arg4 (by decide)]; rfl

/-- The projected array back at [4, 2048, 3072]: entry (b, s, g) is row `b·2048 + s`, feature g. -/
theorem inP_apply (c : Dev nD) (b : Fin 4) (s : Fin 2048) (g : Fin 3072) :
    inP (E3 m) c (ix3 b s g) = outP (E1 m) c (ix2 (row b s) g) := by
  show (E3 (F := Ideal) m c main_v4 : S4x2048x3072.Idx → EReal) _ = _
  rw [E3_v4]
  refine shapeCast_apply _ _ _ (ix2 (row b s) g) ?_
  rw [Shape.rowMajor_val_three, Shape.rowMajor_val_two]
  rfl

theorem inWo_apply (c : Dev nD) (f e : Fin 1024) : inWo (E3 m) c (ix2 f e) = aWo m c (ix2 f e) := by
  show (E3 (F := Ideal) m c main_v5 : S1024x1024.Idx → EReal) _ = _
  rw [E3_v5]

theorem inBo_apply (c : Dev nD) (f : Fin 1024) : inBo (E3 m) c (ix2 0 f) = aBo m c (ix1 f) := by
  show (E3 (F := Ideal) m c main_v6 : S1x1024.Idx → EReal) _ = _
  rw [E3_v6]
  refine shapeCast_apply _ _ _ (ix1 f) ?_
  rw [Shape.rowMajor_val_one, Shape.rowMajor_val_two]
  show f.val = 0 * 1024 + f.val
  omega

/-! ## The kernel program's result -/

/-- The projected array is the specification's projection of the arguments. -/
theorem inP_eq_qkv (c : Dev nD) :
    (fun b s g => inP (E3 m) c (ix3 b s g))
      = Cert.Spec.qkv (fun b s e => aX m c (ix3 b s e)) (fun f e => aWq m c (ix2 f e)) (fun f => aBq m c (ix1 f)) := by
  funext b s g
  rw [inP_apply, res0_apply]
  unfold Cert.Spec.qkv
  rw [inB_apply]
  congr 1
  exact Finset.sum_congr rfl fun e _ => by rw [inX_apply, inW_apply]

/-- What the run leaves in the result array, at batch b, position i, feature f: the kernel's attention output of the
    five argument arrays. -/
theorem kernel_val (c : Dev nD) (b : Fin 4) (i : Fin 2048) (f : Fin 1024) :
    (res1 (F := Ideal) m c : S4x2048x1024.Idx → EReal) (ix3 b i f)
      = Cert.Spec.outK
          (Cert.Spec.qkv (fun b s e => aX m c (ix3 b s e)) (fun f e => aWq m c (ix2 f e)) (fun f => aBq m c (ix1 f)))
          (Ideal.ofBits .bf16 0x3E00#16) (fun f e => aWo m c (ix2 f e)) (fun f => aBo m c (ix1 f)) b i f := by
  show outA (E3 m) c (ix3 b i f) = _
  have h1 : (fun f e => inWo (E3 m) c (ix2 f e)) = fun f e => aWo m c (ix2 f e) := by
    funext f e; exact inWo_apply m c f e
  have h2 : (fun f => inBo (E3 m) c (ix2 0 f)) = fun f => aBo m c (ix1 f) := by
    funext f; exact inBo_apply m c f
  rw [res1_apply, inP_eq_qkv, h1, h2]

end Cert.KernelIdeal.Hand

end
-- ==== Proof.RefVal.lean ====
/-
  The reference's result read at the ideal values at batch b, position i, feature f: the attention output with the
  scores scaled after the sum by 1 / sqrt 64.
-/
import proofs.«409074_j27238682591490_3_alg».proof.Proof.Gen.ReferenceIdeal.Run
import proofs.«409074_j27238682591490_3_alg».proof.Proof.Gen.ReferenceIdeal.Read
import proofs.«409074_j27238682591490_3_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.ReferenceIdeal.RefVal

open Cert.ReferenceIdeal Cert.ReferenceIdeal.Gen Cert.ReferenceIdeal.Value
open Idealize.ShloMosaic Idealize.ShloMosaic.TcCoe Idealize.SL.Sem Idealize.ShloMosaic.ValueIdx

/-- The reference's scale as it computes it: 1 / sqrt 64. -/
abbrev κR : EReal := Ideal.div (Ideal.ofBits .f32 0x3F800000#32) (Ideal.sqrt (Ideal.ofBits .f32 0x42800000#32))

open Cert.ReferenceIdeal.Read

section Stages

variable (x0 : (⟨S4x2048x1024, .f32⟩ : BufTy).Contents (Elt Ideal)) (x1 : (⟨S3072x1024, .f32⟩ : BufTy).Contents (Elt Ideal))
  (x2 : (⟨S3072, .f32⟩ : BufTy).Contents (Elt Ideal))

/-! ### The fused projection -/

theorem lidx0 (b : Fin 4) (s : Fin 2048) (f : Fin 3072) (k : Fin 1024) :
    lidx_main_v0 (ix3 b s f) k = ix3 b s k :=
  funext fun a => Fin.ext (by match a with | ⟨0, _⟩ => rfl | ⟨1, _⟩ => rfl | ⟨2, _⟩ => rfl)

theorem ridx0 (b : Fin 4) (s : Fin 2048) (f : Fin 3072) (k : Fin 1024) :
    ridx_main_v0 (ix3 b s f) k = ix2 f k :=
  funext fun a => Fin.ext (by match a with | ⟨0, _⟩ => rfl | ⟨1, _⟩ => rfl)

theorem bidx0 (b : Fin 4) (s : Fin 2048) (f : Fin 3072) :
    idx_main_v1 (idx_main_v2 (ix3 b s f)) = ix1 f :=
  funext fun a => Fin.ext (by match a with | ⟨0, _⟩ => rfl)

/-- The projection stage at (b, s, f) is the specification's projection of the three argument arrays. -/
theorem proj_apply (b : Fin 4) (s : Fin 2048) (f : Fin 3072) :
    (val_main_v3 (F := Ideal) x0 x1 x2 : S4x2048x3072.Idx → EReal) (ix3 b s f)
      = Cert.Spec.qkv (fun b s e => (x0 : S4x2048x1024.Idx → EReal) (ix3 b s e))
          (fun f e => (x1 : S3072x1024.Idx → EReal) (ix2 f e)) (fun f => (x2 : S3072.Idx → EReal) (ix1 f)) b s f := by
  rw [val_main_v3_apply, val_main_v0_apply, val_main_v2_apply, val_main_v1_apply]
  simp only [lidx0, ridx0, bidx0, Ideal.addf_def]
  rfl

/-! ### The three slices: the reshape [3072] → [3, 16, 64], the transpose and the slice -/

/-- Feature `t·1024 + h·64 + d` of the projection: part `t` (query, key, value), head `h`, lane `d`. -/
def feat (t : Fin 3) (h : Fin 16) (d : Fin 64) : Fin 3072 :=
  ⟨t.val * 1024 + h.val * 64 + d.val, by have := t.isLt; have := h.isLt; have := d.isLt; omega⟩

theorem idx7 (b : Fin 4) (h : Fin 16) (i : Fin 2048) (d : Fin 64) :
    idx_main_v7 (ix4 b h i d) = ix5 (0 : Fin 1) b h i d :=
  funext fun a => Fin.ext (by
    have := b.isLt; have := h.isLt; have := i.isLt; have := d.isLt
    match a with
    | ⟨0, _⟩ => rfl
    | ⟨1, _⟩ => show (((b.val * 16 + h.val) * 2048 + i.val) * 64 + d.val) / 2097152 % 4 = b.val; omega
    | ⟨2, _⟩ => show (((b.val * 16 + h.val) * 2048 + i.val) * 64 + d.val) / 131072 % 16 = h.val; omega
    | ⟨3, _⟩ => show (((b.val * 16 + h.val) * 2048 + i.val) * 64 + d.val) / 64 % 2048 = i.val; omega
    | ⟨4, _⟩ => show (((b.val * 16 + h.val) * 2048 + i.val) * 64 + d.val) % 64 = d.val; omega)

theorem idx9 (b : Fin 4) (h : Fin 16) (i : Fin 2048) (d : Fin 64) :
    idx_main_v9 (ix4 b h i d) = ix5 (0 : Fin 1) b h i d := idx7 b h i d

theorem idx11 (b : Fin 4) (h : Fin 16) (i : Fin 2048) (d : Fin 64) :
    idx_main_v11 (ix4 b h i d) = ix5 (0 : Fin 1) b h i d := idx7 b h i d

theorem idx6 (b : Fin 4) (h : Fin 16) (i : Fin 2048) (d : Fin 64) :
    idx_main_v6 (ix5 (0 : Fin 1) b h i d) = ix5 (0 : Fin 3) b h i d :=
  funext fun a => Fin.ext (by match a with | ⟨0, _⟩ => rfl | ⟨1, _⟩ => rfl | ⟨2, _⟩ => rfl | ⟨3, _⟩ => rfl | ⟨4, _⟩ => rfl)

theorem idx8 (b : Fin 4) (h : Fin 16) (i : Fin 2048) (d : Fin 64) :
    idx_main_v8 (ix5 (0 : Fin 1) b h i d) = ix5 (1 : Fin 3) b h i d :=
  funext fun a => Fin.ext (by match a with | ⟨0, _⟩ => rfl | ⟨1, _⟩ => rfl | ⟨2, _⟩ => rfl | ⟨3, _⟩ => rfl | ⟨4, _⟩ => rfl)

theorem idx10 (b : Fin 4) (h : Fin 16) (i : Fin 2048) (d : Fin 64) :
    idx_main_v10 (ix5 (0 : Fin 1) b h i d) = ix5 (2 : Fin 3) b h i d :=
  funext fun a => Fin.ext (by match a with | ⟨0, _⟩ => rfl | ⟨1, _⟩ => rfl | ⟨2, _⟩ => rfl | ⟨3, _⟩ => rfl | ⟨4, _⟩ => rfl)

theorem idx5 (t : Fin 3) (b : Fin 4) (h : Fin 16) (i : Fin 2048) (d : Fin 64) :
    idx_main_v5 (ix5 t b h i d) = ix5 b i t h d :=
  funext fun a => Fin.ext (by match a with | ⟨0, _⟩ => rfl | ⟨1, _⟩ => rfl | ⟨2, _⟩ => rfl | ⟨3, _⟩ => rfl | ⟨4, _⟩ => rfl)

theorem idx4 (t : Fin 3) (b : Fin 4) (h : Fin 16) (i : Fin 2048) (d : Fin 64) :
    idx_main_v4 (ix5 b i t h d) = ix3 b i (feat t h d) :=
  funext fun a => Fin.ext (by
    have := b.isLt; have := h.isLt; have := i.isLt; have := d.isLt; have := t.isLt
    match a with
    | ⟨0, _⟩ => show ((((b.val * 2048 + i.val) * 3 + t.val) * 16 + h.val) * 64 + d.val) / 6291456 = b.val; omega
    | ⟨1, _⟩ => show ((((b.val * 2048 + i.val) * 3 + t.val) * 16 + h.val) * 64 + d.val) / 3072 % 2048 = i.val; omega
    | ⟨2, _⟩ => show ((((b.val * 2048 + i.val) * 3 + t.val) * 16 + h.val) * 64 + d.val) % 3072 = t.val * 1024 + h.val * 64 + d.val; omega)

/-- The query slice at (b, h, i, d) is the projection's feature `h·64 + d` at (b, i). -/
theorem q_apply (b : Fin 4) (h : Fin 16) (i : Fin 2048) (d : Fin 64) :
    val_main_v7 (F := Ideal) x0 x1 x2 (ix4 b h i d) = val_main_v3 (F := Ideal) x0 x1 x2 (ix3 b i (feat 0 h d)) := by
  rw [val_main_v7_apply, val_main_v6_apply, val_main_v5_apply, val_main_v4_apply, idx7, idx6, idx5, idx4]

/-- The key slice at (b, h, i, d) is the projection's feature `1024 + h·64 + d` at (b, i). -/
theorem k_apply (b : Fin 4) (h : Fin 16) (i : Fin 2048) (d : Fin 64) :
    val_main_v9 (F := Ideal) x0 x1 x2 (ix4 b h i d) = val_main_v3 (F := Ideal) x0 x1 x2 (ix3 b i (feat 1 h d)) := by
  rw [val_main_v9_apply, val_main_v8_apply, val_main_v5_apply, val_main_v4_apply, idx9, idx8, idx5, idx4]

/-- The value slice at (b, h, i, d) is the projection's feature `2048 + h·64 + d` at (b, i). -/
theorem v_apply (b : Fin 4) (h : Fin 16) (i : Fin 2048) (d : Fin 64) :
    val_main_v11 (F := Ideal) x0 x1 x2 (ix4 b h i d) = val_main_v3 (F := Ideal) x0 x1 x2 (ix3 b i (feat 2 h d)) := by
  rw [val_main_v11_apply, val_main_v10_apply, val_main_v5_apply, val_main_v4_apply, idx11, idx10, idx5, idx4]

/-! ### The scores -/

theorem lidx14 (b : Fin 4) (h : Fin 16) (i j : Fin 2048) (k : Fin 64) :
    lidx_main_v14 (ix4 b h i j) k = ix4 b h i k :=
  funext fun a => Fin.ext (by match a with | ⟨0, _⟩ => rfl | ⟨1, _⟩ => rfl | ⟨2, _⟩ => rfl | ⟨3, _⟩ => rfl)

theorem ridx14 (b : Fin 4) (h : Fin 16) (i j : Fin 2048) (k : Fin 64) :
    ridx_main_v14 (ix4 b h i j) k = ix4 b h j k :=
  funext fun a => Fin.ext (by match a with | ⟨0, _⟩ => rfl | ⟨1, _⟩ => rfl | ⟨2, _⟩ => rfl | ⟨3, _⟩ => rfl)

/-- The broadcast scale is `1 / sqrt 64` at every index. -/
theorem kappa_apply (i : S4x16x2048x2048.Idx) : val_main_v15 (F := Ideal) i = κR := by
  rw [val_main_v15_apply, val_main_v13_apply, val_main_cst_0_apply, val_main_v12_apply, val_main_cst_apply]
  rfl

/-- The scaled score of head `h`, query `i`, key `j`: the sum over the lanes of query times key, scaled after the sum. -/
theorem score_apply (b : Fin 4) (h : Fin 16) (i j : Fin 2048) :
    val_main_v16 (F := Ideal) x0 x1 x2 (ix4 b h i j)
      = (∑ d : Fin 64, val_main_v3 (F := Ideal) x0 x1 x2 (ix3 b i (feat 0 h d))
            * val_main_v3 (F := Ideal) x0 x1 x2 (ix3 b j (feat 1 h d))) * κR := by
  rw [val_main_v16_apply, val_main_v14_apply, kappa_apply]
  simp only [lidx14, ridx14, q_apply, k_apply, Ideal.mulf_def]

/-! ### The row maximum -/

theorem negInf_eq_bot : Ideal.ofBits .f32 0xFF800000#32 = (⊥ : EReal) := by simp [Ideal.ofBits, Ideal.ieee]

theorem lift3 (hr : S4x16x2048x2048.Reduces [3] S4x16x2048) (b : Fin 4) (h : Fin 16) (i : Fin 2048)
    (k : Fin (S4x16x2048x2048.size 3)) :
    hr.lift (ix3 b h i) k = ix4 b h i (⟨k.val, k.isLt⟩ : Fin 2048) :=
  funext fun a => Fin.ext (by match a with | ⟨0, _⟩ => rfl | ⟨1, _⟩ => rfl | ⟨2, _⟩ => rfl | ⟨3, _⟩ => rfl)

/-- The row maximum stage at (b, h, i) is the specification's maximum of the score row. -/
theorem rowmax_apply (b : Fin 4) (h : Fin 16) (i : Fin 2048) :
    val_main_v19 (F := Ideal) x0 x1 x2 (ix3 b h i)
      = Cert.Spec.rowMax (fun j : Fin 2048 => (val_main_v16 (F := Ideal) x0 x1 x2 : S4x16x2048x2048.Idx → EReal) (ix4 b h i j)) := by
  rw [val_main_v19_apply, val_main_v18_apply, val_main_cst_2_apply]
  unfold val_main_v17
  generalize val_main_v16 (F := Ideal) x0 x1 x2 = y
  have hr : S4x16x2048x2048.Reduces [3] S4x16x2048 := by decide
  have e := Host.reduce_eq_fold_single (FloatOps.maximumf (F := Ideal) (φ := .f32)) (y : S4x16x2048x2048.Idx → Ideal .f32)
    (val_main_cst_1 (F := Ideal)) reducesTo_S4x16x2048x2048_S4x16x2048_d3 hr h_S_ (ix3 b h i)
  rw [e, val_main_cst_1_apply]
  have hf : (y ∘ hr.lift (ix3 b h i)) = fun j : Fin 2048 => y (ix4 b h i j) :=
    funext fun k => congrArg y (lift3 hr b h i k)
  rw [hf]
  show max (Ideal.ofBits .f32 0xFF800000#32) (Finset.fold max (Ideal.ofBits .f32 0xFF800000#32) (fun j : Fin 2048 => y (ix4 b h i j)) Finset.univ) = _
  rw [negInf_eq_bot, max_bot_left]
  rfl

/-! ### The softmax weights -/

theorem idx2021 (b : Fin 4) (h : Fin 16) (i j : Fin 2048) :
    idx_main_v20 (idx_main_v21 (ix4 b h i j)) = ix3 b h i :=
  funext fun a => Fin.ext (by match a with | ⟨0, _⟩ => rfl | ⟨1, _⟩ => rfl | ⟨2, _⟩ => rfl)

theorem idx2526 (b : Fin 4) (h : Fin 16) (i j : Fin 2048) :
    idx_main_v25 (idx_main_v26 (ix4 b h i j)) = ix3 b h i :=
  funext fun a => Fin.ext (by match a with | ⟨0, _⟩ => rfl | ⟨1, _⟩ => rfl | ⟨2, _⟩ => rfl)

theorem idx24 (b : Fin 4) (h : Fin 16) (i : Fin 2048) (k : Fin 2048) :
    idx_main_v24 (ix3 b h i) k = ix4 b h i k :=
  funext fun a => Fin.ext (by match a with | ⟨0, _⟩ => rfl | ⟨1, _⟩ => rfl | ⟨2, _⟩ => rfl | ⟨3, _⟩ => rfl)

/-- The score row of head `h`, query `i`. -/
def srow (b : Fin 4) (h : Fin 16) (i : Fin 2048) : Fin 2048 → EReal :=
  fun j => (val_main_v16 (F := Ideal) x0 x1 x2 : S4x16x2048x2048.Idx → EReal) (ix4 b h i j)

/-- The exponential stage: `exp (s j − max s)` of the score row. -/
theorem exp_apply (b : Fin 4) (h : Fin 16) (i j : Fin 2048) :
    val_main_v23 (F := Ideal) x0 x1 x2 (ix4 b h i j)
      = Ideal.exp (srow x0 x1 x2 b h i j - Cert.Spec.rowMax (srow x0 x1 x2 b h i)) := by
  rw [val_main_v23_apply, val_main_v22_apply, val_main_v21_apply, val_main_v20_apply, idx2021, rowmax_apply]
  rfl

/-- The sum stage: the sum of the exponentials over the row. -/
theorem sum_apply (b : Fin 4) (h : Fin 16) (i : Fin 2048) :
    val_main_v24 (F := Ideal) x0 x1 x2 (ix3 b h i)
      = ∑ k : Fin 2048, Ideal.exp (srow x0 x1 x2 b h i k - Cert.Spec.rowMax (srow x0 x1 x2 b h i)) := by
  rw [val_main_v24_apply, val_main_cst_3_apply]
  simp only [idx24, exp_apply]
  rw [Ideal.ofBits_def, Ideal.ofBits_zero_f32, zero_add]

/-- The weights stage: the specification's softmax weight of the score row. -/
theorem soft_apply (b : Fin 4) (h : Fin 16) (i j : Fin 2048) :
    val_main_v27 (F := Ideal) x0 x1 x2 (ix4 b h i j) = Cert.Spec.soft (srow x0 x1 x2 b h i) j := by
  rw [val_main_v27_apply, val_main_v26_apply, val_main_v25_apply, idx2526, sum_apply, exp_apply]
  rfl

/-! ### The context -/

theorem lidx28 (b : Fin 4) (h : Fin 16) (i : Fin 2048) (d : Fin 64) (k : Fin 2048) :
    lidx_main_v28 (ix4 b h i d) k = ix4 b h i k :=
  funext fun a => Fin.ext (by match a with | ⟨0, _⟩ => rfl | ⟨1, _⟩ => rfl | ⟨2, _⟩ => rfl | ⟨3, _⟩ => rfl)

theorem ridx28 (b : Fin 4) (h : Fin 16) (i : Fin 2048) (d : Fin 64) (k : Fin 2048) :
    ridx_main_v28 (ix4 b h i d) k = ix4 b h k d :=
  funext fun a => Fin.ext (by match a with | ⟨0, _⟩ => rfl | ⟨1, _⟩ => rfl | ⟨2, _⟩ => rfl | ⟨3, _⟩ => rfl)

/-- The context of head `h`, query `i`, lane `d`: the softmax weights of the score row against the value slice. -/
theorem ctx_apply (b : Fin 4) (h : Fin 16) (i : Fin 2048) (d : Fin 64) :
    val_main_v28 (F := Ideal) x0 x1 x2 (ix4 b h i d)
      = ∑ j : Fin 2048, Cert.Spec.soft (srow x0 x1 x2 b h i) j
          * val_main_v3 (F := Ideal) x0 x1 x2 (ix3 b j (feat 2 h d)) := by
  rw [val_main_v28_apply]
  simp only [lidx28, ridx28, soft_apply, v_apply]

/-! ### Heads back into columns: column `e` of the context is head `e / 64`, lane `e % 64` -/

/-- Column `e`'s head. -/
def hd (e : Fin 1024) : Fin 16 := ⟨e.val / 64, by have := e.isLt; omega⟩
/-- Column `e`'s lane within its head. -/
def ln (e : Fin 1024) : Fin 64 := ⟨e.val % 64, by omega⟩

theorem idx2930 (b : Fin 4) (i : Fin 2048) (e : Fin 1024) :
    idx_main_v29 (idx_main_v30 (ix3 b i e)) = ix4 b (hd e) i (ln e) :=
  funext fun a => Fin.ext (by
    have := b.isLt; have := i.isLt; have := e.isLt
    match a with
    | ⟨0, _⟩ => show ((b.val * 2048 + i.val) * 1024 + e.val) / 2097152 = b.val; omega
    | ⟨1, _⟩ => show ((b.val * 2048 + i.val) * 1024 + e.val) / 64 % 16 = e.val / 64; omega
    | ⟨2, _⟩ => show ((b.val * 2048 + i.val) * 1024 + e.val) / 1024 % 2048 = i.val; omega
    | ⟨3, _⟩ => show ((b.val * 2048 + i.val) * 1024 + e.val) % 64 = e.val % 64; omega)

theorem feat_q (e : Fin 1024) (d : Fin 64) : feat 0 (hd e) d = Cert.Spec.qcol e d :=
  Fin.ext (by show 0 * 1024 + e.val / 64 * 64 + d.val = e.val / 64 * 64 + d.val; omega)

theorem feat_k (e : Fin 1024) (d : Fin 64) : feat 1 (hd e) d = Cert.Spec.kcol e d :=
  Fin.ext (by show 1 * 1024 + e.val / 64 * 64 + d.val = 1024 + e.val / 64 * 64 + d.val; omega)

theorem feat_v (e : Fin 1024) : feat 2 (hd e) (ln e) = Cert.Spec.vcol e :=
  Fin.ext (by show 2 * 1024 + e.val / 64 * 64 + e.val % 64 = 2048 + e.val; omega)

/-- The projection stage as a function of plain coordinates. -/
def proj : Fin 4 → Fin 2048 → Fin 3072 → EReal :=
  fun b s f => (val_main_v3 (F := Ideal) x0 x1 x2 : S4x2048x3072.Idx → EReal) (ix3 b s f)

/-- The score row of column `e`'s head is the specification's score scaled after the sum. -/
theorem srow_eq (b : Fin 4) (i : Fin 2048) (e : Fin 1024) :
    srow x0 x1 x2 b (hd e) i = Cert.Spec.scoreR (proj x0 x1 x2) κR b i e := by
  funext j
  show val_main_v16 (F := Ideal) x0 x1 x2 (ix4 b (hd e) i j) = _
  rw [score_apply]
  simp only [feat_q, feat_k]
  rfl

/-- The reshaped context at (b, i, e) is the specification's context column. -/
theorem ctx30_apply (b : Fin 4) (i : Fin 2048) (e : Fin 1024) :
    val_main_v30 (F := Ideal) x0 x1 x2 (ix3 b i e)
      = Cert.Spec.ctx (Cert.Spec.scoreR (proj x0 x1 x2) κR) (proj x0 x1 x2) b i e := by
  rw [val_main_v30_apply, val_main_v29_apply, idx2930, ctx_apply, srow_eq, feat_v]
  rfl

/-! ### The output projection -/

theorem lidx31 (b : Fin 4) (i : Fin 2048) (f : Fin 1024) (k : Fin 1024) :
    lidx_main_v31 (ix3 b i f) k = ix3 b i k :=
  funext fun a => Fin.ext (by match a with | ⟨0, _⟩ => rfl | ⟨1, _⟩ => rfl | ⟨2, _⟩ => rfl)

theorem ridx31 (b : Fin 4) (i : Fin 2048) (f : Fin 1024) (k : Fin 1024) :
    ridx_main_v31 (ix3 b i f) k = ix2 f k :=
  funext fun a => Fin.ext (by match a with | ⟨0, _⟩ => rfl | ⟨1, _⟩ => rfl)

theorem bidx33 (b : Fin 4) (i : Fin 2048) (f : Fin 1024) :
    idx_main_v32 (idx_main_v33 (ix3 b i f)) = ix1 f :=
  funext fun a => Fin.ext (by match a with | ⟨0, _⟩ => rfl)

variable (x3 : (⟨S1024x1024, .f32⟩ : BufTy).Contents (Elt Ideal)) (x4 : (⟨S1024, .f32⟩ : BufTy).Contents (Elt Ideal))

/-- The last stage at (b, i, f) is the specification's output over the projection stage. -/
theorem out_apply (b : Fin 4) (i : Fin 2048) (f : Fin 1024) :
    (val_main_v34 (F := Ideal) x0 x1 x2 x3 x4 : S4x2048x1024.Idx → EReal) (ix3 b i f)
      = Cert.Spec.outR (proj x0 x1 x2) κR (fun f e => (x3 : S1024x1024.Idx → EReal) (ix2 f e))
          (fun f => (x4 : S1024.Idx → EReal) (ix1 f)) b i f := by
  rw [val_main_v34_apply, val_main_v31_apply, val_main_v33_apply, val_main_v32_apply]
  simp only [lidx31, ridx31, bidx33, ctx30_apply, Ideal.addf_def]
  rfl

/-- The projection stage is the specification's projection of the three argument arrays. -/
theorem proj_eq :
    proj x0 x1 x2 = Cert.Spec.qkv (fun b s e => (x0 : S4x2048x1024.Idx → EReal) (ix3 b s e))
      (fun f e => (x1 : S3072x1024.Idx → EReal) (ix2 f e)) (fun f => (x2 : S3072.Idx → EReal) (ix1 f)) := by
  funext b s f
  exact proj_apply x0 x1 x2 b s f

end Stages

/-- The reference's result at an index, as the specification's function of the five argument arrays. -/
theorem res_apply (m : (ℓ : Loc nD τ sig) → Buf (Elt Ideal) ℓ) (c : Dev nD) (b : Fin 4) (i : Fin 2048) (f : Fin 1024) :
    (res_out0 (F := Ideal) m c : S4x2048x1024.Idx → EReal) (ix3 b i f)
      = Cert.Spec.outR
          (Cert.Spec.qkv (fun b s e => (m ((c.tc : Thread nD τ).loc main_arg0) : S4x2048x1024.Idx → EReal) (ix3 b s e))
            (fun f e => (m ((c.tc : Thread nD τ).loc main_arg1) : S3072x1024.Idx → EReal) (ix2 f e))
            (fun f => (m ((c.tc : Thread nD τ).loc main_arg2) : S3072.Idx → EReal) (ix1 f)))
          κR
          (fun f e => (m ((c.tc : Thread nD τ).loc main_arg3) : S1024x1024.Idx → EReal) (ix2 f e))
          (fun f => (m ((c.tc : Thread nD τ).loc main_arg4) : S1024.Idx → EReal) (ix1 f)) b i f := by
  unfold res_out0
  rw [Read.val_main_v34_eq, out_apply, proj_eq]

end Cert.ReferenceIdeal.RefVal

end
-- ==== Proof.Finite.lean ====
/-
  The precondition read: every entry of the five argument arrays is a real number.
-/
import proofs.«409074_j27238682591490_3_alg».proof.Defs
import proofs.«409074_j27238682591490_3_alg».proof.Proof.Gen.Pre_finite_inputs
import Idealize.ShloMosaic.Lib.ValueIdx
import Idealize.ShloMosaic.Lib.ReduceAll
import Idealize.ShloMosaic.PureOps.Ideal.Laws

noncomputable section

namespace Cert.Finite

open Idealize.ShloMosaic Idealize.ShloMosaic.TcCoe Idealize.SL.Sem Cert.KernelIdeal

/-- The f32 word 0x7F800000 is the top element. -/
theorem ofBits_inf : Ideal.ofBits .f32 0x7F800000#32 = (⊤ : EReal) := by
  simp [Ideal.ofBits, Ideal.ieee]

/-- An extended real whose absolute value compares below the top element is a real. -/
theorem real_of_abs_lt (x : EReal)
    (h : Ideal.cmp .olt (max x (-x)) (Ideal.ofBits .f32 0x7F800000#32) = 1#1) : ∃ r : ℝ, x = (r : EReal) := by
  rw [ofBits_inf] at h
  induction x using EReal.rec with
  | bot => simp [Ideal.cmp] at h
  | coe r => exact ⟨r, rfl⟩
  | top => simp [Ideal.cmp] at h

instance : Subsingleton Cert.Pre_finite_inputs.S_.Idx := ⟨fun a b => funext fun d => d.elim0⟩

/-- One array's conjunct: if the conjunction over all entries of "the absolute value is below the top element"
    is 1, every entry is a real. -/
theorem all_real {S : Shape} {axes : List (Fin S.rank)} (hr : S.ReducesTo axes Cert.Pre_finite_inputs.S_)
    (hn : 0 < Cert.Pre_finite_inputs.S_.numel)
    (hb : Cert.Pre_finite_inputs.S_.BroadcastsInDim S (![] : Fin 0 → Fin S.rank)) (x : FVec Ideal S .f32)
    (init : IVec Cert.Pre_finite_inputs.S_ 1)
    (h : Host.reduce IntOp.andi
        (cmpf .olt (Host.absf x) (broadcastInDim S ![] hb (constant (F := Ideal) Cert.Pre_finite_inputs.S_ .f32 0x7F800000#32)))
        init hr hn ValueIdx.ix0 = 1#1) :
    ∀ i, ∃ r : ℝ, x i = (r : EReal) := by
  intro i
  exact real_of_abs_lt (x i) (Host.reduce_andi_all _ _ hr hn _ h i)

/-- Under the precondition each argument array of the idealized kernel holds real numbers only. -/
theorem args_real (m : (ℓ : Loc nD τ sig) → Buf (Elt Ideal) ℓ)
    (h : Cert.Pre_KernelIdeal (hPre_finite_inputs := Cert.Pre_finite_inputs.Gen.facts) m) (c : Dev nD) :
    (∀ i, ∃ r : ℝ, (m ((c.tc : Thread nD τ).loc main_arg0) : S4x2048x1024.Idx → EReal) i = (r : EReal))
    ∧ (∀ i, ∃ r : ℝ, (m ((c.tc : Thread nD τ).loc main_arg1) : S3072x1024.Idx → EReal) i = (r : EReal))
    ∧ (∀ i, ∃ r : ℝ, (m ((c.tc : Thread nD τ).loc main_arg2) : S3072.Idx → EReal) i = (r : EReal))
    ∧ (∀ i, ∃ r : ℝ, (m ((c.tc : Thread nD τ).loc main_arg3) : S1024x1024.Idx → EReal) i = (r : EReal))
    ∧ (∀ i, ∃ r : ℝ, (m ((c.tc : Thread nD τ).loc main_arg4) : S1024.Idx → EReal) i = (r : EReal)) := by
  have h0 := congrFun (h c) ValueIdx.ix0
  dsimp only [Cert.Pre_finite_inputs.fn, Cert.Pre_finite_inputs.fn_part1] at h0
  obtain ⟨h0123, h4⟩ := IntOp.andi_eq_one.1 h0
  obtain ⟨h012, h3⟩ := IntOp.andi_eq_one.1 h0123
  obtain ⟨h01, h2⟩ := IntOp.andi_eq_one.1 h012
  obtain ⟨h0', h1⟩ := IntOp.andi_eq_one.1 h01
  exact ⟨all_real _ _ _ _ _ h0', all_real _ _ _ _ _ h1, all_real _ _ _ _ _ h2, all_real _ _ _ _ _ h3,
    all_real _ _ _ _ _ h4⟩

end Cert.Finite

end
-- ==== Proof.lean ====
/-
  Multi-head attention with an output projection, in two pallas_calls, against its jnp reference: equal over the
  extended reals under finite inputs.

  The kernel program: x (as 8192 rows) is projected by the narrowed q/k/v weight plus bias in a first pallas_call
  (16 row blocks); a second pallas_call, over 4 batches × 8 blocks of 256 query rows, forms for each of 16 heads the
  scores of the query block (each query entry first scaled by 1/8) against the batch's 2048 keys, their row softmax,
  and the context, gathers the heads' contexts in a 256 × 1024 scratch, and projects that by the narrowed output weight
  plus bias. The reference: the same projection, a reshape and transposes to [batch, head, position, lane], the scores
  scaled AFTER the sum by 1 / sqrt 64, softmax, context, transposes back, the output projection.

  Frames: both kernel programs run as host stretch, region, host stretch, region (Proof/K/Run.lean at the word level,
  Proof/KI/Run.lean at any float instance: each region's body is run once at symbolic operands; the attention region
  reads the projected array through three windows, the core's hold on it divided among them); the reference is a
  straight line of host operations. No operation of the kernel was rewritten by the idealization, so `preserves` is trivial.
  Values: at the ideal values the kernel's result array is the specification's `outK` of the five arguments
  (Proof/KI/Glue.lean, from the two regions' values) and the reference's is `outR` (Proof/RefVal.lean); the projected array
  of real inputs is real, 1/sqrt 64 = 1/8 = the kernel's literal, and on reals scaling before or after the dot product
  is the same (Proof/Algebra.lean); the precondition makes the inputs real (Proof/Finite.lean).
-/
import proofs.«409074_j27238682591490_3_alg».proof.Defs
import proofs.«409074_j27238682591490_3_alg».proof.Proof.Gen.Kernel
import proofs.«409074_j27238682591490_3_alg».proof.Proof.Gen.KernelIdeal
import proofs.«409074_j27238682591490_3_alg».proof.Proof.Gen.ReferenceIdeal
import proofs.«409074_j27238682591490_3_alg».proof.Proof.Gen.ReferenceIdeal.Run
import proofs.«409074_j27238682591490_3_alg».proof.Proof.Gen.Pre_finite_inputs
import proofs.«409074_j27238682591490_3_alg».proof.Proof.K.Run
import proofs.«409074_j27238682591490_3_alg».proof.Proof.KI.Run
import proofs.«409074_j27238682591490_3_alg».proof.Proof.KI.Glue
import proofs.«409074_j27238682591490_3_alg».proof.Proof.RefVal
import proofs.«409074_j27238682591490_3_alg».proof.Proof.Algebra
import proofs.«409074_j27238682591490_3_alg».proof.Proof.Finite
import Idealize.ShloMosaic.Adequacy
import Idealize.ShloMosaic.Init

noncomputable section

namespace Cert.Proof

open Idealize.ShloMosaic Idealize.ShloMosaic.TcCoe Idealize.SL.Sem Idealize.ShloMosaic.ValueIdx

/-! ## The frames -/

theorem frame_k : Cert.frame_Kernel := fun m ρ _ =>
  (θ_run Cert.Kernel.defs _ _).mono (fun _ h c => (h c).2) (Cert.Kernel.Hand.run_main (F := Bits) m ρ)

theorem frame_ki : Cert.frame_KernelIdeal := fun m ρ _ =>
  (θ_run Cert.KernelIdeal.defs _ _).mono (fun _ h c => (h c).2) (Cert.KernelIdeal.Hand.run_main (F := Ideal) m ρ)

theorem frame_ri : Cert.frame_ReferenceIdeal := fun m ρ _ =>
  (θ_run Cert.ReferenceIdeal.defs _ _).mono (fun _ h c => (h c).2) (Cert.ReferenceIdeal.Value.run (F := Ideal) m ρ)

/-! ## The two results are one array -/

/-- From memories agreeing on the five arguments, finite on the kernel's side: the reference's result array is the
    array the kernel's run leaves — index by index both are the attention output, the kernel's with the scale 1/8 folded
    into the queries, the reference's with 1 / sqrt 64 applied to the scores; on the real projected array they agree. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (c : Dev Cert.KernelIdeal.nD) :
    Cert.ReferenceIdeal.Value.res_main_v34 (F := Ideal) m' c = Cert.KernelIdeal.Hand.res1 (F := Ideal) m c := by
  obtain ⟨h0, h1, h2, h3, h4⟩ := hagree c
  obtain ⟨r0, r1, r2, r3, r4⟩ := Cert.Finite.args_real m hpre c
  funext j
  obtain ⟨b, i, f, rfl⟩ : ∃ (b : Fin 4) (i : Fin 2048) (f : Fin 1024), j = ix3 b i f := ⟨j 0, j 1, j 2, eq_ix3 j⟩
  refine (Cert.ReferenceIdeal.RefVal.res_apply m' c b i f).trans ?_
  refine Eq.trans ?_ (Cert.KernelIdeal.Hand.kernel_val m c b i f).symm
  rw [h0, h1, h2, h3, h4, Cert.Spec.kappaK]
  show Cert.Spec.outR _ (Ideal.div (Ideal.ofBits .f32 0x3F800000#32) (Ideal.sqrt (Ideal.ofBits .f32 0x42800000#32))) _ _ b i f = _
  rw [Cert.Spec.kappaR]
  exact (congrFun (congrFun (congrFun (Cert.Spec.outK_eq_outR _
    (Cert.Spec.qkv_real _ _ _ (fun b s e => r0 (ix3 b s e)) (fun f e => r1 (ix2 f e)) (fun f => r2 (ix1 f))) _ _) b) i) f).symm

/-! ## The claims -/

/-- At the ideal values the kernel's run ends with its result array at what the attention region leaves, and the
    reference's run with the same array. -/
theorem algebraic : Cert.algebraic_KernelIdeal_ReferenceIdeal := by
  intro m ρ m' ρ' hpre hagree
  refine ⟨fun c => Cert.KernelIdeal.Hand.res1 (F := Ideal) m c, Cert.KernelIdeal.Hand.run_main (F := Ideal) m ρ, ?_⟩
  exact (θ_run Cert.ReferenceIdeal.defs _ _).mono
    (fun _ h c => ⟨(h c).1.trans (result_eq m m' hpre hagree c), (h c).2⟩)
    (Cert.ReferenceIdeal.Value.run (F := Ideal) m' ρ')

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
